-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x80 : Shape := ⟨2, ![1000000, 80]⟩
abbrev S1000000x4 : Shape := ⟨2, ![1000000, 4]⟩
abbrev S1000000 : Shape := ⟨1, ![1000000]⟩
abbrev S_ : Shape := ⟨0, ![]⟩

class Facts : Prop where
  bcast_S_S1000000x80 : S_.BroadcastsInDim S1000000x80 (![] : Fin 0 → Fin S1000000x80.rank)
  reducesTo_S1000000x80_S_d0_1 : S1000000x80.ReducesTo [0, 1] S_
  h_S_ : 0 < S_.numel
  bcast_S_S1000000x4 : S_.BroadcastsInDim S1000000x4 (![] : Fin 0 → Fin S1000000x4.rank)
  reducesTo_S1000000x4_S_d0_1 : S1000000x4.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg4 : IVec S1000000 32) (main_v13 : IVec S_ 1) (main_v16 : IVec S1000000x4 1) : IVec S_ 1 :=
  let main_c_5 : IVec S_ 1 := constantI S_ 1 1#1
  let main_v17 : IVec S_ 1 := (fun x v => Host.reduce IntOp.andi x v reducesTo_S1000000x4_S_d0_1 h_S_) main_v16 main_c_5
  let main_v18 : IVec S_ 1 := andi main_v13 main_v17
  let main_c_6 : IVec S_ 32 := constantI S_ 32 0#32
  let main_v19 : IVec S1000000 32 := broadcastInDim S1000000 ![] bcast_S_S1000000 main_c_6
  let main_v20 : IVec S1000000 1 := cmpi .sge main_arg4 main_v19
  let main_c_7 : IVec S_ 32 := constantI S_ 32 80#32
  let main_v21 : IVec S1000000 32 := broadcastInDim S1000000 ![] bcast_S_S1000000 main_c_7
  let main_v22 : IVec S1000000 1 := cmpi .slt main_arg4 main_v21
  let main_v23 : IVec S1000000 1 := andi main_v20 main_v22
  let main_c_8 : IVec S_ 1 := constantI S_ 1 1#1
  let main_v24 : IVec S_ 1 := (fun x v => Host.reduce IntOp.andi x v reducesTo_S1000000_S_d0 h_S_) main_v23 main_c_8
  let main_v25 : IVec S_ 1 := andi main_v18 main_v24
  main_v25

def fn {F : FTy → Type} [FloatOps F] (main_arg0 : FVec F S1000000x80 .f32) (main_arg1 : FVec F S1000000x4 .f32) (main_arg2 : FVec F S1000000 .f32) (main_arg3 : FVec F S1000000x4 .f32) (main_arg4 : IVec S1000000 32) : IVec S_ 1 :=
  let main_v0 : FVec F S1000000x80 .f32 := Host.absf main_arg0
  let main_cst : FVec F S_ .f32 := constant S_ .f32 0x7F800000#32
  let main_v1 : FVec F S1000000x80 .f32 := broadcastInDim S1000000x80 ![] bcast_S_S1000000x80 main_cst
  let main_v2 : IVec S1000000x80 1 := cmpf .olt main_v0 main_v1
  let main_c : IVec S_ 1 := constantI S_ 1 1#1
  let main_v3 : IVec S_ 1 := (fun x v => Host.reduce IntOp.andi x v reducesTo_S1000000x80_S_d0_1 h_S_) main_v2 main_c
  let main_v4 : FVec F S1000000x4 .f32 := Host.absf main_arg1
  let main_cst_0 : FVec F S_ .f32 := constant S_ .f32 0x7F800000#32
  let main_v5 : FVec F S1000000x4 .f32 := broadcastInDim S1000000x4 ![] bcast_S_S1000000x4 main_cst_0
  let main_v6 : IVec S1000000x4 1 := cmpf .olt main_v4 main_v5
  let main_c_1 : IVec S_ 1 := constantI S_ 1 1#1
  let main_v7 : IVec S_ 1 := (fun x v => Host.reduce IntOp.andi x v reducesTo_S1000000x4_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000x4 .f32 := Host.absf main_arg3
  let main_cst_4 : FVec F S_ .f32 := constant S_ .f32 0x7F800000#32
  let main_v15 : FVec F S1000000x4 .f32 := broadcastInDim S1000000x4 ![] bcast_S_S1000000x4 main_cst_4
  let main_v16 : IVec S1000000x4 1 := cmpf .olt main_v14 main_v15
  fn_part1 (F := F) main_arg4 main_v13 main_v16
-- ==== Kernel.lean ====
abbrev S1000000x80 : Shape := ⟨2, ![1000000, 80]⟩
abbrev S1000000x4 : Shape := ⟨2, ![1000000, 4]⟩
abbrev S1000000 : Shape := ⟨1, ![1000000]⟩
abbrev S_ : Shape := ⟨0, ![]⟩
abbrev S1015808x80 : Shape := ⟨2, ![1015808, 80]⟩
abbrev S1015808 : Shape := ⟨1, ![1015808]⟩
abbrev S1015808x1 : Shape := ⟨2, ![1015808, 1]⟩
abbrev S4x1000000 : Shape := ⟨2, ![4, 1000000]⟩
abbrev S4x1015808 : Shape := ⟨2, ![4, 1015808]⟩
abbrev S1x1000000 : Shape := ⟨2, ![1, 1000000]⟩
abbrev S1x1015808 : Shape := ⟨2, ![1, 1015808]⟩
abbrev S2x1x3 : Shape := ⟨3, ![2, 1, 3]⟩
abbrev S16384x80 : Shape := ⟨2, ![16384, 80]⟩
abbrev S4x16384 : Shape := ⟨2, ![4, 16384]⟩
abbrev S1x16384 : Shape := ⟨2, ![1, 16384]⟩
abbrev S16384x1 : Shape := ⟨2, ![16384, 1]⟩
abbrev S1x1x3 : Shape := ⟨3, ![1, 1, 3]⟩
abbrev S1x3 : Shape := ⟨2, ![1, 3]⟩
abbrev S16384 : Shape := ⟨1, ![16384]⟩
abbrev S1x16384x1 : Shape := ⟨3, ![1, 16384, 1]⟩
abbrev S1 : Shape := ⟨1, ![1]⟩
abbrev S1x1x1 : Shape := ⟨3, ![1, 1, 1]⟩
abbrev S1x1x16384 : Shape := ⟨3, ![1, 1, 16384]⟩
abbrev S1x1 : Shape := ⟨2, ![1, 1]⟩
abbrev S2x3 : Shape := ⟨2, ![2, 3]⟩
abbrev S3 : Shape := ⟨1, ![3]⟩

abbrev nBuf : Space → Nat
  | .hbm => 44
  | .vmem => 13
  | .smem => 0
  | _ => 0

abbrev bufTy : (tb : Table) → Fin (tcTables nBuf tb) → BufTy
  | .hbm, ⟨0, _⟩ => ⟨S1000000x80, .f32⟩
  | .hbm, ⟨1, _⟩ => ⟨S1000000x4, .f32⟩
  | .hbm, ⟨2, _⟩ => ⟨S1000000, .f32⟩
  | .hbm, ⟨3, _⟩ => ⟨S1000000x4, .f32⟩
  | .hbm, ⟨4, _⟩ => ⟨S1000000, .i32⟩
  | .hbm, ⟨5, _⟩ => ⟨S_, .i32⟩
  | .hbm, ⟨6, _⟩ => ⟨S_, .f32⟩
  | .hbm, ⟨7, _⟩ => ⟨S1015808x80, .f32⟩
  | .hbm, ⟨8, _⟩ => ⟨S_, .i32⟩
  | .hbm, ⟨9, _⟩ => ⟨S_, .i32⟩
  | .hbm, ⟨10, _⟩ => ⟨S1015808, .i32⟩
  | .hbm, ⟨11, _⟩ => ⟨S1015808x1, .i32⟩
  | .hbm, ⟨12, _⟩ => ⟨S4x1000000, .f32⟩
  | .hbm, ⟨13, _⟩ => ⟨S_, .i32⟩
  | .hbm, ⟨14, _⟩ => ⟨S_, .f32⟩
  | .hbm, ⟨15, _⟩ => ⟨S4x1015808, .f32⟩
  | .hbm, ⟨16, _⟩ => ⟨S4x1000000, .f32⟩
  | .hbm, ⟨17, _⟩ => ⟨S_, .i32⟩
  | .hbm, ⟨18, _⟩ => ⟨S_, .f32⟩
  | .hbm, ⟨19, _⟩ => ⟨S4x1015808, .f32⟩
  | .hbm, ⟨20, _⟩ => ⟨S1x1000000, .f32⟩
  | .hbm, ⟨21, _⟩ => ⟨S_, .i32⟩
  | .hbm, ⟨22, _⟩ => ⟨S_, .f32⟩
  | .hbm, ⟨23, _⟩ => ⟨S1x1015808, .f32⟩
  | .hbm, ⟨24, _⟩ => ⟨S2x1x3, .f32⟩
  | .hbm, ⟨25, _⟩ => ⟨S2x3, .f32⟩
  | .hbm, ⟨26, _⟩ => ⟨S_, .f32⟩
  | .hbm, ⟨27, _⟩ => ⟨S3, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S16384x80, .f32⟩
  | .local _ .vmem, ⟨1, _⟩ => ⟨S16384x80, .f32⟩
  | .local _ .vmem, ⟨2, _⟩ => ⟨S4x16384, .f32⟩
  | .local _ .vmem, ⟨3, _⟩ => ⟨S4x16384, .f32⟩
  | .local _ .vmem, ⟨4, _⟩ => ⟨S1x16384, .f32⟩
  | .local _ .vmem, ⟨5, _⟩ => ⟨S1x16384, .f32⟩
  | .local _ .vmem, ⟨6, _⟩ => ⟨S4x16384, .f32⟩
  | .local _ .vmem, ⟨7, _⟩ => ⟨S4x16384, .f32⟩
  | .local _ .vmem, ⟨8, _⟩ => ⟨S16384x1, .i32⟩
  | .local _ .vmem, ⟨9, _⟩ => ⟨S16384x1, .i32⟩
  | .local _ .vmem, ⟨10, _⟩ => ⟨S1x1x3, .f32⟩
  | .local _ .vmem, ⟨11, _⟩ => ⟨S1x1x3, .f32⟩
  | .local _ .vmem, ⟨12, _⟩ => ⟨S1x3, .f32⟩
  | _, _ => ⟨S1000000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_call3_v0 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_call4_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 31], ![false, false]⟩

def k0_cond2 (i : grid0.Coords) : BitVec 1 :=
  let arg1 : BitVec 32 := BitVec.ofNat 32 (i 1).val
  let c30_i32 : BitVec 32 := 30#32
  let v138 : BitVec 1 := Scalar.cmpi .eq arg1 c30_i32
  let v139 : BitVec 32 := Scalar.extui v138
  let c0_i32_35 : BitVec 32 := 0#32
  let v140 : BitVec 1 := Scalar.cmpi .ne v139 c0_i32_35
  v140

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16384x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  pads_S1000000x80_S1015808x80_0158080_000 : S1000000x80.Pads (![0, 0] : Fin 2 → Nat) ![15808, 0] ![0, 0] S1015808x80
  h_S_ : 0 < S_.numel
  pads_S1000000_S1015808_0158080 : S1000000.Pads (![0] : Fin 1 → Nat) ![15808] ![0] S1015808
  shapeCasts_S1015808_S1015808x1 : S1015808.ShapeCasts S1015808x1
  transposes_S1000000x4_S4x1000000_1_0 : S1000000x4.Transposes [1, 0] S4x1000000
  pads_S4x1000000_S4x1015808_000_0158080 : S4x1000000.Pads (![0, 0] : Fin 2 → Nat) ![0, 15808] ![0, 0] S4x1015808
  shapeCasts_S1000000_S1x1000000 : S1000000.ShapeCasts S1x1000000
  pads_S1x1000000_S1x1015808_000_0158080 : S1x1000000.Pads (![0, 0] : Fin 2 → Nat) ![0, 15808] ![0, 0] S1x1015808
  inb_S1x3_S1x3_0_0 : ∀ a, (![0, 0] : Fin 2 → Nat) a + S1x3.size a ≤ S1x3.size a
  h_S1x3 : 0 < S1x3.numel
  shapeCasts_S1x3_S1x3 : S1x3.ShapeCasts S1x3
  iota_S16384x1_d0_w32 : S16384x1.Iotas .tc 32 [0]
  iota_S1x16384_d1_w32 : S1x16384.Iotas .tc 32 [1]
  inb_S16384x80_S16384x80_0_0 : ∀ a, (![0, 0] : Fin 2 → Nat) a + S16384x80.size a ≤ S16384x80.size a
  h_S16384x80 : 0 < S16384x80.numel
  shapeCasts_S16384x80_S16384x80 : S16384x80.ShapeCasts S16384x80
  reduces_S16384x80_S16384 : S16384x80.Reduces [1] S16384
  shapeCasts_S16384_S16384x1 : S16384.ShapeCasts S16384x1
  broadcasts_S16384x1_S16384x80 : S16384x1.Broadcasts S16384x80
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  iota_S16384x80_d1_w32 : S16384x80.Iotas .tc 32 [1]
  shapeCasts_S16384x1_S1x16384x1 : S16384x1.ShapeCasts S1x16384x1
  reduces_S1x16384x1_S1 : S1x16384x1.Reduces [1, 2] S1
  shapeCasts_S1_S1x1x1 : S1.ShapeCasts S1x1x1
  inpos_S1x1x1_p0_0_0 : ∀ a, (![0, 0, 0] : Fin 3 → Nat) a < S1x1x1.size a
  inb_S4x16384_S4x16384_0_0 : ∀ a, (![0, 0] : Fin 2 → Nat) a + S4x16384.size a ≤ S4x16384.size a
  h_S4x16384 : 0 < S4x16384.numel
  shapeCasts_S4x16384_S4x16384 : S4x16384.ShapeCasts S4x16384
  slices_S4x16384_o0_0_S1x16384 : S4x16384.Slices ![0, 0] S1x16384
  slices_S4x16384_o1_0_S1x16384 : S4x16384.Slices ![1, 0] S1x16384
  slices_S4x16384_o2_0_S1x16384 : S4x16384.Slices ![2, 0] S1x16384
  slices_S4x16384_o3_0_S1x16384 : S4x16384.Slices ![3, 0] S1x16384
  shapeCasts_S1x16384_S1x1x16384 : S1x16384.ShapeCasts S1x1x16384
  reduces_S1x1x16384_S1 : S1x1x16384.Reduces [1, 2] S1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  concatenates_S1x1_S1x1_S1x1_S1x3_d1 : Shape.Concatenates [S1x1, S1x1, S1x1] S1x3 1
  shapeCasts_S1x3_S1x1x3 : S1x3.ShapeCasts S1x1x3
  inb_S1x1x3_S1x1x3_0_0_0 : ∀ a, (![0, 0, 0] : Fin 3 → Nat) a + S1x1x3.size a ≤ S1x1x3.size a
  h_S1x1x3 : 0 < S1x1x3.numel
  shapeCasts_S2x1x3_S2x3 : S2x1x3.ShapeCasts S2x3
  reducesTo_S2x3_S3_d0 : S2x3.ReducesTo [0] S3
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x80.size a ≤ S1015808x80.size a
  hwx0_0 : ∀ i : grid0.Coords, EltTy.bits .f32 = 32 ∨ (Rect.block (s := S1015808x80) S16384x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16384.size a ≤ S4x1015808.size a
  hwx0_1 : ∀ i : grid0.Coords, EltTy.bits .f32 = 32 ∨ (Rect.block (s := S4x1015808) S4x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x1015808.size a
  hwx0_2 : ∀ i : grid0.Coords, EltTy.bits .f32 = 32 ∨ (Rect.block (s := S1x1015808) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x16384.size a ≤ S4x1015808.size a
  hwx0_3 : ∀ i : grid0.Coords, EltTy.bits .f32 = 32 ∨ (Rect.block (s := S4x1015808) S4x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16384x1.size a ≤ S1015808x1.size a
  hwx0_4 : ∀ i : grid0.Coords, EltTy.bits .i32 = 32 ∨ (Rect.block (s := S1015808x1) S16384x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x3.size a ≤ S2x1x3.size a
  hwx0_5 : ∀ i : grid0.Coords, EltTy.bits .f32 = 32 ∨ (Rect.block (s := S2x1x3) S1x1x3.size (cc0_transform_5 i) (hinb0_5 i)).WholeWords (EltTy.packing .f32)

variable [Facts₀]

abbrev win0_0 : Pipeline.Window sig grid0 :=
  Pipeline.Window.ofSpec (Memref.whole main_v0) S16384x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16384x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1000000x80 : Shape := ⟨2, ![1000000, 80]⟩
abbrev S1000000x4 : Shape := ⟨2, ![1000000, 4]⟩
abbrev S1000000 : Shape := ⟨1, ![1000000]⟩
abbrev S_ : Shape := ⟨0, ![]⟩
abbrev S1000000x1 : Shape := ⟨2, ![1000000, 1]⟩
abbrev S1000000x1x1 : Shape := ⟨3, ![1000000, 1, 1]⟩
abbrev S1 : Shape := ⟨1, ![1]⟩
abbrev S1x1x1 : Shape := ⟨3, ![1, 1, 1]⟩

abbrev nBuf : Space → Nat
  | .hbm => 147
  | .vmem => 0
  | .smem => 0
  | _ => 0

abbrev hbmTy0_0 (i : Nat) : BufTy := match i % 128 with
  | 0 => ⟨S1000000x80, .f32⟩
  | 1 => ⟨S1000000x4, .f32⟩
  | 2 => ⟨S1000000, .f32⟩
  | 3 => ⟨S1000000x4, .f32⟩
  | 4 => ⟨S1000000, .i32⟩
  | 5 => ⟨S_, .f32⟩
  | 6 => ⟨S1000000, .f32⟩
  | 7 => ⟨S_, .f32⟩
  | 8 => ⟨S1000000, .f32⟩
  | 9 => ⟨S1000000, .f32⟩
  | 10 => ⟨S1000000x1, .f32⟩
  | 11 => ⟨S1000000x80, .f32⟩
  | 12 => ⟨S1000000x80, .f32⟩
  | 13 => ⟨S1000000x80, .f32⟩
  | 14 => ⟨S_, .f32⟩
  | 15 => ⟨S1000000, .f32⟩
  | 16 => ⟨S1000000x1, .f32⟩
  | 17 => ⟨S1000000x1, .f32⟩
  | 18 => ⟨S1000000x80, .f32⟩
  | 19 => ⟨S1000000x80, .f32⟩
  | 20 => ⟨S1000000x1, .i32⟩
  | 21 => ⟨S_, .i32⟩
  | 22 => ⟨S1000000x1, .i32⟩
  | 23 => ⟨S1000000x1, .i1⟩
  | 24 => ⟨S_, .i32⟩
  | 25 => ⟨S1000000x1, .i32⟩
  | 26 => ⟨S1000000x1, .i32⟩
  | 27 => ⟨S1000000x1, .i32⟩
  | 28 => ⟨S1000000x1x1, .i32⟩
  | 29 => ⟨S1, .i32⟩
  | 30 => ⟨S_, .i32⟩
  | 31 => ⟨S1000000x1x1, .i32⟩
  | 32 => ⟨S1000000x1x1, .i1⟩
  | 33 => ⟨S1x1x1, .i32⟩
  | 34 => ⟨S1000000x1x1, .i32⟩
  | 35 => ⟨S1000000x1x1, .i1⟩
  | 36 => ⟨S1000000x1x1, .i1⟩
  | 37 => ⟨S_, .i1⟩
  | 38 => ⟨S1000000x1, .i1⟩
  | 39 => ⟨S1000000x1, .f32⟩
  | 40 => ⟨S_, .f32⟩
  | 41 => ⟨S1000000x1, .f32⟩
  | 42 => ⟨S1000000x1, .f32⟩
  | 43 => ⟨S1000000, .f32⟩
  | 44 => ⟨S1000000, .f32⟩
  | 45 => ⟨S1000000, .f32⟩
  | 46 => ⟨S1000000, .f32⟩
  | 47 => ⟨S_, .f32⟩
  | 48 => ⟨S1000000, .f32⟩
  | 49 => ⟨S1000000, .f32⟩
  | 50 => ⟨S_, .f32⟩
  | 51 => ⟨S1000000, .f32⟩
  | 52 => ⟨S1000000, .f32⟩
  | 53 => ⟨S_, .f32⟩
  | 54 => ⟨S1000000, .f32⟩
  | 55 => ⟨S1000000, .f32⟩
  | 56 => ⟨S1000000, .f32⟩
  | 57 => ⟨S_, .f32⟩
  | 58 => ⟨S_, .f32⟩
  | 59 => ⟨S_, .f32⟩
  | 60 => ⟨S_, .f32⟩
  | 61 => ⟨S1000000x1, .f32⟩
  | 62 => ⟨S1000000, .f32⟩
  | 63 => ⟨S1000000x1, .f32⟩
  | 64 => ⟨S1000000, .f32⟩
  | 65 => ⟨S1000000x1, .f32⟩
  | 66 => ⟨S1000000, .f32⟩
  | 67 => ⟨S1000000x1, .f32⟩
  | 68 => ⟨S1000000, .f32⟩
  | 69 => ⟨S1000000x1, .f32⟩
  | 70 => ⟨S1000000, .f32⟩
  | 71 => ⟨S1000000x1, .f32⟩
  | 72 => ⟨S1000000, .f32⟩
  | 73 => ⟨S1000000x1, .f32⟩
  | 74 => ⟨S1000000, .f32⟩
  | 75 => ⟨S1000000x1, .f32⟩
  | 76 => ⟨S1000000, .f32⟩
  | 77 => ⟨S1000000, .f32⟩
  | 78 => ⟨S1000000, .f32⟩
  | 79 => ⟨S1000000, .f32⟩
  | 80 => ⟨S_, .f32⟩
  | 81 => ⟨S_, .f32⟩
  | 82 => ⟨S1000000, .f32⟩
  | 83 => ⟨S1000000, .f32⟩
  | 84 => ⟨S1000000, .f32⟩
  | 85 => ⟨S1000000, .f32⟩
  | 86 => ⟨S1000000, .f32⟩
  | 87 => ⟨S_, .f32⟩
  | 88 => ⟨S_, .f32⟩
  | 89 => ⟨S1000000, .f32⟩
  | 90 => ⟨S1000000, .f32⟩
  | 91 => ⟨S1000000, .f32⟩
  | 92 => ⟨S1000000, .f32⟩
  | 93 => ⟨S1000000, .f32⟩
  | 94 => ⟨S1000000, .f32⟩
  | 95 => ⟨S1000000, .f32⟩
  | 96 => ⟨S1000000, .f32⟩
  | 97 => ⟨S1000000, .f32⟩
  | 98 => ⟨S1000000, .f32⟩
  | 99 => ⟨S1000000, .f32⟩
  | 100 => ⟨S_, .f32⟩
  | 101 => ⟨S1000000, .f32⟩
  | 102 => ⟨S1000000, .f32⟩
  | 103 => ⟨S1000000, .f32⟩
  | 104 => ⟨S1000000, .f32⟩
  | 105 => ⟨S1000000, .f32⟩
  | 106 => ⟨S1000000, .f32⟩
  | 107 => ⟨S1000000, .f32⟩
  | 108 => ⟨S1000000, .f32⟩
  | 109 => ⟨S1000000, .f32⟩
  | 110 => ⟨S1000000, .f32⟩
  | 111 => ⟨S1000000, .f32⟩
  | 112 => ⟨S_, .f32⟩
  | 113 => ⟨S1000000, .f32⟩
  | 114 => ⟨S1000000, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S_, .f32⟩
  | 121 => ⟨S_, .f32⟩
  | 122 => ⟨S_, .f32⟩
  | 123 => ⟨S_, .f32⟩
  | 124 => ⟨S1000000, .f32⟩
  | 125 => ⟨S_, .f32⟩
  | 126 => ⟨S1000000, .f32⟩
  | 127 => ⟨S1000000, .f32⟩
  | _ => ⟨S1000000x80, .f32⟩

abbrev hbmTy0_1 (i : Nat) : BufTy := match i % 128 with
  | 0 => ⟨S1000000, .f32⟩
  | 1 => ⟨S1000000, .f32⟩
  | 2 => ⟨S1000000, .i1⟩
  | 3 => ⟨S1000000, .f32⟩
  | 4 => ⟨S1000000, .f32⟩
  | 5 => ⟨S1000000, .f32⟩
  | 6 => ⟨S1000000, .f32⟩
  | 7 => ⟨S1000000, .f32⟩
  | 8 => ⟨S1000000, .f32⟩
  | 9 => ⟨S1000000, .f32⟩
  | 10 => ⟨S1000000, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S1000000x80, .f32⟩

abbrev hbmTy (i : Nat) : BufTy := match i / 128 with
  | 0 => hbmTy0_0 i
  | 1 => hbmTy0_1 i
  | _ => ⟨S1000000x80, .f32⟩

abbrev bufTy : (tb : Table) → Fin (tcTables nBuf tb) → BufTy
  | .hbm, ⟨i, _⟩ => hbmTy i
  | _, _ => ⟨S1000000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_v8 : Ref sig .tc := ⟨.hbm, 49, rfl⟩
abbrev main_cst_0 : Ref sig .tc := ⟨.hbm, 50, rfl⟩
abbrev main_v9 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_cst_2 : Ref sig .tc := ⟨.hbm, 57, rfl⟩
abbrev main_v14 : Ref sig .tc := ⟨.hbm, 58, rfl⟩
abbrev main_cst_3 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_4 : Ref sig .tc := ⟨.hbm, 80, rfl⟩
abbrev main_call2_v0 : Ref sig .tc := ⟨.hbm, 81, rfl⟩
abbrev main_call2_v1 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_5 : Ref sig .tc := ⟨.hbm, 87, rfl⟩
abbrev main_call3_v0 : Ref sig .tc := ⟨.hbm, 88, rfl⟩
abbrev main_call3_v1 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_6 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_7 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_8 : Ref sig .tc := ⟨.hbm, 117, rfl⟩
abbrev main_v64 : Ref sig .tc := ⟨.hbm, 118, rfl⟩
abbrev main_v65 : Ref sig .tc := ⟨.hbm, 119, rfl⟩
abbrev main_cst_9 : Ref sig .tc := ⟨.hbm, 120, rfl⟩
abbrev main_v66 : Ref sig .tc := ⟨.hbm, 121, rfl⟩
abbrev main_cst_10 : Ref sig .tc := ⟨.hbm, 122, rfl⟩
abbrev main_v67 : Ref sig .tc := ⟨.hbm, 123, rfl⟩
abbrev main_v68 : Ref sig .tc := ⟨.hbm, 124, rfl⟩
abbrev main_cst_11 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_12 : Ref sig .tc := ⟨.hbm, 139, rfl⟩
abbrev main_v82 : Ref sig .tc := ⟨.hbm, 140, rfl⟩
abbrev main_cst_13 : Ref sig .tc := ⟨.hbm, 141, rfl⟩
abbrev main_v83 : Ref sig .tc := ⟨.hbm, 142, rfl⟩
abbrev main_v84 : Ref sig .tc := ⟨.hbm, 143, rfl⟩
abbrev main_cst_14 : Ref sig .tc := ⟨.hbm, 144, rfl⟩
abbrev main_v85 : Ref sig .tc := ⟨.hbm, 145, rfl⟩
abbrev main_v86 : Ref sig .tc := ⟨.hbm, 146, rfl⟩

abbrev nD : Nat := 1
abbrev τ : Topo := Topo.v7x

variable {F : FTy → Type} [FloatOps F]

class Facts₀ : Prop where
  reducesTo_S1000000x80_S1000000_d1 : S1000000x80.ReducesTo [1] S1000000
  h_S_ : 0 < S_.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x80_0_1 : S1000000x1.BroadcastsInDim S1000000x80 (![0, 1] : Fin 2 → Fin S1000000x80.rank)
  bcast_S_S1000000x1 : S_.BroadcastsInDim S1000000x1 (![] : Fin 0 → Fin S1000000x1.rank)
  shapeCasts_S1000000x1_S1000000x1x1 : S1000000x1.ShapeCasts S1000000x1x1
  bcast_S_S1000000x1x1 : S_.BroadcastsInDim S1000000x1x1 (![] : Fin 0 → Fin S1000000x1x1.rank)
  bcast_S1_S1x1x1_2 : S1.BroadcastsInDim S1x1x1 (![2] : Fin 1 → Fin S1x1x1.rank)
  bcast_S1x1x1_S1000000x1x1_0_1_2 : S1x1x1.BroadcastsInDim S1000000x1x1 (![0, 1, 2] : Fin 3 → Fin S1000000x1x1.rank)
  reducesTo_S1000000x1x1_S1000000x1_d2 : S1000000x1x1.ReducesTo [2] S1000000x1
  shapeCasts_S1000000x1_S1000000 : S1000000x1.ShapeCasts S1000000
  reducesTo_S1000000_S_d0 : S1000000.ReducesTo [0] S_
  slices_S1000000x4_S1000000x1_0_0 : S1000000x4.Slices ![0, 0] S1000000x1
  slices_S1000000x4_S1000000x1_0_1 : S1000000x4.Slices ![0, 1] S1000000x1
  slices_S1000000x4_S1000000x1_0_2 : S1000000x4.Slices ![0, 2] S1000000x1
  slices_S1000000x4_S1000000x1_0_3 : S1000000x4.Slices ![0, 3] S1000000x1
  gather_S1000000x80_S1000000x1x1_S1000000x1_n_1_0_0_1_2_11_wf : GatherDims.WF S1000000x80 S1000000x1x1 S1000000x1 [] [1] [0] [1] [0] 2 ![1, 1]

variable [Facts₀]

def gather_S1000000x80_S1000000x1x1_S1000000x1_n_1_0_0_1_2_11 : GatherDims S1000000x80 S1000000x1x1 S1000000x1 where
  offsetDims := []
  collapsedSliceDims := [1]
  operandBatchingDims := [0]
  startIndicesBatchingDims := [0]
  startIndexMap := [1]
  indexVectorDim := 2
  sliceSizes := ![1, 1]
  wf := gather_S1000000x80_S1000000x1x1_S1000000x1_n_1_0_0_1_2_11_wf

class Facts : Prop extends Facts₀ where

variable [Facts]
-- ==== Proof.LibTRef.lean ====
/-
  Typed references of a host program's inlined functions.

  An operation of an inlined function reads its operand out of the buffer's own contents type into the type of the
  tensor value, and puts its result back, along the reference's type equation. Moving contents to the buffer's type
  and back again is the identity, and so is the other way round, for EVERY typed reference: substitute the type
  equation and both moves are the identity. A chain of such operations read back as one term therefore loses every
  inner pair of moves, and only the one at its result and the ones at its inputs remain.
-/
import Idealize.ShloMosaic.Lib.StableHlo

namespace Cert.Lib.TRef

open Idealize.ShloMosaic Idealize.ShloMosaic.StableHlo

variable {sig : RefSig} {Val : EltTy → Type} {T : BufTy}

/-- Contents of the value's type moved to the buffer's type and back are the contents. -/
theorem ofBuf_toBuf (x : TRef sig T) (v : T.Contents Val) : x.ofBuf (x.toBuf v) = v := by
  obtain ⟨r, rfl, hd, hs⟩ := x
  rfl

/-- Contents of the buffer's type moved to the value's type and back are the contents. -/
theorem toBuf_ofBuf (x : TRef sig T) (v : x.ref.ty.Contents Val) : x.toBuf (x.ofBuf v) = v := by
  obtain ⟨r, rfl, hd, hs⟩ := x
  rfl

end Cert.Lib.TRef
-- ==== Proof.RefRunH15.lean ====
/-
  The reference's focal mean as its operations leave it, read through the program's fold one
  stretch at a time: the log-softmax (15 operations) leaves the shifted logits minus their
  log-sum-exp as a function of the logits; the class column and the take along the class axis (23
  operations) leave the gathered entry as a function of that array and the class words; the next
  18 operations leave the mean as a function of the gathered entries. No later operation writes
  the mean's buffer. Composed, the three functions are the staged function of the arguments.
-/
import proofs.«408445_j48344151884162_2_alg».proof.Proof.RefRunOps
import proofs.«408445_j48344151884162_2_alg».proof.Proof.RefReadP
import proofs.«408445_j48344151884162_2_alg».proof.Proof.LibTRef
import Idealize.ShloMosaic.Lib.StableHlo.Run
import Idealize.ShloMosaic.Lib.Pipeline.Frame

noncomputable section

namespace Cert.ReferenceIdeal.RunH

open Cert.ReferenceIdeal Cert.ReferenceIdeal.Gen Cert.ReferenceIdeal.RunOps Cert.ReferenceIdeal.ReadP
open Idealize.ShloMosaic Idealize.ShloMosaic.TcCoe Idealize.SL.Sem Idealize.ShloMosaic.StableHlo

variable {F : FTy → Type} [FloatOps F]

/-! ## The 142 operations in four stretches -/

/-- Operations 1 to 15: the log-softmax. -/
private abbrev ops15A : List (HloOp τ sig (Elt F)) :=
  [ TRef.nullary (TRef.of (T := ⟨S_, .f32⟩) main_call0_cst) (constant S_ .f32 0xFF800000#32),
    TRef.binary (TRef.of (T := ⟨S1000000x80, .f32⟩) main_arg0) (TRef.of (T := ⟨S_, .f32⟩) main_call0_cst) (TRef.of (T := ⟨S1000000, .f32⟩) main_call0_v0) (fun x v => Host.reduce FloatOps.maximumf x v reducesTo_S1000000x80_S1000000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1000000, .f32⟩) main_call0_v1) (broadcastInDim S1000000 ![] bcast_S_S1000000),
    TRef.binary (TRef.of (T := ⟨S1000000, .f32⟩) main_call0_v1) (TRef.of (T := ⟨S1000000, .f32⟩) main_call0_v0) (TRef.of (T := ⟨S1000000, .f32⟩) main_call0_v2) maximumf,
    TRef.unary (TRef.of (T := ⟨S1000000, .f32⟩) main_call0_v2) (TRef.of (T := ⟨S1000000x1, .f32⟩) main_call0_v3) (broadcastInDim S1000000x1 ![0] bcast_S1000000_S1000000x1_0),
    TRef.unary (TRef.of (T := ⟨S1000000x1, .f32⟩) main_call0_v3) (TRef.of (T := ⟨S1000000x80, .f32⟩) main_call0_v4) (broadcastInDim S1000000x80 ![0, 1] bcast_S1000000x1_S1000000x80_0_1),
    TRef.binary (TRef.of (T := ⟨S1000000x80, .f32⟩) main_arg0) (TRef.of (T := ⟨S1000000x80, .f32⟩) main_call0_v4) (TRef.of (T := ⟨S1000000x80, .f32⟩) main_call0_v5) subf,
    TRef.unary (TRef.of (T := ⟨S1000000x80, .f32⟩) main_call0_v5) (TRef.of (T := ⟨S1000000x80, .f32⟩) main_call0_v6) Host.exp,
    TRef.nullary (TRef.of (T := ⟨S_, .f32⟩) main_call0_cst_1) (constant S_ .f32 0x00000000#32),
    TRef.binary (TRef.of (T := ⟨S1000000x80, .f32⟩) main_call0_v6) (TRef.of (T := ⟨S_, .f32⟩) main_call0_cst_1) (TRef.of (T := ⟨S1000000, .f32⟩) main_call0_v7) (fun x v => Host.reduceAdd x v reducesTo_S1000000x80_S1000000_d1 h_S_),
    TRef.unary (TRef.of (T := ⟨S1000000, .f32⟩) main_call0_v7) (TRef.of (T := ⟨S1000000x1, .f32⟩) main_call0_v8) (broadcastInDim S1000000x1 ![0] bcast_S1000000_S1000000x1_0),
    TRef.unary (TRef.of (T := ⟨S1000000x1, .f32⟩) main_call0_v8) (TRef.of (T := ⟨S1000000x1, .f32⟩) main_call0_v9) Host.log,
    TRef.unary (TRef.of (T := ⟨S1000000x1, .f32⟩) main_call0_v9) (TRef.of (T := ⟨S1000000x80, .f32⟩) main_call0_v10) (broadcastInDim S1000000x80 ![0, 1] bcast_S1000000x1_S1000000x80_0_1),
    TRef.binary (TRef.of (T := ⟨S1000000x80, .f32⟩) main_call0_v5) (TRef.of (T := ⟨S1000000x80, .f32⟩) main_call0_v10) (TRef.of (T := ⟨S1000000x80, .f32⟩) main_v0) subf ]

/-- Operations 16 to 38: the class column and the take along the class axis. -/
private abbrev ops15B : List (HloOp τ sig (Elt F)) :=
  [ unary main_arg4 main_v1 (broadcastInDim S1000000x1 ![0] bcast_S1000000_S1000000x1_0 : (⟨S1000000, .i32⟩ : BufTy).Contents (Elt F) → (⟨S1000000x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1000000x1, .i32⟩) main_call1_v0) (broadcastInDim S1000000x1 ![] bcast_S_S1000000x1),
    TRef.binary (TRef.of (T := ⟨S1000000x1, .i32⟩) main_v1) (TRef.of (T := ⟨S1000000x1, .i32⟩) main_call1_v0) (TRef.of (T := ⟨S1000000x1, .i1⟩) main_call1_v1) (cmpi .slt),
    TRef.nullary (TRef.of (T := ⟨S_, .i32⟩) main_call1_c_0) (constantI S_ 32 80#32),
    TRef.unary (TRef.of (T := ⟨S_, .i32⟩) main_call1_c_0) (TRef.of (T := ⟨S1000000x1, .i32⟩) main_call1_v2) (broadcastInDim S1000000x1 ![] bcast_S_S1000000x1),
    TRef.binary (TRef.of (T := ⟨S1000000x1, .i32⟩) main_v1) (TRef.of (T := ⟨S1000000x1, .i32⟩) main_call1_v2) (TRef.of (T := ⟨S1000000x1, .i32⟩) main_call1_v3) addi,
    TRef.ternary (TRef.of (T := ⟨S1000000x1, .i1⟩) main_call1_v1) (TRef.of (T := ⟨S1000000x1, .i32⟩) main_call1_v3) (TRef.of (T := ⟨S1000000x1, .i32⟩) main_v1) (TRef.of (T := ⟨S1000000x1, .i32⟩) main_call1_v4) select,
    TRef.reshape (TRef.of (T := ⟨S1000000x1, .i32⟩) main_call1_v4) (TRef.of (T := ⟨S1000000x1x1, .i32⟩) main_call1_v5) rfl shapeCasts_S1000000x1_S1000000x1x1,
    TRef.nullary (TRef.of (T := ⟨S1, .i32⟩) main_call1_c_1) (constantI S1 32 79#32),
    TRef.nullary (TRef.of (T := ⟨S_, .i32⟩) main_call1_c_2) (constantI S_ 32 0#32),
    TRef.unary (TRef.of (T := ⟨S_, .i32⟩) main_call1_c_2) (TRef.of (T := ⟨S1000000x1x1, .i32⟩) main_call1_v6) (broadcastInDim S1000000x1x1 ![] bcast_S_S1000000x1x1),
    TRef.binary (TRef.of (T := ⟨S1000000x1x1, .i32⟩) main_call1_v5) (TRef.of (T := ⟨S1000000x1x1, .i32⟩) main_call1_v6) (TRef.of (T := ⟨S1000000x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1000000x1x1, .i32⟩) main_call1_v9) (broadcastInDim S1000000x1x1 ![0, 1, 2] bcast_S1x1x1_S1000000x1x1_0_1_2),
    TRef.binary (TRef.of (T := ⟨S1000000x1x1, .i32⟩) main_call1_v5) (TRef.of (T := ⟨S1000000x1x1, .i32⟩) main_call1_v9) (TRef.of (T := ⟨S1000000x1x1, .i1⟩) main_call1_v10) (cmpi .sle),
    TRef.binary (TRef.of (T := ⟨S1000000x1x1, .i1⟩) main_call1_v7) (TRef.of (T := ⟨S1000000x1x1, .i1⟩) main_call1_v10) (TRef.of (T := ⟨S1000000x1x1, .i1⟩) main_call1_v11) andi,
    TRef.nullary (TRef.of (T := ⟨S_, .i1⟩) main_call1_c_3) (constantI S_ 1 1#1),
    TRef.binary (TRef.of (T := ⟨S1000000x1x1, .i1⟩) main_call1_v11) (TRef.of (T := ⟨S_, .i1⟩) main_call1_c_3) (TRef.of (T := ⟨S1000000x1, .i1⟩) main_call1_v12) (fun x v => Host.reduce IntOp.andi x v reducesTo_S1000000x1x1_S1000000x1_d2 h_S_),
    TRef.binary (TRef.of (T := ⟨S1000000x80, .f32⟩) main_v0) (TRef.of (T := ⟨S1000000x1x1, .i32⟩) main_call1_v5) (TRef.of (T := ⟨S1000000x1, .f32⟩) main_call1_v13) (fun x i => Host.gather gather_S1000000x80_S1000000x1x1_S1000000x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1000000x1, .f32⟩) main_call1_v14) (broadcastInDim S1000000x1 ![] bcast_S_S1000000x1),
    TRef.ternary (TRef.of (T := ⟨S1000000x1, .i1⟩) main_call1_v12) (TRef.of (T := ⟨S1000000x1, .f32⟩) main_call1_v13) (TRef.of (T := ⟨S1000000x1, .f32⟩) main_call1_v14) (TRef.of (T := ⟨S1000000x1, .f32⟩) main_v2) select ]

/-- Operations 39 to 56: from the gathered entries to the focal mean. -/
private abbrev ops15C : List (HloOp τ sig (Elt F)) :=
  [ reshape main_v2 main_v3 rfl shapeCasts_S1000000x1_S1000000,
    unary main_v3 main_v4 (Host.negf : (⟨S1000000, .f32⟩ : BufTy).Contents (Elt F) → (⟨S1000000, .f32⟩ : BufTy).Contents (Elt F)),
    unary main_v4 main_v5 (Host.negf : (⟨S1000000, .f32⟩ : BufTy).Contents (Elt F) → (⟨S1000000, .f32⟩ : BufTy).Contents (Elt F)),
    unary main_v5 main_v6 (Host.exp : (⟨S1000000, .f32⟩ : BufTy).Contents (Elt F) → (⟨S1000000, .f32⟩ : BufTy).Contents (Elt F)),
    nullary main_cst (constant S_ .f32 0x3F800000#32),
    unary main_cst main_v7 (broadcastInDim S1000000 ![] bcast_S_S1000000 : (⟨S_, .f32⟩ : BufTy).Contents (Elt F) → (⟨S1000000, .f32⟩ : BufTy).Contents (Elt F)),
    binary main_v7 main_v6 main_v8 (subf : (⟨S1000000, .f32⟩ : BufTy).Contents (Elt F) → (⟨S1000000, .f32⟩ : BufTy).Contents (Elt F) → (⟨S1000000, .f32⟩ : BufTy).Contents (Elt F)),
    nullary main_cst_0 (constant S_ .f32 0x40000000#32),
    unary main_cst_0 main_v9 (broadcastInDim S1000000 ![] bcast_S_S1000000 : (⟨S_, .f32⟩ : BufTy).Contents (Elt F) → (⟨S1000000, .f32⟩ : BufTy).Contents (Elt F)),
    binary main_v8 main_v9 main_v10 (Host.powf : (⟨S1000000, .f32⟩ : BufTy).Contents (Elt F) → (⟨S1000000, .f32⟩ : BufTy).Contents (Elt F) → (⟨S1000000, .f32⟩ : BufTy).Contents (Elt F)),
    nullary main_cst_1 (constant S_ .f32 0x3E800000#32),
    unary main_cst_1 main_v11 (broadcastInDim S1000000 ![] bcast_S_S1000000 : (⟨S_, .f32⟩ : BufTy).Contents (Elt F) → (⟨S1000000, .f32⟩ : BufTy).Contents (Elt F)),
    binary main_v11 main_v10 main_v12 (mulf : (⟨S1000000, .f32⟩ : BufTy).Contents (Elt F) → (⟨S1000000, .f32⟩ : BufTy).Contents (Elt F) → (⟨S1000000, .f32⟩ : BufTy).Contents (Elt F)),
    binary main_v12 main_v4 main_v13 (mulf : (⟨S1000000, .f32⟩ : BufTy).Contents (Elt F) → (⟨S1000000, .f32⟩ : BufTy).Contents (Elt F) → (⟨S1000000, .f32⟩ : BufTy).Contents (Elt F)),
    nullary main_cst_2 (constant S_ .f32 0x00000000#32),
    binary main_v13 main_cst_2 main_v14 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_3 (constant S_ .f32 0x49742400#32),
    binary main_v14 main_cst_3 main_v15 (Host.divf : (⟨S_, .f32⟩ : BufTy).Contents (Elt F) → (⟨S_, .f32⟩ : BufTy).Contents (Elt F) → (⟨S_, .f32⟩ : BufTy).Contents (Elt F)) ]

/-- Operations 57 to 142: the other two losses and the total. -/
private abbrev ops15D : List (HloOp τ sig (Elt F)) :=
  [ unary main_arg1 main_v16 ((extractStridedSlice S1000000x1 ![0, 0] · slices_S1000000x4_S1000000x1_0_0) : (⟨S1000000x4, .f32⟩ : BufTy).Contents (Elt F) → (⟨S1000000x1, .f32⟩ : BufTy).Contents (Elt F)),
    reshape main_v16 main_v17 rfl shapeCasts_S1000000x1_S1000000,
    unary main_arg1 main_v18 ((extractStridedSlice S1000000x1 ![0, 1] · slices_S1000000x4_S1000000x1_0_1) : (⟨S1000000x4, .f32⟩ : BufTy).Contents (Elt F) → (⟨S1000000x1, .f32⟩ : BufTy).Contents (Elt F)),
    reshape main_v18 main_v19 rfl shapeCasts_S1000000x1_S1000000,
    unary main_arg1 main_v20 ((extractStridedSlice S1000000x1 ![0, 2] · slices_S1000000x4_S1000000x1_0_2) : (⟨S1000000x4, .f32⟩ : BufTy).Contents (Elt F) → (⟨S1000000x1, .f32⟩ : BufTy).Contents (Elt F)),
    reshape main_v20 main_v21 rfl shapeCasts_S1000000x1_S1000000,
    unary main_arg1 main_v22 ((extractStridedSlice S1000000x1 ![0, 3] · slices_S1000000x4_S1000000x1_0_3) : (⟨S1000000x4, .f32⟩ : BufTy).Contents (Elt F) → (⟨S1000000x1, .f32⟩ : BufTy).Contents (Elt F)),
    reshape main_v22 main_v23 rfl shapeCasts_S1000000x1_S1000000,
    unary main_arg3 main_v24 ((extractStridedSlice S1000000x1 ![0, 0] · slices_S1000000x4_S1000000x1_0_0) : (⟨S1000000x4, .f32⟩ : BufTy).Contents (Elt F) → (⟨S1000000x1, .f32⟩ : BufTy).Contents (Elt F)),
    reshape main_v24 main_v25 rfl shapeCasts_S1000000x1_S1000000,
    unary main_arg3 main_v26 ((extractStridedSlice S1000000x1 ![0, 1] · slices_S1000000x4_S1000000x1_0_1) : (⟨S1000000x4, .f32⟩ : BufTy).Contents (Elt F) → (⟨S1000000x1, .f32⟩ : BufTy).Contents (Elt F)),
    reshape main_v26 main_v27 rfl shapeCasts_S1000000x1_S1000000,
    unary main_arg3 main_v28 ((extractStridedSlice S1000000x1 ![0, 2] · slices_S1000000x4_S1000000x1_0_2) : (⟨S1000000x4, .f32⟩ : BufTy).Contents (Elt F) → (⟨S1000000x1, .f32⟩ : BufTy).Contents (Elt F)),
    reshape main_v28 main_v29 rfl shapeCasts_S1000000x1_S1000000,
    unary main_arg3 main_v30 ((extractStridedSlice S1000000x1 ![0, 3] · slices_S1000000x4_S1000000x1_0_3) : (⟨S1000000x4, .f32⟩ : BufTy).Contents (Elt F) → (⟨S1000000x1, .f32⟩ : BufTy).Contents (Elt F)),
    reshape main_v30 main_v31 rfl shapeCasts_S1000000x1_S1000000,
    binary main_v21 main_v29 main_v32 (minimumf : (⟨S1000000, .f32⟩ : BufTy).Contents (Elt F) → (⟨S1000000, .f32⟩ : BufTy).Contents (Elt F) → (⟨S1000000, .f32⟩ : BufTy).Contents (Elt F)),
    binary main_v17 main_v25 main_v33 (maximumf : (⟨S1000000, .f32⟩ : BufTy).Contents (Elt F) → (⟨S1000000, .f32⟩ : BufTy).Contents (Elt F) → (⟨S1000000, .f32⟩ : BufTy).Contents (Elt F)),
    binary main_v32 main_v33 main_v34 (subf : (⟨S1000000, .f32⟩ : BufTy).Contents (Elt F) → (⟨S1000000, .f32⟩ : BufTy).Contents (Elt F) → (⟨S1000000, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S1000000, .f32⟩) main_call2_v1) (broadcastInDim S1000000 ![] bcast_S_S1000000),
    TRef.binary (TRef.of (T := ⟨S1000000, .f32⟩) main_call2_v1) (TRef.of (T := ⟨S1000000, .f32⟩) main_v34) (TRef.of (T := ⟨S1000000, .f32⟩) main_v35) maximumf,
    binary main_v23 main_v31 main_v36 (minimumf : (⟨S1000000, .f32⟩ : BufTy).Contents (Elt F) → (⟨S1000000, .f32⟩ : BufTy).Contents (Elt F) → (⟨S1000000, .f32⟩ : BufTy).Contents (Elt F)),
    binary main_v19 main_v27 main_v37 (maximumf : (⟨S1000000, .f32⟩ : BufTy).Contents (Elt F) → (⟨S1000000, .f32⟩ : BufTy).Contents (Elt F) → (⟨S1000000, .f32⟩ : BufTy).Contents (Elt F)),
    binary main_v36 main_v37 main_v38 (subf : (⟨S1000000, .f32⟩ : BufTy).Contents (Elt F) → (⟨S1000000, .f32⟩ : BufTy).Contents (Elt F) → (⟨S1000000, .f32⟩ : BufTy).Contents (Elt F)),
    nullary main_cst_5 (constant S_ .f32 0x00000000#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S1000000, .f32⟩) main_call3_v1) (broadcastInDim S1000000 ![] bcast_S_S1000000),
    TRef.binary (TRef.of (T := ⟨S1000000, .f32⟩) main_call3_v1) (TRef.of (T := ⟨S1000000, .f32⟩) main_v38) (TRef.of (T := ⟨S1000000, .f32⟩) main_v39) maximumf,
    binary main_v35 main_v39 main_v40 (mulf : (⟨S1000000, .f32⟩ : BufTy).Contents (Elt F) → (⟨S1000000, .f32⟩ : BufTy).Contents (Elt F) → (⟨S1000000, .f32⟩ : BufTy).Contents (Elt F)),
    binary main_v21 main_v17 main_v41 (subf : (⟨S1000000, .f32⟩ : BufTy).Contents (Elt F) → (⟨S1000000, .f32⟩ : BufTy).Contents (Elt F) → (⟨S1000000, .f32⟩ : BufTy).Contents (Elt F)),
    binary main_v23 main_v19 main_v42 (subf : (⟨S1000000, .f32⟩ : BufTy).Contents (Elt F) → (⟨S1000000, .f32⟩ : BufTy).Contents (Elt F) → (⟨S1000000, .f32⟩ : BufTy).Contents (Elt F)),
    binary main_v41 main_v42 main_v43 (mulf : (⟨S1000000, .f32⟩ : BufTy).Contents (Elt F) → (⟨S1000000, .f32⟩ : BufTy).Contents (Elt F) → (⟨S1000000, .f32⟩ : BufTy).Contents (Elt F)),
    binary main_v29 main_v25 main_v44 (subf : (⟨S1000000, .f32⟩ : BufTy).Contents (Elt F) → (⟨S1000000, .f32⟩ : BufTy).Contents (Elt F) → (⟨S1000000, .f32⟩ : BufTy).Contents (Elt F)),
    binary main_v31 main_v27 main_v45 (subf : (⟨S1000000, .f32⟩ : BufTy).Contents (Elt F) → (⟨S1000000, .f32⟩ : BufTy).Contents (Elt F) → (⟨S1000000, .f32⟩ : BufTy).Contents (Elt F)),
    binary main_v44 main_v45 main_v46 (mulf : (⟨S1000000, .f32⟩ : BufTy).Contents (Elt F) → (⟨S1000000, .f32⟩ : BufTy).Contents (Elt F) → (⟨S1000000, .f32⟩ : BufTy).Contents (Elt F)),
    binary main_v43 main_v46 main_v47 (addf : (⟨S1000000, .f32⟩ : BufTy).Contents (Elt F) → (⟨S1000000, .f32⟩ : BufTy).Contents (Elt F) → (⟨S1000000, .f32⟩ : BufTy).Contents (Elt F)),
    binary main_v47 main_v40 main_v48 (subf : (⟨S1000000, .f32⟩ : BufTy).Contents (Elt F) → (⟨S1000000, .f32⟩ : BufTy).Contents (Elt F) → (⟨S1000000, .f32⟩ : BufTy).Contents (Elt F)),
    nullary main_cst_6 (constant S_ .f32 0x33D6BF95#32),
    unary main_cst_6 main_v49 (broadcastInDim S1000000 ![] bcast_S_S1000000 : (⟨S_, .f32⟩ : BufTy).Contents (Elt F) → (⟨S1000000, .f32⟩ : BufTy).Contents (Elt F)),
    binary main_v48 main_v49 main_v50 (addf : (⟨S1000000, .f32⟩ : BufTy).Contents (Elt F) → (⟨S1000000, .f32⟩ : BufTy).Contents (Elt F) → (⟨S1000000, .f32⟩ : BufTy).Contents (Elt F)),
    binary main_v40 main_v50 main_v51 (Host.divf : (⟨S1000000, .f32⟩ : BufTy).Contents (Elt F) → (⟨S1000000, .f32⟩ : BufTy).Contents (Elt F) → (⟨S1000000, .f32⟩ : BufTy).Contents (Elt F)),
    binary main_v21 main_v29 main_v52 (maximumf : (⟨S1000000, .f32⟩ : BufTy).Contents (Elt F) → (⟨S1000000, .f32⟩ : BufTy).Contents (Elt F) → (⟨S1000000, .f32⟩ : BufTy).Contents (Elt F)),
    binary main_v17 main_v25 main_v53 (minimumf : (⟨S1000000, .f32⟩ : BufTy).Contents (Elt F) → (⟨S1000000, .f32⟩ : BufTy).Contents (Elt F) → (⟨S1000000, .f32⟩ : BufTy).Contents (Elt F)),
    binary main_v52 main_v53 main_v54 (subf : (⟨S1000000, .f32⟩ : BufTy).Contents (Elt F) → (⟨S1000000, .f32⟩ : BufTy).Contents (Elt F) → (⟨S1000000, .f32⟩ : BufTy).Contents (Elt F)),
    binary main_v23 main_v31 main_v55 (maximumf : (⟨S1000000, .f32⟩ : BufTy).Contents (Elt F) → (⟨S1000000, .f32⟩ : BufTy).Contents (Elt F) → (⟨S1000000, .f32⟩ : BufTy).Contents (Elt F)),
    binary main_v19 main_v27 main_v56 (minimumf : (⟨S1000000, .f32⟩ : BufTy).Contents (Elt F) → (⟨S1000000, .f32⟩ : BufTy).Contents (Elt F) → (⟨S1000000, .f32⟩ : BufTy).Contents (Elt F)),
    binary main_v55 main_v56 main_v57 (subf : (⟨S1000000, .f32⟩ : BufTy).Contents (Elt F) → (⟨S1000000, .f32⟩ : BufTy).Contents (Elt F) → (⟨S1000000, .f32⟩ : BufTy).Contents (Elt F)),
    binary main_v54 main_v57 main_v58 (mulf : (⟨S1000000, .f32⟩ : BufTy).Contents (Elt F) → (⟨S1000000, .f32⟩ : BufTy).Contents (Elt F) → (⟨S1000000, .f32⟩ : BufTy).Contents (Elt F)),
    binary main_v58 main_v48 main_v59 (subf : (⟨S1000000, .f32⟩ : BufTy).Contents (Elt F) → (⟨S1000000, .f32⟩ : BufTy).Contents (Elt F) → (⟨S1000000, .f32⟩ : BufTy).Contents (Elt F)),
    nullary main_cst_7 (constant S_ .f32 0x33D6BF95#32),
    unary main_cst_7 main_v60 (broadcastInDim S1000000 ![] bcast_S_S1000000 : (⟨S_, .f32⟩ : BufTy).Contents (Elt F) → (⟨S1000000, .f32⟩ : BufTy).Contents (Elt F)),
    binary main_v58 main_v60 main_v61 (addf : (⟨S1000000, .f32⟩ : BufTy).Contents (Elt F) → (⟨S1000000, .f32⟩ : BufTy).Contents (Elt F) → (⟨S1000000, .f32⟩ : BufTy).Contents (Elt F)),
    binary main_v59 main_v61 main_v62 (Host.divf : (⟨S1000000, .f32⟩ : BufTy).Contents (Elt F) → (⟨S1000000, .f32⟩ : BufTy).Contents (Elt F) → (⟨S1000000, .f32⟩ : BufTy).Contents (Elt F)),
    binary main_v51 main_v62 main_v63 (subf : (⟨S1000000, .f32⟩ : BufTy).Contents (Elt F) → (⟨S1000000, .f32⟩ : BufTy).Contents (Elt F) → (⟨S1000000, .f32⟩ : BufTy).Contents (Elt F)),
    nullary main_cst_8 (constant S_ .f32 0x3F800000#32),
    unary main_cst_8 main_v64 (broadcastInDim S1000000 ![] bcast_S_S1000000 : (⟨S_, .f32⟩ : BufTy).Contents (Elt F) → (⟨S1000000, .f32⟩ : BufTy).Contents (Elt F)),
    binary main_v64 main_v63 main_v65 (subf : (⟨S1000000, .f32⟩ : BufTy).Contents (Elt F) → (⟨S1000000, .f32⟩ : BufTy).Contents (Elt F) → (⟨S1000000, .f32⟩ : BufTy).Contents (Elt F)),
    nullary main_cst_9 (constant S_ .f32 0x00000000#32),
    binary main_v65 main_cst_9 main_v66 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_10 (constant S_ .f32 0x49742400#32),
    binary main_v66 main_cst_10 main_v67 (Host.divf : (⟨S_, .f32⟩ : BufTy).Contents (Elt F) → (⟨S_, .f32⟩ : BufTy).Contents (Elt F) → (⟨S_, .f32⟩ : BufTy).Contents (Elt F)),
    unary main_arg2 main_v68 (Host.negf : (⟨S1000000, .f32⟩ : BufTy).Contents (Elt F) → (⟨S1000000, .f32⟩ : BufTy).Contents (Elt F)),
    nullary main_cst_11 (constant S_ .f32 0x00000000#32),
    unary main_cst_11 main_v69 (broadcastInDim S1000000 ![] bcast_S_S1000000 : (⟨S_, .f32⟩ : BufTy).Contents (Elt F) → (⟨S1000000, .f32⟩ : BufTy).Contents (Elt F)),
    binary main_v69 main_v68 main_v70 (maximumf : (⟨S1000000, .f32⟩ : BufTy).Contents (Elt F) → (⟨S1000000, .f32⟩ : BufTy).Contents (Elt F) → (⟨S1000000, .f32⟩ : BufTy).Contents (Elt F)),
    unary main_cst_11 main_v71 (broadcastInDim S1000000 ![] bcast_S_S1000000 : (⟨S_, .f32⟩ : BufTy).Contents (Elt F) → (⟨S1000000, .f32⟩ : BufTy).Contents (Elt F)),
    binary main_v71 main_v68 main_v72 (subf : (⟨S1000000, .f32⟩ : BufTy).Contents (Elt F) → (⟨S1000000, .f32⟩ : BufTy).Contents (Elt F) → (⟨S1000000, .f32⟩ : BufTy).Contents (Elt F)),
    binary main_v72 main_v72 main_v73 (cmpf .une : (⟨S1000000, .f32⟩ : BufTy).Contents (Elt F) → (⟨S1000000, .f32⟩ : BufTy).Contents (Elt F) → (⟨S1000000, .i1⟩ : BufTy).Contents (Elt F)),
    unary main_cst_11 main_v74 (broadcastInDim S1000000 ![] bcast_S_S1000000 : (⟨S_, .f32⟩ : BufTy).Contents (Elt F) → (⟨S1000000, .f32⟩ : BufTy).Contents (Elt F)),
    binary main_v74 main_v68 main_v75 (addf : (⟨S1000000, .f32⟩ : BufTy).Contents (Elt F) → (⟨S1000000, .f32⟩ : BufTy).Contents (Elt F) → (⟨S1000000, .f32⟩ : BufTy).Contents (Elt F)),
    unary main_v72 main_v76 (Host.absf : (⟨S1000000, .f32⟩ : BufTy).Contents (Elt F) → (⟨S1000000, .f32⟩ : BufTy).Contents (Elt F)),
    unary main_v76 main_v77 (Host.negf : (⟨S1000000, .f32⟩ : BufTy).Contents (Elt F) → (⟨S1000000, .f32⟩ : BufTy).Contents (Elt F)),
    unary main_v77 main_v78 (Host.exp : (⟨S1000000, .f32⟩ : BufTy).Contents (Elt F) → (⟨S1000000, .f32⟩ : BufTy).Contents (Elt F)),
    unary main_v78 main_v79 (Host.log1p : (⟨S1000000, .f32⟩ : BufTy).Contents (Elt F) → (⟨S1000000, .f32⟩ : BufTy).Contents (Elt F)),
    binary main_v70 main_v79 main_v80 (addf : (⟨S1000000, .f32⟩ : BufTy).Contents (Elt F) → (⟨S1000000, .f32⟩ : BufTy).Contents (Elt F) → (⟨S1000000, .f32⟩ : BufTy).Contents (Elt F)),
    ternary main_v73 main_v75 main_v80 main_v81 (select : (⟨S1000000, .i1⟩ : BufTy).Contents (Elt F) → (⟨S1000000, .f32⟩ : BufTy).Contents (Elt F) → (⟨S1000000, .f32⟩ : BufTy).Contents (Elt F) → (⟨S1000000, .f32⟩ : BufTy).Contents (Elt F)),
    nullary main_cst_12 (constant S_ .f32 0x00000000#32),
    binary main_v81 main_cst_12 main_v82 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_13 (constant S_ .f32 0x49742400#32),
    binary main_v82 main_cst_13 main_v83 (Host.divf : (⟨S_, .f32⟩ : BufTy).Contents (Elt F) → (⟨S_, .f32⟩ : BufTy).Contents (Elt F) → (⟨S_, .f32⟩ : BufTy).Contents (Elt F)),
    binary main_v15 main_v67 main_v84 (addf : (⟨S_, .f32⟩ : BufTy).Contents (Elt F) → (⟨S_, .f32⟩ : BufTy).Contents (Elt F) → (⟨S_, .f32⟩ : BufTy).Contents (Elt F)),
    nullary main_cst_14 (constant S_ .f32 0x3DCCCCCD#32),
    binary main_cst_14 main_v83 main_v85 (mulf : (⟨S_, .f32⟩ : BufTy).Contents (Elt F) → (⟨S_, .f32⟩ : BufTy).Contents (Elt F) → (⟨S_, .f32⟩ : BufTy).Contents (Elt F)),
    binary main_v84 main_v85 main_v86 (addf : (⟨S_, .f32⟩ : BufTy).Contents (Elt F) → (⟨S_, .f32⟩ : BufTy).Contents (Elt F) → (⟨S_, .f32⟩ : BufTy).Contents (Elt F)) ]

/-- The operation list is the four stretches, in order. -/
private theorem ops15_split : (ops (F := F)) = ops15A ++ (ops15B ++ (ops15C ++ ops15D)) := rfl

/-! ## What each stretch leaves, from any contents -/

/-- The log-softmax stretch leaves the log-softmax of the logits it finds. -/
private theorem afterA15_v0 (W : Valuation τ sig (Elt F)) :
    after (ops15A (F := F)) W (Proc.devRef .tc main_v0) = val_main_v0 (F := F) (W (Proc.devRef .tc main_arg0)) := by
  after_results_simp
  simp only [Cert.Lib.TRef.ofBuf_toBuf, Cert.Lib.TRef.toBuf_ofBuf]
  rfl

/-- The log-softmax stretch does not write the class words. -/
private theorem afterA15_arg4 (W : Valuation τ sig (Elt F)) :
    after (ops15A (F := F)) W (Proc.devRef .tc main_arg4) = W (Proc.devRef .tc main_arg4) := by
  after_results_simp

/-- Contents of the gathered entries' buffer, moved to the value's type, are themselves. -/
private theorem ofBuf15_v2 (X : (Proc.devRef (τ := τ) (sig := sig) .tc main_v2).ty.Contents (Elt F)) :
    (TRef.of (T := ⟨S1000000x1, .f32⟩) main_v2).ofBuf X = X := rfl

/-- The take stretch leaves the gather of the array it finds in the log-softmax's buffer at the wrapped class column,
    where the bounds test passes, and the fill elsewhere (read at the value's type). -/
private theorem afterB15_v2w (W : Valuation τ sig (Elt F)) :
    (TRef.of (T := ⟨S1000000x1, .f32⟩) main_v2).ofBuf (after (ops15B (F := F)) W (Proc.devRef .tc main_v2))
      = select (val_main_call1_v12 (F := F) (W (Proc.devRef .tc main_arg4)))
          (Host.gather gather_S1000000x80_S1000000x1x1_S1000000x1_n_1_0_0_1_2_11 (W (Proc.devRef .tc main_v0))
            (val_main_call1_v5 (F := F) (W (Proc.devRef .tc main_arg4))))
          (val_main_call1_v14 (F := F)) := by
  after_results_simp
  simp only [Cert.Lib.TRef.ofBuf_toBuf, Cert.Lib.TRef.toBuf_ofBuf]
  rfl

/-- The same, at the buffer's own type. -/
private theorem afterB15_v2 (W : Valuation τ sig (Elt F)) :
    after (ops15B (F := F)) W (Proc.devRef .tc main_v2)
      = select (val_main_call1_v12 (F := F) (W (Proc.devRef .tc main_arg4)))
          (Host.gather gather_S1000000x80_S1000000x1x1_S1000000x1_n_1_0_0_1_2_11 (W (Proc.devRef .tc main_v0))
            (val_main_call1_v5 (F := F) (W (Proc.devRef .tc main_arg4))))
          (val_main_call1_v14 (F := F)) :=
  (ofBuf15_v2 _).symm.trans (afterB15_v2w W)

/-! The last stretch as functions of the gathered entries, one operation each. -/

private def tail15_v3 (v2 : (⟨S1000000x1, .f32⟩ : BufTy).Contents (Elt F)) : (⟨S1000000, .f32⟩ : BufTy).Contents (Elt F) :=
  shapeCast _ v2 shapeCasts_S1000000x1_S1000000
private def tail15_v4 (v2 : (⟨S1000000x1, .f32⟩ : BufTy).Contents (Elt F)) : (⟨S1000000, .f32⟩ : BufTy).Contents (Elt F) :=
  Host.negf (tail15_v3 v2)
private def tail15_v5 (v2 : (⟨S1000000x1, .f32⟩ : BufTy).Contents (Elt F)) : (⟨S1000000, .f32⟩ : BufTy).Contents (Elt F) :=
  Host.negf (tail15_v4 v2)
private def tail15_v6 (v2 : (⟨S1000000x1, .f32⟩ : BufTy).Contents (Elt F)) : (⟨S1000000, .f32⟩ : BufTy).Contents (Elt F) :=
  Host.exp (tail15_v5 v2)
private def tail15_v8 (v2 : (⟨S1000000x1, .f32⟩ : BufTy).Contents (Elt F)) : (⟨S1000000, .f32⟩ : BufTy).Contents (Elt F) :=
  subf (val_main_v7 (F := F)) (tail15_v6 v2)
private def tail15_v10 (v2 : (⟨S1000000x1, .f32⟩ : BufTy).Contents (Elt F)) : (⟨S1000000, .f32⟩ : BufTy).Contents (Elt F) :=
  Host.powf (tail15_v8 v2) (val_main_v9 (F := F))
private def tail15_v12 (v2 : (⟨S1000000x1, .f32⟩ : BufTy).Contents (Elt F)) : (⟨S1000000, .f32⟩ : BufTy).Contents (Elt F) :=
  mulf (val_main_v11 (F := F)) (tail15_v10 v2)
private def tail15_v13 (v2 : (⟨S1000000x1, .f32⟩ : BufTy).Contents (Elt F)) : (⟨S1000000, .f32⟩ : BufTy).Contents (Elt F) :=
  mulf (tail15_v12 v2) (tail15_v4 v2)
private def tail15_v14 (v2 : (⟨S1000000x1, .f32⟩ : BufTy).Contents (Elt F)) : (⟨S_, .f32⟩ : BufTy).Contents (Elt F) :=
  Host.reduceAdd (tail15_v13 v2) (val_main_cst_2 (F := F)) reducesTo_S1000000_S_d0 h_S_
private def tail15_v15 (v2 : (⟨S1000000x1, .f32⟩ : BufTy).Contents (Elt F)) : (⟨S_, .f32⟩ : BufTy).Contents (Elt F) :=
  Host.divf (tail15_v14 v2) (val_main_cst_3 (F := F))

/-- The staged focal mean is the last stretch's function of the staged gathered entries. -/
private theorem v15_eq_tail15 (x0 : (⟨S1000000x80, .f32⟩ : BufTy).Contents (Elt F)) (x4 : (⟨S1000000, .i32⟩ : BufTy).Contents (Elt F)) :
    val_main_v15 (F := F) x0 x4 = tail15_v15 (val_main_v2 (F := F) x0 x4) := rfl

/-- The last stretch leaves that function of the gathered entries it finds. -/
private theorem afterC15_v15 (W : Valuation τ sig (Elt F)) :
    after (ops15C (F := F)) W (Proc.devRef .tc main_v15) = tail15_v15 (W (Proc.devRef .tc main_v2)) := by
  after_results_simp
  rfl

/-- No later operation writes the focal mean's buffer. -/
private theorem afterD15_v15 (W : Valuation τ sig (Elt F)) :
    after (ops15D (F := F)) W (Proc.devRef .tc main_v15) = W (Proc.devRef .tc main_v15) := by
  after_results_simp

/-- The fold of all 142 operations leaves, in the focal mean's buffer, the staged function of the
    logits and the class words the fold started from. -/
theorem after_v15 (V : Valuation τ sig (Elt F)) :
    after (ops (F := F)) V (Proc.devRef .tc main_v15)
      = val_main_v15 (F := F) (V (Proc.devRef .tc main_arg0)) (V (Proc.devRef .tc main_arg4)) := by
  rw [ops15_split, StableHlo.after_append, StableHlo.after_append, StableHlo.after_append, afterD15_v15, afterC15_v15,
    afterB15_v2, afterA15_v0, afterA15_arg4, v15_eq_tail15]
  rfl

end Cert.ReferenceIdeal.RunH

end
-- ==== Proof.RefRunH.lean ====
/-
  The reference's run, read over the staged functions: every weakly fair execution of its 142
  host operations terminates with each result buffer at the staged function of the arguments and
  the arguments unchanged. The program is a straight line, so its final memory is the fold of the
  operations over the launch memory; the GIoU and centerness means and the arguments are read off
  the fold directly, the focal mean stretch by stretch (another module), and the total is the
  last four operations applied to the three means.
-/
import proofs.«408445_j48344151884162_2_alg».proof.Proof.RefRunOps
import proofs.«408445_j48344151884162_2_alg».proof.Proof.RefReadP
import proofs.«408445_j48344151884162_2_alg».proof.Proof.LibTRef
import Idealize.ShloMosaic.Lib.StableHlo.Run
import Idealize.ShloMosaic.Lib.Pipeline.Frame

noncomputable section

namespace Cert.ReferenceIdeal.RunH

open Cert.ReferenceIdeal Cert.ReferenceIdeal.Gen Cert.ReferenceIdeal.RunOps Cert.ReferenceIdeal.ReadP
open Idealize.ShloMosaic Idealize.ShloMosaic.TcCoe Idealize.SL.Sem Idealize.ShloMosaic.StableHlo

variable {F : FTy → Type} [FloatOps F]

/-! ## The 142 operations cut into four stretches

The fold over a concatenation is the fold over the second list started from the fold over the
first, so a buffer's final contents are read one stretch at a time, each stretch from an arbitrary
starting memory. -/

/-- Operations 1 to 56: the focal chain, down to the focal mean. -/
abbrev opsA : List (HloOp τ sig (Elt F)) :=
  [ TRef.nullary (TRef.of (T := ⟨S_, .f32⟩) main_call0_cst) (constant S_ .f32 0xFF800000#32),
    TRef.binary (TRef.of (T := ⟨S1000000x80, .f32⟩) main_arg0) (TRef.of (T := ⟨S_, .f32⟩) main_call0_cst) (TRef.of (T := ⟨S1000000, .f32⟩) main_call0_v0) (fun x v => Host.reduce FloatOps.maximumf x v reducesTo_S1000000x80_S1000000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1000000, .f32⟩) main_call0_v1) (broadcastInDim S1000000 ![] bcast_S_S1000000),
    TRef.binary (TRef.of (T := ⟨S1000000, .f32⟩) main_call0_v1) (TRef.of (T := ⟨S1000000, .f32⟩) main_call0_v0) (TRef.of (T := ⟨S1000000, .f32⟩) main_call0_v2) maximumf,
    TRef.unary (TRef.of (T := ⟨S1000000, .f32⟩) main_call0_v2) (TRef.of (T := ⟨S1000000x1, .f32⟩) main_call0_v3) (broadcastInDim S1000000x1 ![0] bcast_S1000000_S1000000x1_0),
    TRef.unary (TRef.of (T := ⟨S1000000x1, .f32⟩) main_call0_v3) (TRef.of (T := ⟨S1000000x80, .f32⟩) main_call0_v4) (broadcastInDim S1000000x80 ![0, 1] bcast_S1000000x1_S1000000x80_0_1),
    TRef.binary (TRef.of (T := ⟨S1000000x80, .f32⟩) main_arg0) (TRef.of (T := ⟨S1000000x80, .f32⟩) main_call0_v4) (TRef.of (T := ⟨S1000000x80, .f32⟩) main_call0_v5) subf,
    TRef.unary (TRef.of (T := ⟨S1000000x80, .f32⟩) main_call0_v5) (TRef.of (T := ⟨S1000000x80, .f32⟩) main_call0_v6) Host.exp,
    TRef.nullary (TRef.of (T := ⟨S_, .f32⟩) main_call0_cst_1) (constant S_ .f32 0x00000000#32),
    TRef.binary (TRef.of (T := ⟨S1000000x80, .f32⟩) main_call0_v6) (TRef.of (T := ⟨S_, .f32⟩) main_call0_cst_1) (TRef.of (T := ⟨S1000000, .f32⟩) main_call0_v7) (fun x v => Host.reduceAdd x v reducesTo_S1000000x80_S1000000_d1 h_S_),
    TRef.unary (TRef.of (T := ⟨S1000000, .f32⟩) main_call0_v7) (TRef.of (T := ⟨S1000000x1, .f32⟩) main_call0_v8) (broadcastInDim S1000000x1 ![0] bcast_S1000000_S1000000x1_0),
    TRef.unary (TRef.of (T := ⟨S1000000x1, .f32⟩) main_call0_v8) (TRef.of (T := ⟨S1000000x1, .f32⟩) main_call0_v9) Host.log,
    TRef.unary (TRef.of (T := ⟨S1000000x1, .f32⟩) main_call0_v9) (TRef.of (T := ⟨S1000000x80, .f32⟩) main_call0_v10) (broadcastInDim S1000000x80 ![0, 1] bcast_S1000000x1_S1000000x80_0_1),
    TRef.binary (TRef.of (T := ⟨S1000000x80, .f32⟩) main_call0_v5) (TRef.of (T := ⟨S1000000x80, .f32⟩) main_call0_v10) (TRef.of (T := ⟨S1000000x80, .f32⟩) main_v0) subf,
    unary main_arg4 main_v1 (broadcastInDim S1000000x1 ![0] bcast_S1000000_S1000000x1_0 : (⟨S1000000, .i32⟩ : BufTy).Contents (Elt F) → (⟨S1000000x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1000000x1, .i32⟩) main_call1_v0) (broadcastInDim S1000000x1 ![] bcast_S_S1000000x1),
    TRef.binary (TRef.of (T := ⟨S1000000x1, .i32⟩) main_v1) (TRef.of (T := ⟨S1000000x1, .i32⟩) main_call1_v0) (TRef.of (T := ⟨S1000000x1, .i1⟩) main_call1_v1) (cmpi .slt),
    TRef.nullary (TRef.of (T := ⟨S_, .i32⟩) main_call1_c_0) (constantI S_ 32 80#32),
    TRef.unary (TRef.of (T := ⟨S_, .i32⟩) main_call1_c_0) (TRef.of (T := ⟨S1000000x1, .i32⟩) main_call1_v2) (broadcastInDim S1000000x1 ![] bcast_S_S1000000x1),
    TRef.binary (TRef.of (T := ⟨S1000000x1, .i32⟩) main_v1) (TRef.of (T := ⟨S1000000x1, .i32⟩) main_call1_v2) (TRef.of (T := ⟨S1000000x1, .i32⟩) main_call1_v3) addi,
    TRef.ternary (TRef.of (T := ⟨S1000000x1, .i1⟩) main_call1_v1) (TRef.of (T := ⟨S1000000x1, .i32⟩) main_call1_v3) (TRef.of (T := ⟨S1000000x1, .i32⟩) main_v1) (TRef.of (T := ⟨S1000000x1, .i32⟩) main_call1_v4) select,
    TRef.reshape (TRef.of (T := ⟨S1000000x1, .i32⟩) main_call1_v4) (TRef.of (T := ⟨S1000000x1x1, .i32⟩) main_call1_v5) rfl shapeCasts_S1000000x1_S1000000x1x1,
    TRef.nullary (TRef.of (T := ⟨S1, .i32⟩) main_call1_c_1) (constantI S1 32 79#32),
    TRef.nullary (TRef.of (T := ⟨S_, .i32⟩) main_call1_c_2) (constantI S_ 32 0#32),
    TRef.unary (TRef.of (T := ⟨S_, .i32⟩) main_call1_c_2) (TRef.of (T := ⟨S1000000x1x1, .i32⟩) main_call1_v6) (broadcastInDim S1000000x1x1 ![] bcast_S_S1000000x1x1),
    TRef.binary (TRef.of (T := ⟨S1000000x1x1, .i32⟩) main_call1_v5) (TRef.of (T := ⟨S1000000x1x1, .i32⟩) main_call1_v6) (TRef.of (T := ⟨S1000000x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1000000x1x1, .i32⟩) main_call1_v9) (broadcastInDim S1000000x1x1 ![0, 1, 2] bcast_S1x1x1_S1000000x1x1_0_1_2),
    TRef.binary (TRef.of (T := ⟨S1000000x1x1, .i32⟩) main_call1_v5) (TRef.of (T := ⟨S1000000x1x1, .i32⟩) main_call1_v9) (TRef.of (T := ⟨S1000000x1x1, .i1⟩) main_call1_v10) (cmpi .sle),
    TRef.binary (TRef.of (T := ⟨S1000000x1x1, .i1⟩) main_call1_v7) (TRef.of (T := ⟨S1000000x1x1, .i1⟩) main_call1_v10) (TRef.of (T := ⟨S1000000x1x1, .i1⟩) main_call1_v11) andi,
    TRef.nullary (TRef.of (T := ⟨S_, .i1⟩) main_call1_c_3) (constantI S_ 1 1#1),
    TRef.binary (TRef.of (T := ⟨S1000000x1x1, .i1⟩) main_call1_v11) (TRef.of (T := ⟨S_, .i1⟩) main_call1_c_3) (TRef.of (T := ⟨S1000000x1, .i1⟩) main_call1_v12) (fun x v => Host.reduce IntOp.andi x v reducesTo_S1000000x1x1_S1000000x1_d2 h_S_),
    TRef.binary (TRef.of (T := ⟨S1000000x80, .f32⟩) main_v0) (TRef.of (T := ⟨S1000000x1x1, .i32⟩) main_call1_v5) (TRef.of (T := ⟨S1000000x1, .f32⟩) main_call1_v13) (fun x i => Host.gather gather_S1000000x80_S1000000x1x1_S1000000x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1000000x1, .f32⟩) main_call1_v14) (broadcastInDim S1000000x1 ![] bcast_S_S1000000x1),
    TRef.ternary (TRef.of (T := ⟨S1000000x1, .i1⟩) main_call1_v12) (TRef.of (T := ⟨S1000000x1, .f32⟩) main_call1_v13) (TRef.of (T := ⟨S1000000x1, .f32⟩) main_call1_v14) (TRef.of (T := ⟨S1000000x1, .f32⟩) main_v2) select,
    reshape main_v2 main_v3 rfl shapeCasts_S1000000x1_S1000000,
    unary main_v3 main_v4 (Host.negf : (⟨S1000000, .f32⟩ : BufTy).Contents (Elt F) → (⟨S1000000, .f32⟩ : BufTy).Contents (Elt F)),
    unary main_v4 main_v5 (Host.negf : (⟨S1000000, .f32⟩ : BufTy).Contents (Elt F) → (⟨S1000000, .f32⟩ : BufTy).Contents (Elt F)),
    unary main_v5 main_v6 (Host.exp : (⟨S1000000, .f32⟩ : BufTy).Contents (Elt F) → (⟨S1000000, .f32⟩ : BufTy).Contents (Elt F)),
    nullary main_cst (constant S_ .f32 0x3F800000#32),
    unary main_cst main_v7 (broadcastInDim S1000000 ![] bcast_S_S1000000 : (⟨S_, .f32⟩ : BufTy).Contents (Elt F) → (⟨S1000000, .f32⟩ : BufTy).Contents (Elt F)),
    binary main_v7 main_v6 main_v8 (subf : (⟨S1000000, .f32⟩ : BufTy).Contents (Elt F) → (⟨S1000000, .f32⟩ : BufTy).Contents (Elt F) → (⟨S1000000, .f32⟩ : BufTy).Contents (Elt F)),
    nullary main_cst_0 (constant S_ .f32 0x40000000#32),
    unary main_cst_0 main_v9 (broadcastInDim S1000000 ![] bcast_S_S1000000 : (⟨S_, .f32⟩ : BufTy).Contents (Elt F) → (⟨S1000000, .f32⟩ : BufTy).Contents (Elt F)),
    binary main_v8 main_v9 main_v10 (Host.powf : (⟨S1000000, .f32⟩ : BufTy).Contents (Elt F) → (⟨S1000000, .f32⟩ : BufTy).Contents (Elt F) → (⟨S1000000, .f32⟩ : BufTy).Contents (Elt F)),
    nullary main_cst_1 (constant S_ .f32 0x3E800000#32),
    unary main_cst_1 main_v11 (broadcastInDim S1000000 ![] bcast_S_S1000000 : (⟨S_, .f32⟩ : BufTy).Contents (Elt F) → (⟨S1000000, .f32⟩ : BufTy).Contents (Elt F)),
    binary main_v11 main_v10 main_v12 (mulf : (⟨S1000000, .f32⟩ : BufTy).Contents (Elt F) → (⟨S1000000, .f32⟩ : BufTy).Contents (Elt F) → (⟨S1000000, .f32⟩ : BufTy).Contents (Elt F)),
    binary main_v12 main_v4 main_v13 (mulf : (⟨S1000000, .f32⟩ : BufTy).Contents (Elt F) → (⟨S1000000, .f32⟩ : BufTy).Contents (Elt F) → (⟨S1000000, .f32⟩ : BufTy).Contents (Elt F)),
    nullary main_cst_2 (constant S_ .f32 0x00000000#32),
    binary main_v13 main_cst_2 main_v14 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_3 (constant S_ .f32 0x49742400#32),
    binary main_v14 main_cst_3 main_v15 (Host.divf : (⟨S_, .f32⟩ : BufTy).Contents (Elt F) → (⟨S_, .f32⟩ : BufTy).Contents (Elt F) → (⟨S_, .f32⟩ : BufTy).Contents (Elt F)) ]

/-- Operations 57 to 119: the GIoU chain, from the slices of the two box arrays down to the GIoU mean. -/
abbrev opsB : List (HloOp τ sig (Elt F)) :=
  [ unary main_arg1 main_v16 ((extractStridedSlice S1000000x1 ![0, 0] · slices_S1000000x4_S1000000x1_0_0) : (⟨S1000000x4, .f32⟩ : BufTy).Contents (Elt F) → (⟨S1000000x1, .f32⟩ : BufTy).Contents (Elt F)),
    reshape main_v16 main_v17 rfl shapeCasts_S1000000x1_S1000000,
    unary main_arg1 main_v18 ((extractStridedSlice S1000000x1 ![0, 1] · slices_S1000000x4_S1000000x1_0_1) : (⟨S1000000x4, .f32⟩ : BufTy).Contents (Elt F) → (⟨S1000000x1, .f32⟩ : BufTy).Contents (Elt F)),
    reshape main_v18 main_v19 rfl shapeCasts_S1000000x1_S1000000,
    unary main_arg1 main_v20 ((extractStridedSlice S1000000x1 ![0, 2] · slices_S1000000x4_S1000000x1_0_2) : (⟨S1000000x4, .f32⟩ : BufTy).Contents (Elt F) → (⟨S1000000x1, .f32⟩ : BufTy).Contents (Elt F)),
    reshape main_v20 main_v21 rfl shapeCasts_S1000000x1_S1000000,
    unary main_arg1 main_v22 ((extractStridedSlice S1000000x1 ![0, 3] · slices_S1000000x4_S1000000x1_0_3) : (⟨S1000000x4, .f32⟩ : BufTy).Contents (Elt F) → (⟨S1000000x1, .f32⟩ : BufTy).Contents (Elt F)),
    reshape main_v22 main_v23 rfl shapeCasts_S1000000x1_S1000000,
    unary main_arg3 main_v24 ((extractStridedSlice S1000000x1 ![0, 0] · slices_S1000000x4_S1000000x1_0_0) : (⟨S1000000x4, .f32⟩ : BufTy).Contents (Elt F) → (⟨S1000000x1, .f32⟩ : BufTy).Contents (Elt F)),
    reshape main_v24 main_v25 rfl shapeCasts_S1000000x1_S1000000,
    unary main_arg3 main_v26 ((extractStridedSlice S1000000x1 ![0, 1] · slices_S1000000x4_S1000000x1_0_1) : (⟨S1000000x4, .f32⟩ : BufTy).Contents (Elt F) → (⟨S1000000x1, .f32⟩ : BufTy).Contents (Elt F)),
    reshape main_v26 main_v27 rfl shapeCasts_S1000000x1_S1000000,
    unary main_arg3 main_v28 ((extractStridedSlice S1000000x1 ![0, 2] · slices_S1000000x4_S1000000x1_0_2) : (⟨S1000000x4, .f32⟩ : BufTy).Contents (Elt F) → (⟨S1000000x1, .f32⟩ : BufTy).Contents (Elt F)),
    reshape main_v28 main_v29 rfl shapeCasts_S1000000x1_S1000000,
    unary main_arg3 main_v30 ((extractStridedSlice S1000000x1 ![0, 3] · slices_S1000000x4_S1000000x1_0_3) : (⟨S1000000x4, .f32⟩ : BufTy).Contents (Elt F) → (⟨S1000000x1, .f32⟩ : BufTy).Contents (Elt F)),
    reshape main_v30 main_v31 rfl shapeCasts_S1000000x1_S1000000,
    binary main_v21 main_v29 main_v32 (minimumf : (⟨S1000000, .f32⟩ : BufTy).Contents (Elt F) → (⟨S1000000, .f32⟩ : BufTy).Contents (Elt F) → (⟨S1000000, .f32⟩ : BufTy).Contents (Elt F)),
    binary main_v17 main_v25 main_v33 (maximumf : (⟨S1000000, .f32⟩ : BufTy).Contents (Elt F) → (⟨S1000000, .f32⟩ : BufTy).Contents (Elt F) → (⟨S1000000, .f32⟩ : BufTy).Contents (Elt F)),
    binary main_v32 main_v33 main_v34 (subf : (⟨S1000000, .f32⟩ : BufTy).Contents (Elt F) → (⟨S1000000, .f32⟩ : BufTy).Contents (Elt F) → (⟨S1000000, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S1000000, .f32⟩) main_call2_v1) (broadcastInDim S1000000 ![] bcast_S_S1000000),
    TRef.binary (TRef.of (T := ⟨S1000000, .f32⟩) main_call2_v1) (TRef.of (T := ⟨S1000000, .f32⟩) main_v34) (TRef.of (T := ⟨S1000000, .f32⟩) main_v35) maximumf,
    binary main_v23 main_v31 main_v36 (minimumf : (⟨S1000000, .f32⟩ : BufTy).Contents (Elt F) → (⟨S1000000, .f32⟩ : BufTy).Contents (Elt F) → (⟨S1000000, .f32⟩ : BufTy).Contents (Elt F)),
    binary main_v19 main_v27 main_v37 (maximumf : (⟨S1000000, .f32⟩ : BufTy).Contents (Elt F) → (⟨S1000000, .f32⟩ : BufTy).Contents (Elt F) → (⟨S1000000, .f32⟩ : BufTy).Contents (Elt F)),
    binary main_v36 main_v37 main_v38 (subf : (⟨S1000000, .f32⟩ : BufTy).Contents (Elt F) → (⟨S1000000, .f32⟩ : BufTy).Contents (Elt F) → (⟨S1000000, .f32⟩ : BufTy).Contents (Elt F)),
    nullary main_cst_5 (constant S_ .f32 0x00000000#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S1000000, .f32⟩) main_call3_v1) (broadcastInDim S1000000 ![] bcast_S_S1000000),
    TRef.binary (TRef.of (T := ⟨S1000000, .f32⟩) main_call3_v1) (TRef.of (T := ⟨S1000000, .f32⟩) main_v38) (TRef.of (T := ⟨S1000000, .f32⟩) main_v39) maximumf,
    binary main_v35 main_v39 main_v40 (mulf : (⟨S1000000, .f32⟩ : BufTy).Contents (Elt F) → (⟨S1000000, .f32⟩ : BufTy).Contents (Elt F) → (⟨S1000000, .f32⟩ : BufTy).Contents (Elt F)),
    binary main_v21 main_v17 main_v41 (subf : (⟨S1000000, .f32⟩ : BufTy).Contents (Elt F) → (⟨S1000000, .f32⟩ : BufTy).Contents (Elt F) → (⟨S1000000, .f32⟩ : BufTy).Contents (Elt F)),
    binary main_v23 main_v19 main_v42 (subf : (⟨S1000000, .f32⟩ : BufTy).Contents (Elt F) → (⟨S1000000, .f32⟩ : BufTy).Contents (Elt F) → (⟨S1000000, .f32⟩ : BufTy).Contents (Elt F)),
    binary main_v41 main_v42 main_v43 (mulf : (⟨S1000000, .f32⟩ : BufTy).Contents (Elt F) → (⟨S1000000, .f32⟩ : BufTy).Contents (Elt F) → (⟨S1000000, .f32⟩ : BufTy).Contents (Elt F)),
    binary main_v29 main_v25 main_v44 (subf : (⟨S1000000, .f32⟩ : BufTy).Contents (Elt F) → (⟨S1000000, .f32⟩ : BufTy).Contents (Elt F) → (⟨S1000000, .f32⟩ : BufTy).Contents (Elt F)),
    binary main_v31 main_v27 main_v45 (subf : (⟨S1000000, .f32⟩ : BufTy).Contents (Elt F) → (⟨S1000000, .f32⟩ : BufTy).Contents (Elt F) → (⟨S1000000, .f32⟩ : BufTy).Contents (Elt F)),
    binary main_v44 main_v45 main_v46 (mulf : (⟨S1000000, .f32⟩ : BufTy).Contents (Elt F) → (⟨S1000000, .f32⟩ : BufTy).Contents (Elt F) → (⟨S1000000, .f32⟩ : BufTy).Contents (Elt F)),
    binary main_v43 main_v46 main_v47 (addf : (⟨S1000000, .f32⟩ : BufTy).Contents (Elt F) → (⟨S1000000, .f32⟩ : BufTy).Contents (Elt F) → (⟨S1000000, .f32⟩ : BufTy).Contents (Elt F)),
    binary main_v47 main_v40 main_v48 (subf : (⟨S1000000, .f32⟩ : BufTy).Contents (Elt F) → (⟨S1000000, .f32⟩ : BufTy).Contents (Elt F) → (⟨S1000000, .f32⟩ : BufTy).Contents (Elt F)),
    nullary main_cst_6 (constant S_ .f32 0x33D6BF95#32),
    unary main_cst_6 main_v49 (broadcastInDim S1000000 ![] bcast_S_S1000000 : (⟨S_, .f32⟩ : BufTy).Contents (Elt F) → (⟨S1000000, .f32⟩ : BufTy).Contents (Elt F)),
    binary main_v48 main_v49 main_v50 (addf : (⟨S1000000, .f32⟩ : BufTy).Contents (Elt F) → (⟨S1000000, .f32⟩ : BufTy).Contents (Elt F) → (⟨S1000000, .f32⟩ : BufTy).Contents (Elt F)),
    binary main_v40 main_v50 main_v51 (Host.divf : (⟨S1000000, .f32⟩ : BufTy).Contents (Elt F) → (⟨S1000000, .f32⟩ : BufTy).Contents (Elt F) → (⟨S1000000, .f32⟩ : BufTy).Contents (Elt F)),
    binary main_v21 main_v29 main_v52 (maximumf : (⟨S1000000, .f32⟩ : BufTy).Contents (Elt F) → (⟨S1000000, .f32⟩ : BufTy).Contents (Elt F) → (⟨S1000000, .f32⟩ : BufTy).Contents (Elt F)),
    binary main_v17 main_v25 main_v53 (minimumf : (⟨S1000000, .f32⟩ : BufTy).Contents (Elt F) → (⟨S1000000, .f32⟩ : BufTy).Contents (Elt F) → (⟨S1000000, .f32⟩ : BufTy).Contents (Elt F)),
    binary main_v52 main_v53 main_v54 (subf : (⟨S1000000, .f32⟩ : BufTy).Contents (Elt F) → (⟨S1000000, .f32⟩ : BufTy).Contents (Elt F) → (⟨S1000000, .f32⟩ : BufTy).Contents (Elt F)),
    binary main_v23 main_v31 main_v55 (maximumf : (⟨S1000000, .f32⟩ : BufTy).Contents (Elt F) → (⟨S1000000, .f32⟩ : BufTy).Contents (Elt F) → (⟨S1000000, .f32⟩ : BufTy).Contents (Elt F)),
    binary main_v19 main_v27 main_v56 (minimumf : (⟨S1000000, .f32⟩ : BufTy).Contents (Elt F) → (⟨S1000000, .f32⟩ : BufTy).Contents (Elt F) → (⟨S1000000, .f32⟩ : BufTy).Contents (Elt F)),
    binary main_v55 main_v56 main_v57 (subf : (⟨S1000000, .f32⟩ : BufTy).Contents (Elt F) → (⟨S1000000, .f32⟩ : BufTy).Contents (Elt F) → (⟨S1000000, .f32⟩ : BufTy).Contents (Elt F)),
    binary main_v54 main_v57 main_v58 (mulf : (⟨S1000000, .f32⟩ : BufTy).Contents (Elt F) → (⟨S1000000, .f32⟩ : BufTy).Contents (Elt F) → (⟨S1000000, .f32⟩ : BufTy).Contents (Elt F)),
    binary main_v58 main_v48 main_v59 (subf : (⟨S1000000, .f32⟩ : BufTy).Contents (Elt F) → (⟨S1000000, .f32⟩ : BufTy).Contents (Elt F) → (⟨S1000000, .f32⟩ : BufTy).Contents (Elt F)),
    nullary main_cst_7 (constant S_ .f32 0x33D6BF95#32),
    unary main_cst_7 main_v60 (broadcastInDim S1000000 ![] bcast_S_S1000000 : (⟨S_, .f32⟩ : BufTy).Contents (Elt F) → (⟨S1000000, .f32⟩ : BufTy).Contents (Elt F)),
    binary main_v58 main_v60 main_v61 (addf : (⟨S1000000, .f32⟩ : BufTy).Contents (Elt F) → (⟨S1000000, .f32⟩ : BufTy).Contents (Elt F) → (⟨S1000000, .f32⟩ : BufTy).Contents (Elt F)),
    binary main_v59 main_v61 main_v62 (Host.divf : (⟨S1000000, .f32⟩ : BufTy).Contents (Elt F) → (⟨S1000000, .f32⟩ : BufTy).Contents (Elt F) → (⟨S1000000, .f32⟩ : BufTy).Contents (Elt F)),
    binary main_v51 main_v62 main_v63 (subf : (⟨S1000000, .f32⟩ : BufTy).Contents (Elt F) → (⟨S1000000, .f32⟩ : BufTy).Contents (Elt F) → (⟨S1000000, .f32⟩ : BufTy).Contents (Elt F)),
    nullary main_cst_8 (constant S_ .f32 0x3F800000#32),
    unary main_cst_8 main_v64 (broadcastInDim S1000000 ![] bcast_S_S1000000 : (⟨S_, .f32⟩ : BufTy).Contents (Elt F) → (⟨S1000000, .f32⟩ : BufTy).Contents (Elt F)),
    binary main_v64 main_v63 main_v65 (subf : (⟨S1000000, .f32⟩ : BufTy).Contents (Elt F) → (⟨S1000000, .f32⟩ : BufTy).Contents (Elt F) → (⟨S1000000, .f32⟩ : BufTy).Contents (Elt F)),
    nullary main_cst_9 (constant S_ .f32 0x00000000#32),
    binary main_v65 main_cst_9 main_v66 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_10 (constant S_ .f32 0x49742400#32),
    binary main_v66 main_cst_10 main_v67 (Host.divf : (⟨S_, .f32⟩ : BufTy).Contents (Elt F) → (⟨S_, .f32⟩ : BufTy).Contents (Elt F) → (⟨S_, .f32⟩ : BufTy).Contents (Elt F)) ]

/-- Operations 120 to 138: the centerness chain, down to the centerness mean. -/
abbrev opsC : List (HloOp τ sig (Elt F)) :=
  [ unary main_arg2 main_v68 (Host.negf : (⟨S1000000, .f32⟩ : BufTy).Contents (Elt F) → (⟨S1000000, .f32⟩ : BufTy).Contents (Elt F)),
    nullary main_cst_11 (constant S_ .f32 0x00000000#32),
    unary main_cst_11 main_v69 (broadcastInDim S1000000 ![] bcast_S_S1000000 : (⟨S_, .f32⟩ : BufTy).Contents (Elt F) → (⟨S1000000, .f32⟩ : BufTy).Contents (Elt F)),
    binary main_v69 main_v68 main_v70 (maximumf : (⟨S1000000, .f32⟩ : BufTy).Contents (Elt F) → (⟨S1000000, .f32⟩ : BufTy).Contents (Elt F) → (⟨S1000000, .f32⟩ : BufTy).Contents (Elt F)),
    unary main_cst_11 main_v71 (broadcastInDim S1000000 ![] bcast_S_S1000000 : (⟨S_, .f32⟩ : BufTy).Contents (Elt F) → (⟨S1000000, .f32⟩ : BufTy).Contents (Elt F)),
    binary main_v71 main_v68 main_v72 (subf : (⟨S1000000, .f32⟩ : BufTy).Contents (Elt F) → (⟨S1000000, .f32⟩ : BufTy).Contents (Elt F) → (⟨S1000000, .f32⟩ : BufTy).Contents (Elt F)),
    binary main_v72 main_v72 main_v73 (cmpf .une : (⟨S1000000, .f32⟩ : BufTy).Contents (Elt F) → (⟨S1000000, .f32⟩ : BufTy).Contents (Elt F) → (⟨S1000000, .i1⟩ : BufTy).Contents (Elt F)),
    unary main_cst_11 main_v74 (broadcastInDim S1000000 ![] bcast_S_S1000000 : (⟨S_, .f32⟩ : BufTy).Contents (Elt F) → (⟨S1000000, .f32⟩ : BufTy).Contents (Elt F)),
    binary main_v74 main_v68 main_v75 (addf : (⟨S1000000, .f32⟩ : BufTy).Contents (Elt F) → (⟨S1000000, .f32⟩ : BufTy).Contents (Elt F) → (⟨S1000000, .f32⟩ : BufTy).Contents (Elt F)),
    unary main_v72 main_v76 (Host.absf : (⟨S1000000, .f32⟩ : BufTy).Contents (Elt F) → (⟨S1000000, .f32⟩ : BufTy).Contents (Elt F)),
    unary main_v76 main_v77 (Host.negf : (⟨S1000000, .f32⟩ : BufTy).Contents (Elt F) → (⟨S1000000, .f32⟩ : BufTy).Contents (Elt F)),
    unary main_v77 main_v78 (Host.exp : (⟨S1000000, .f32⟩ : BufTy).Contents (Elt F) → (⟨S1000000, .f32⟩ : BufTy).Contents (Elt F)),
    unary main_v78 main_v79 (Host.log1p : (⟨S1000000, .f32⟩ : BufTy).Contents (Elt F) → (⟨S1000000, .f32⟩ : BufTy).Contents (Elt F)),
    binary main_v70 main_v79 main_v80 (addf : (⟨S1000000, .f32⟩ : BufTy).Contents (Elt F) → (⟨S1000000, .f32⟩ : BufTy).Contents (Elt F) → (⟨S1000000, .f32⟩ : BufTy).Contents (Elt F)),
    ternary main_v73 main_v75 main_v80 main_v81 (select : (⟨S1000000, .i1⟩ : BufTy).Contents (Elt F) → (⟨S1000000, .f32⟩ : BufTy).Contents (Elt F) → (⟨S1000000, .f32⟩ : BufTy).Contents (Elt F) → (⟨S1000000, .f32⟩ : BufTy).Contents (Elt F)),
    nullary main_cst_12 (constant S_ .f32 0x00000000#32),
    binary main_v81 main_cst_12 main_v82 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    nullary main_cst_13 (constant S_ .f32 0x49742400#32),
    binary main_v82 main_cst_13 main_v83 (Host.divf : (⟨S_, .f32⟩ : BufTy).Contents (Elt F) → (⟨S_, .f32⟩ : BufTy).Contents (Elt F) → (⟨S_, .f32⟩ : BufTy).Contents (Elt F)) ]

/-- Operations 139 to 142: the sum of the focal and GIoU means, the weight 1/10, the weighted centerness mean, the total. -/
abbrev opsD : List (HloOp τ sig (Elt F)) :=
  [ binary main_v15 main_v67 main_v84 (addf : (⟨S_, .f32⟩ : BufTy).Contents (Elt F) → (⟨S_, .f32⟩ : BufTy).Contents (Elt F) → (⟨S_, .f32⟩ : BufTy).Contents (Elt F)),
    nullary main_cst_14 (constant S_ .f32 0x3DCCCCCD#32),
    binary main_cst_14 main_v83 main_v85 (mulf : (⟨S_, .f32⟩ : BufTy).Contents (Elt F) → (⟨S_, .f32⟩ : BufTy).Contents (Elt F) → (⟨S_, .f32⟩ : BufTy).Contents (Elt F)),
    binary main_v84 main_v85 main_v86 (addf : (⟨S_, .f32⟩ : BufTy).Contents (Elt F) → (⟨S_, .f32⟩ : BufTy).Contents (Elt F) → (⟨S_, .f32⟩ : BufTy).Contents (Elt F)) ]

set_option maxRecDepth 8192 in
/-- The operation list is the four stretches in a row. -/
theorem ops_split : (ops (F := F)) = opsA (F := F) ++ (opsB (F := F) ++ (opsC (F := F) ++ opsD (F := F))) := rfl

/-- The fold over all the operations is the four stretches' folds composed. -/
theorem after_ops_eq (V : Valuation τ sig (Elt F)) :
    after (ops (F := F)) V = after (opsD (F := F)) (after (opsC (F := F)) (after (opsB (F := F)) (after (opsA (F := F)) V))) := by
  rw [ops_split, after_append, after_append, after_append]

/-! ## Buffers a stretch does not write keep their contents -/

theorem keepA_arg1 (W : Valuation τ sig (Elt F)) :
    after (opsA (F := F)) W (Proc.devRef .tc main_arg1) = W (Proc.devRef .tc main_arg1) := by
  after_results_simp

theorem keepA_arg2 (W : Valuation τ sig (Elt F)) :
    after (opsA (F := F)) W (Proc.devRef .tc main_arg2) = W (Proc.devRef .tc main_arg2) := by
  after_results_simp

theorem keepA_arg3 (W : Valuation τ sig (Elt F)) :
    after (opsA (F := F)) W (Proc.devRef .tc main_arg3) = W (Proc.devRef .tc main_arg3) := by
  after_results_simp

theorem keepB_arg2 (W : Valuation τ sig (Elt F)) :
    after (opsB (F := F)) W (Proc.devRef .tc main_arg2) = W (Proc.devRef .tc main_arg2) := by
  after_results_simp

theorem keepC_v67 (W : Valuation τ sig (Elt F)) :
    after (opsC (F := F)) W (Proc.devRef .tc main_v67) = W (Proc.devRef .tc main_v67) := by
  after_results_simp

theorem keepD_v15 (W : Valuation τ sig (Elt F)) :
    after (opsD (F := F)) W (Proc.devRef .tc main_v15) = W (Proc.devRef .tc main_v15) := by
  after_results_simp

theorem keepD_v67 (W : Valuation τ sig (Elt F)) :
    after (opsD (F := F)) W (Proc.devRef .tc main_v67) = W (Proc.devRef .tc main_v67) := by
  after_results_simp

theorem keepD_v83 (W : Valuation τ sig (Elt F)) :
    after (opsD (F := F)) W (Proc.devRef .tc main_v83) = W (Proc.devRef .tc main_v83) := by
  after_results_simp

/-! ## What each stretch leaves in its result buffer -/

set_option maxHeartbeats 20000000 in
/-- The GIoU stretch leaves the GIoU mean's buffer at its staged function of the two box arrays it
    starts from. -/
theorem afterB_v67 (W : Valuation τ sig (Elt F)) :
    after (opsB (F := F)) W (Proc.devRef .tc main_v67)
      = val_main_v67 (F := F) (W (Proc.devRef .tc main_arg1)) (W (Proc.devRef .tc main_arg3)) := by
  after_results_simp
  try simp only [Cert.Lib.TRef.ofBuf_toBuf, Cert.Lib.TRef.toBuf_ofBuf]
  rfl

/-- The centerness stretch leaves the centerness mean's buffer at its staged function of the
    logits it starts from. -/
theorem afterC_v83 (W : Valuation τ sig (Elt F)) :
    after (opsC (F := F)) W (Proc.devRef .tc main_v83) = val_main_v83 (F := F) (W (Proc.devRef .tc main_arg2)) := by
  after_results_simp
  try simp only [Cert.Lib.TRef.ofBuf_toBuf, Cert.Lib.TRef.toBuf_ofBuf]
  rfl

/-- The last four operations leave the total's buffer at the sum of the focal and GIoU means plus
    1/10 of the centerness mean, the three means read from the memory they start from. -/
theorem afterD_v86 (W : Valuation τ sig (Elt F)) :
    after (opsD (F := F)) W (Proc.devRef .tc main_v86)
      = addf (addf (W (Proc.devRef .tc main_v15)) (W (Proc.devRef .tc main_v67)))
          (mulf (constant S_ .f32 0x3DCCCCCD#32) (W (Proc.devRef .tc main_v83))) := by
  after_results_simp
  try rfl

/-! ## The arguments

No operation writes an argument, so the fold leaves each as it was. -/

/-- No operation writes argument 0: the fold leaves it as it was. -/
theorem after_arg0 (V : Valuation τ sig (Elt F)) :
    after (ops (F := F)) V (Proc.devRef .tc main_arg0) = V (Proc.devRef .tc main_arg0) := by
  after_results_simp

/-- No operation writes argument 1: the fold leaves it as it was. -/
theorem after_arg1 (V : Valuation τ sig (Elt F)) :
    after (ops (F := F)) V (Proc.devRef .tc main_arg1) = V (Proc.devRef .tc main_arg1) := by
  after_results_simp

/-- No operation writes argument 2: the fold leaves it as it was. -/
theorem after_arg2 (V : Valuation τ sig (Elt F)) :
    after (ops (F := F)) V (Proc.devRef .tc main_arg2) = V (Proc.devRef .tc main_arg2) := by
  after_results_simp

/-- No operation writes argument 3: the fold leaves it as it was. -/
theorem after_arg3 (V : Valuation τ sig (Elt F)) :
    after (ops (F := F)) V (Proc.devRef .tc main_arg3) = V (Proc.devRef .tc main_arg3) := by
  after_results_simp

/-- No operation writes argument 4: the fold leaves it as it was. -/
theorem after_arg4 (V : Valuation τ sig (Elt F)) :
    after (ops (F := F)) V (Proc.devRef .tc main_arg4) = V (Proc.devRef .tc main_arg4) := by
  after_results_simp

/-! ## The results of the whole fold -/

/-- The fold leaves the GIoU mean's buffer at its staged function of the two box arrays. -/
theorem after_v67 (V : Valuation τ sig (Elt F)) :
    after (ops (F := F)) V (Proc.devRef .tc main_v67)
      = val_main_v67 (F := F) (V (Proc.devRef .tc main_arg1)) (V (Proc.devRef .tc main_arg3)) := by
  rw [after_ops_eq, keepD_v67, keepC_v67, afterB_v67, keepA_arg1, keepA_arg3]

/-- The fold leaves the centerness mean's buffer at its staged function of the centerness logits. -/
theorem after_v83 (V : Valuation τ sig (Elt F)) :
    after (ops (F := F)) V (Proc.devRef .tc main_v83) = val_main_v83 (F := F) (V (Proc.devRef .tc main_arg2)) := by
  rw [after_ops_eq, keepD_v83, afterC_v83, keepB_arg2, keepA_arg2]

/-- The fold leaves the total's buffer at its staged function of all five arguments, given the
    focal mean's buffer (hv15). -/
theorem after_v86 (V : Valuation τ sig (Elt F))
    (hv15 : after (ops (F := F)) V (Proc.devRef .tc main_v15) = val_main_v15 (F := F) (V (Proc.devRef .tc main_arg0)) (V (Proc.devRef .tc main_arg4))) :
    after (ops (F := F)) V (Proc.devRef .tc main_v86)
      = val_main_v86 (F := F) (V (Proc.devRef .tc main_arg0)) (V (Proc.devRef .tc main_arg1)) (V (Proc.devRef .tc main_arg2))
          (V (Proc.devRef .tc main_arg3)) (V (Proc.devRef .tc main_arg4)) := by
  have h15 := hv15
  have h67 := after_v67 (F := F) V
  have h83 := after_v83 (F := F) V
  rw [after_ops_eq, keepD_v15] at h15
  rw [after_ops_eq, keepD_v67] at h67
  rw [after_ops_eq, keepD_v83] at h83
  rw [after_ops_eq, afterD_v86, h15, h67, h83]
  rfl

/-- THE RUN over the staged functions, given the focal mean's fold value (hv15, proved in another module). -/
theorem run_vals (hv15 : ∀ V : Valuation τ sig (Elt F), after (ops (F := F)) V (Proc.devRef .tc main_v15) = val_main_v15 (F := F) (V (Proc.devRef .tc main_arg0)) (V (Proc.devRef .tc main_arg4)))
    (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v15) = val_main_v15 (F := F) (m ((c.tc : Thread nD τ).loc main_arg0)) (m ((c.tc : Thread nD τ).loc main_arg4))
      ∧ r.2.mem ((c.tc : Thread nD τ).loc main_v67) = val_main_v67 (F := F) (m ((c.tc : Thread nD τ).loc main_arg1)) (m ((c.tc : Thread nD τ).loc main_arg3))
      ∧ r.2.mem ((c.tc : Thread nD τ).loc main_v83) = val_main_v83 (F := F) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun _ h c =>
      ⟨(h c main_v86).trans (after_v86 _ (hv15 _)),
       (h c main_v15).trans (hv15 _),
       (h c main_v67).trans (after_v67 _),
       (h c main_v83).trans (after_v83 _),
       (h c main_arg0).trans (after_arg0 _),
       (h c main_arg1).trans (after_arg1 _),
       (h c main_arg2).trans (after_arg2 _),
       (h c main_arg3).trans (after_arg3 _),
       (h c main_arg4).trans (after_arg4 _)⟩)
    (run_seq scopedRefs_eq scopedSems_eq defs main (fun _ => ops) main_eq (fun _ => ops_sub) m ρ)

end Cert.ReferenceIdeal.RunH

end
-- ==== Proof.Spec.lean ====
/-
  What the program computes, as functions of the argument arrays on the extended reals.

  Three losses over N = 1 000 000 rows, each a mean:
  * the focal loss of a row of 80 logits x against a class word g: with M the row's maximum,
    s c = x c - M, lse = log (sum_c exp (s c)), the cross entropy ce = lse - s g (the target's
    shifted logit picked by a one-hot sum over the 80 classes), p = exp (-ce), and the loss
    1/4 * (1 - p)^2 * ce;
  * the generalized-IoU loss 1 - giou of a predicted and a target box (x1, y1, x2, y2);
  * softplus (-c) = max 0 (-c) + log1p (exp (-|c|)) of a centerness logit c.
  The total is focal + giou + 1/10 * centerness.

  The row functions are written in the order the kernel applies its operations, so that the
  kernel's arithmetic unfolds to them; the reference's own spellings of the focal row and of
  softplus (a power with exponent 2, a double negation, negation in place of 0 - x) are stated
  beside them and proved equal elsewhere.
-/
import Idealize.ShloMosaic.PureOps.Ideal
import Idealize.ShloMosaic.Lib.ValueIdx

noncomputable section

namespace Cert.Spec

open Idealize.ShloMosaic Idealize.ShloMosaic.ValueIdx

/-! ## The literals (kept as their words; only the zero word is ever evaluated) -/

/-- 0.25 -/
abbrev quarter : EReal := Ideal.ofBits .f32 0x3E800000#32
/-- 1.0 -/
abbrev one : EReal := Ideal.ofBits .f32 0x3F800000#32
/-- 2.0 -/
abbrev two : EReal := Ideal.ofBits .f32 0x40000000#32
/-- the f32 nearest 1e-7 -/
abbrev eps : EReal := Ideal.ofBits .f32 0x33D6BF95#32
/-- 1 000 000.0 -/
abbrev million : EReal := Ideal.ofBits .f32 0x49742400#32
/-- the f32 nearest 0.1 -/
abbrev tenth : EReal := Ideal.ofBits .f32 0x3DCCCCCD#32
/-- minus infinity, the neutral element of a maximum -/
abbrev negInf : EReal := Ideal.ofBits .f32 0xFF800000#32

/-! ## One row -/

/-- The maximum of a row of 80 logits (a fold of max from minus infinity). -/
def rowMax (x : Fin 80 → EReal) : EReal := (Finset.univ : Finset (Fin 80)).fold max negInf x

/-- The cross entropy of a row against a class word, the target's shifted logit picked by a
    one-hot sum (a class word outside 0..79 picks nothing). -/
def ceRow (x : Fin 80 → EReal) (g : BitVec 32) : EReal :=
  Ideal.log (∑ c : Fin 80, Ideal.exp (x c - rowMax x))
    - ∑ c : Fin 80, (if BitVec.ofNat 32 c.val = g then x c - rowMax x else 0)

/-- The focal loss of a cross entropy: 1/4 (1 - e^(-ce))^2 ce, the square as a product. -/
def focalOf (ce : EReal) : EReal :=
  ((quarter * (one - Ideal.exp (0 - ce))) * (one - Ideal.exp (0 - ce))) * ce

/-- The focal loss of a row. -/
def focalRow (x : Fin 80 → EReal) (g : BitVec 32) : EReal := focalOf (ceRow x g)

/-- The generalized-IoU loss of a predicted box p and a target box q, each (x1, y1, x2, y2). -/
def giouRow (p q : Fin 4 → EReal) : EReal :=
  let inter := max 0 (min (p 2) (q 2) - max (p 0) (q 0)) * max 0 (min (p 3) (q 3) - max (p 1) (q 1))
  let union := ((p 2 - p 0) * (p 3 - p 1) + (q 2 - q 0) * (q 3 - q 1)) - inter
  let hull := (max (p 2) (q 2) - min (p 0) (q 0)) * (max (p 3) (q 3) - min (p 1) (q 1))
  one - (Ideal.div inter (union + eps) - Ideal.div (hull - union) (hull + eps))

/-- softplus (-c), as max 0 (-c) + log1p (exp (-|c|)), with -c spelt 0 - c. -/
def softplusRow (c : EReal) : EReal :=
  max 0 (0 - c) + Ideal.log1p (Ideal.exp (0 - max (0 - (0 - c)) (-(0 - (0 - c)))))

/-! ## The reference's spellings of the same rows -/

/-- The reference's cross entropy: the row maximum taken once more against minus infinity, the
    sum of exponentials from a zero initial value, the target's entry of the log-softmax read at
    the class (in range) and negated. -/
def ceRowRef (x : Fin 80 → EReal) (g : BitVec 32) (hg : g.toNat < 80) : EReal :=
  -((x ⟨g.toNat, hg⟩ - max negInf (rowMax x))
      - Ideal.log (0 + ∑ c : Fin 80, Ideal.exp (x c - max negInf (rowMax x))))

/-- The reference's focal loss of a cross entropy: a power with exponent 2, the exponential of a
    double negation. -/
def focalOfRef (ce : EReal) : EReal :=
  (quarter * Ideal.pow (one - Ideal.exp (-(ce))) two) * ce

/-- The reference's softplus (-c), with a true negation. -/
def softplusRowRef (c : EReal) : EReal :=
  max 0 (-c) + Ideal.log1p (Ideal.exp (-(max (0 - -c) (-(0 - -c)))))

/-! ## One block of 16 384 rows, the rows past the array's end masked to zero -/

/-- The focal sum of block p: x0 the block's 16384 x 80 logits, x4 its 16384 x 1 class words. -/
def blockFocal (p : ℕ) (x0 : (⟨2, ![16384, 80]⟩ : Shape).Idx → EReal) (x4 : (⟨2, ![16384, 1]⟩ : Shape).Idx → BitVec 32) : EReal :=
  ∑ r : Fin 16384, if 16384 * p + r.val < 1000000 then focalRow (fun c => x0 (ix2 r c)) (x4 (ix2 r 0)) else 0

/-- The GIoU sum of block p: x1, x3 the block's 4 x 16384 predicted and target boxes, a box a column. -/
def blockGiou (p : ℕ) (x1 x3 : (⟨2, ![4, 16384]⟩ : Shape).Idx → EReal) : EReal :=
  ∑ r : Fin 16384, if 16384 * p + r.val < 1000000 then giouRow (fun a => x1 (ix2 a r)) (fun a => x3 (ix2 a r)) else 0

/-- The centerness sum of block p: x2 the block's 1 x 16384 logits. -/
def blockCenter (p : ℕ) (x2 : (⟨2, ![1, 16384]⟩ : Shape).Idx → EReal) : EReal :=
  ∑ r : Fin 16384, if 16384 * p + r.val < 1000000 then softplusRow (x2 (ix2 0 r)) else 0

/-! ## The whole arrays -/

/-- The sum of the focal losses of all rows: X the 1000000 x 80 logits, L the class words. -/
def focalSum (X : (⟨2, ![1000000, 80]⟩ : Shape).Idx → EReal) (L : (⟨1, ![1000000]⟩ : Shape).Idx → BitVec 32) : EReal :=
  ∑ i : Fin 1000000, focalRow (fun c => X (ix2 i c)) (L (ix1 i))

/-- The sum of the GIoU losses of all rows: B the predicted boxes, G the target boxes, a box a row. -/
def giouSum (B G : (⟨2, ![1000000, 4]⟩ : Shape).Idx → EReal) : EReal :=
  ∑ i : Fin 1000000, giouRow (fun a => B (ix2 i a)) (fun a => G (ix2 i a))

/-- The sum of softplus (-c) over the centerness logits. -/
def centerSum (C : (⟨1, ![1000000]⟩ : Shape).Idx → EReal) : EReal :=
  ∑ i : Fin 1000000, softplusRow (C (ix1 i))

/-- The three means. -/
def focalLoss (X : (⟨2, ![1000000, 80]⟩ : Shape).Idx → EReal) (L : (⟨1, ![1000000]⟩ : Shape).Idx → BitVec 32) : EReal :=
  Ideal.div (focalSum X L) million
def giouLoss (B G : (⟨2, ![1000000, 4]⟩ : Shape).Idx → EReal) : EReal := Ideal.div (giouSum B G) million
def centerLoss (C : (⟨1, ![1000000]⟩ : Shape).Idx → EReal) : EReal := Ideal.div (centerSum C) million

/-- The total loss. -/
def totalLoss (X : (⟨2, ![1000000, 80]⟩ : Shape).Idx → EReal) (B : (⟨2, ![1000000, 4]⟩ : Shape).Idx → EReal)
    (C : (⟨1, ![1000000]⟩ : Shape).Idx → EReal) (G : (⟨2, ![1000000, 4]⟩ : Shape).Idx → EReal)
    (L : (⟨1, ![1000000]⟩ : Shape).Idx → BitVec 32) : EReal :=
  (focalLoss X L + giouLoss B G) + tenth * centerLoss C

end Cert.Spec

end
-- ==== Proof.RowLaws.lean ====
/-
  The reference's spellings of a row's losses equal the kernel's, on the extended reals.

  The cross entropy: the reference negates (s g - lse), the kernel subtracts the other way
  round; the two agree when the shifted logit and the log-sum-exp are real numbers, which they
  are for a row of real logits (the row maximum is one of them; the sum of 80 exponentials is a
  positive real, so its logarithm is real). The one-hot sum over the classes picks the target's
  term when the class word is in range. The focal weight: a real number to the power 2 is its
  square. Softplus: 0 - c is -c on every extended real.
-/
import proofs.«408445_j48344151884162_2_alg».proof.Proof.Spec

noncomputable section

namespace Cert.Spec

open Idealize.ShloMosaic

theorem negInf_eq : negInf = (⊥ : EReal) := by
  simp [negInf, Ideal.ofBits, Ideal.ieee]

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

/-- Neither "ordered and different" nor "unordered or different" holds of a value and itself. -/
theorem cmp_one_self (a : EReal) : Ideal.cmp .one a a = 0#1 := by
  simp [Ideal.cmp]

theorem cmp_une_self (a : EReal) : Ideal.cmp .une a a = 0#1 := by
  simp [Ideal.cmp]

theorem zero_sub_eq_neg (a : EReal) : (0 : EReal) - a = -a := by
  rw [sub_eq_add_neg, zero_add]

/-- A class index below 80 is the class word's number exactly when its 32-bit word is the class word. -/
private theorem word_eq_iff (g : BitVec 32) (hg : g.toNat < 80) (c : Fin 80) :
    BitVec.ofNat 32 c.val = g ↔ c = ⟨g.toNat, hg⟩ := by
  constructor
  · intro h
    apply Fin.ext
    have h2 := congrArg BitVec.toNat h
    rw [BitVec.toNat_ofNat, Nat.mod_eq_of_lt (by omega)] at h2
    exact h2
  · intro h
    subst h
    apply BitVec.eq_of_toNat_eq
    rw [BitVec.toNat_ofNat, Nat.mod_eq_of_lt (by omega)]

/-- A one-hot sum over the 80 classes picks the term of the class the word names. -/
theorem onehot_sum (f : Fin 80 → EReal) (g : BitVec 32) (hg : g.toNat < 80) :
    (∑ c : Fin 80, if BitVec.ofNat 32 c.val = g then f c else 0) = f ⟨g.toNat, hg⟩ := by
  simp only [word_eq_iff g hg]
  rw [Finset.sum_ite_eq']
  simp

/-- A fold of max from ⊥ over a finite set is ⊥ or one of the values folded. -/
private theorem fold_max_mem (x : Fin 80 → EReal) (s : Finset (Fin 80)) :
    s.fold max ⊥ x = ⊥ ∨ ∃ c ∈ s, s.fold max ⊥ x = x c := by
  induction s using Finset.induction_on with
  | empty => left; simp
  | insert a s ha ih =>
    rw [Finset.fold_insert ha]
    rcases max_choice (x a) (s.fold max ⊥ x) with h | h
    · right; exact ⟨a, Finset.mem_insert_self a s, h⟩
    · rcases ih with ih | ⟨c, hc, ih⟩
      · left; rw [h, ih]
      · right; exact ⟨c, Finset.mem_insert_of_mem hc, by rw [h, ih]⟩

/-- The maximum of a row of real logits is a real number: it is one of them. -/
private theorem rowMax_real (x : Fin 80 → EReal) (hx : ∀ c, ∃ r : ℝ, x c = (r : EReal)) :
    ∃ m : ℝ, rowMax x = (m : EReal) := by
  have hge : x 0 ≤ rowMax x := by
    unfold rowMax
    rw [Finset.le_fold_max]
    right; exact ⟨0, Finset.mem_univ _, le_rfl⟩
  unfold rowMax at hge ⊢
  rw [negInf_eq] at hge ⊢
  rcases fold_max_mem x Finset.univ with h | ⟨c, _, h⟩
  · obtain ⟨r, hr⟩ := hx 0
    rw [h, hr] at hge
    exact absurd hge (by simp)
  · obtain ⟨r, hr⟩ := hx c
    exact ⟨r, by rw [h, hr]⟩

/-- A finite sum of real numbers, taken in the extended reals, is their real sum. -/
private theorem sum_coe (s : Finset (Fin 80)) (f : Fin 80 → ℝ) :
    (∑ c ∈ s, ((f c : ℝ) : EReal)) = ((∑ c ∈ s, f c : ℝ) : EReal) := by
  induction s using Finset.induction_on with
  | empty => simp
  | insert a s ha ih => rw [Finset.sum_insert ha, Finset.sum_insert ha, ih, EReal.coe_add]

/-- For a row of real logits r with maximum m: the shifted logits are the reals r c - m, and the
    logarithm of the sum of their exponentials (a positive real) is a real logarithm. -/
private theorem row_facts (x : Fin 80 → EReal) (hx : ∀ c, ∃ r : ℝ, x c = (r : EReal)) :
    ∃ (r : Fin 80 → ℝ) (m : ℝ), (∀ c, x c - rowMax x = ((r c - m : ℝ) : EReal))
      ∧ Ideal.log (∑ c : Fin 80, Ideal.exp (x c - rowMax x))
          = ((Real.log (∑ c : Fin 80, Real.exp (r c - m)) : ℝ) : EReal) := by
  obtain ⟨m, hm⟩ := rowMax_real x hx
  choose r hr using hx
  have hs : ∀ c, x c - rowMax x = ((r c - m : ℝ) : EReal) := by
    intro c; rw [hr c, hm, EReal.coe_sub]
  refine ⟨r, m, hs, ?_⟩
  have hsum : (∑ c : Fin 80, Ideal.exp (x c - rowMax x))
      = ((∑ c : Fin 80, Real.exp (r c - m) : ℝ) : EReal) := by
    rw [← sum_coe]
    apply Finset.sum_congr rfl
    intro c _
    rw [hs c, Ideal.exp_coe]
  have hpos : 0 < ∑ c : Fin 80, Real.exp (r c - m) :=
    Finset.sum_pos (fun c _ => Real.exp_pos _) ⟨0, Finset.mem_univ _⟩
  rw [hsum, Ideal.log_coe, if_neg (not_le.mpr hpos)]

/-- The cross entropy of a row of real logits is a real number. -/
theorem ceRow_real (x : Fin 80 → EReal) (g : BitVec 32) (hg : g.toNat < 80)
    (hx : ∀ c, ∃ r : ℝ, x c = (r : EReal)) : ∃ r : ℝ, ceRow x g = (r : EReal) := by
  obtain ⟨r, m, hs, hlog⟩ := row_facts x hx
  have h1 : (∑ c : Fin 80, (if BitVec.ofNat 32 c.val = g then x c - rowMax x else 0))
      = x ⟨g.toNat, hg⟩ - rowMax x := onehot_sum (fun c => x c - rowMax x) g hg
  refine ⟨Real.log (∑ c : Fin 80, Real.exp (r c - m)) - (r ⟨g.toNat, hg⟩ - m), ?_⟩
  unfold ceRow
  rw [h1, hlog, hs]
  exact (EReal.coe_sub _ _).symm

/-- The reference's cross entropy is the kernel's, for real logits and a class in range. -/
theorem ceRowRef_eq (x : Fin 80 → EReal) (g : BitVec 32) (hg : g.toNat < 80)
    (hx : ∀ c, ∃ r : ℝ, x c = (r : EReal)) : ceRowRef x g hg = ceRow x g := by
  obtain ⟨r, m, hs, hlog⟩ := row_facts x hx
  have h1 : (∑ c : Fin 80, (if BitVec.ofNat 32 c.val = g then x c - rowMax x else 0))
      = x ⟨g.toNat, hg⟩ - rowMax x := onehot_sum (fun c => x c - rowMax x) g hg
  have hmax : max negInf (rowMax x) = rowMax x := by
    rw [negInf_eq]; exact max_eq_right bot_le
  unfold ceRowRef ceRow
  rw [hmax, zero_add, h1, hlog, hs, ← EReal.coe_sub, ← EReal.coe_sub, ← EReal.coe_neg, neg_sub]

/-- The reference's focal weight (a power with exponent 2) is the kernel's (a product), at a real
    cross entropy. -/
theorem focalOfRef_eq (ce : EReal) (h : ∃ r : ℝ, ce = (r : EReal)) : focalOfRef ce = focalOf ce := by
  obtain ⟨r, rfl⟩ := h
  have hw : one - Ideal.exp (-(r : EReal)) = ((1 - Real.exp (-r) : ℝ) : EReal) := by
    rw [one_eq, ← EReal.coe_neg, Ideal.exp_coe, ← EReal.coe_sub]
  have hsq : Real.rpow (1 - Real.exp (-r)) 2 = (1 - Real.exp (-r)) * (1 - Real.exp (-r)) := by
    show (1 - Real.exp (-r)) ^ (2 : ℝ) = _
    rw [Real.rpow_two, sq]
  unfold focalOfRef focalOf
  rw [zero_sub_eq_neg, hw, two_eq, Ideal.pow_coe_coe, hsq, EReal.coe_mul, ← mul_assoc]

/-- The reference's focal loss of a row is the kernel's. -/
theorem focalRowRef_eq (x : Fin 80 → EReal) (g : BitVec 32) (hg : g.toNat < 80)
    (hx : ∀ c, ∃ r : ℝ, x c = (r : EReal)) : focalOfRef (ceRowRef x g hg) = focalRow x g := by
  rw [ceRowRef_eq x g hg hx, focalOfRef_eq _ (ceRow_real x g hg hx)]
  rfl

/-- The reference's softplus is the kernel's, on every extended real. -/
theorem softplusRowRef_eq (c : EReal) : softplusRowRef c = softplusRow c := by
  simp only [softplusRowRef, softplusRow, zero_sub_eq_neg]

end Cert.Spec

end
-- ==== Proof.SumLaws.lean ====
/-
  Re-indexing laws for finite sums in a commutative monoid (used at the extended reals, whose
  addition is commutative and associative with no side condition).

  The N = 1 000 000 rows are cut into 62 blocks of 16 384 rows, the last block running 15 808
  rows past the end; a sum over the blocks of the sums over a block's rows, the rows past the end
  contributing zero, is the sum over all rows. The 62 blocks are two runs of 31. A sum over the
  indices of a 1 x n x 1 or 1 x 1 x n array is a sum over n.
-/
import Idealize.ShloMosaic.Lib.ValueIdx

noncomputable section

namespace Cert.SumLaws

open Idealize.ShloMosaic Idealize.ShloMosaic.ValueIdx

/-- A double sum over `n` blocks of `B` consecutive naturals is the sum over the first `n * B` naturals:
    `(p, r) ↦ r + B * p` is a bijection from pairs onto `Fin (n * B)`. -/
private theorem sum_fin_mul {M : Type*} [AddCommMonoid M] (n B : ℕ) (g : ℕ → M) :
    (∑ p : Fin n, ∑ r : Fin B, g (B * p.val + r.val)) = ∑ j ∈ Finset.range (n * B), g j := by
  rw [← Fin.sum_univ_eq_sum_range g (n * B), ← Equiv.sum_comp finProdFinEquiv, Fintype.sum_prod_type]
  refine Finset.sum_congr rfl fun p _ => Finset.sum_congr rfl fun r _ => ?_
  rw [finProdFinEquiv_apply_val, Nat.add_comm]

/-- The index set of a 1 x n x 1 array is its middle coordinate's range. -/
private def idxEquiv_1_n_1 (n : ℕ) : (⟨3, ![1, n, 1]⟩ : Shape).Idx ≃ Fin n where
  toFun i := i 1
  invFun r := ix3 0 r 0
  left_inv i := by
    funext a
    match a with
    | ⟨0, _⟩ => exact Subsingleton.elim (α := Fin 1) _ _
    | ⟨1, _⟩ => rfl
    | ⟨2, _⟩ => exact Subsingleton.elim (α := Fin 1) _ _
  right_inv _ := rfl

/-- The index set of a length-n vector is its one coordinate's range. -/
private def idxEquiv_n (n : ℕ) : (⟨1, ![n]⟩ : Shape).Idx ≃ Fin n where
  toFun j := j 0
  invFun i := ix1 i
  left_inv j := (eq_ix1 j).symm
  right_inv _ := rfl

/-- The index set of a 1 x 1 x n array is its last coordinate's range. -/
private def idxEquiv_1_1_n (n : ℕ) : (⟨3, ![1, 1, n]⟩ : Shape).Idx ≃ Fin n where
  toFun i := i 2
  invFun r := ix3 0 0 r
  left_inv i := by
    funext a
    match a with
    | ⟨0, _⟩ => exact Subsingleton.elim (α := Fin 1) _ _
    | ⟨1, _⟩ => exact Subsingleton.elim (α := Fin 1) _ _
    | ⟨2, _⟩ => rfl
  right_inv _ := rfl

/-- Blocks of 16 384 rows, masked past the end, add up to the sum over all 1 000 000 rows. -/
theorem sum_blocks {M : Type*} [AddCommMonoid M] (f : Fin 1000000 → M) :
    (∑ p : Fin 62, ∑ r : Fin 16384,
        if h : 16384 * p.val + r.val < 1000000 then f ⟨16384 * p.val + r.val, h⟩ else 0)
      = ∑ i : Fin 1000000, f i := by
  -- the rows extended by zero past the end, as a function on all naturals
  let g : ℕ → M := fun j => if h : j < 1000000 then f ⟨j, h⟩ else 0
  have hL : (∑ p : Fin 62, ∑ r : Fin 16384,
        if h : 16384 * p.val + r.val < 1000000 then f ⟨16384 * p.val + r.val, h⟩ else 0)
      = ∑ p : Fin 62, ∑ r : Fin 16384, g (16384 * p.val + r.val) := rfl
  have hR : (∑ i : Fin 1000000, f i) = ∑ j ∈ Finset.range 1000000, g j := by
    rw [← Fin.sum_univ_eq_sum_range g 1000000]
    refine Finset.sum_congr rfl fun i _ => ?_
    show f i = if h : i.val < 1000000 then f ⟨i.val, h⟩ else 0
    rw [dif_pos i.isLt]
  have hT : (∑ x ∈ Finset.range 15808, g (1000000 + x)) = 0 := by
    refine Finset.sum_eq_zero fun x _ => ?_
    show (if h : 1000000 + x < 1000000 then f ⟨1000000 + x, h⟩ else 0) = 0
    rw [dif_neg (by omega)]
  rw [hL, hR, sum_fin_mul 62 16384 g, show 62 * 16384 = 1000000 + 15808 from rfl,
    Finset.sum_range_add, hT, add_zero]

/-- Two runs of 31 blocks are the 62 blocks. -/
theorem sum_cores {M : Type*} [AddCommMonoid M] (h : ℕ → M) :
    (∑ k : Fin 2, ∑ j : Fin 31, h (31 * k.val + j.val)) = ∑ p : Fin 62, h p.val := by
  rw [sum_fin_mul 2 31 h, show 2 * 31 = 62 from rfl, Fin.sum_univ_eq_sum_range h 62]

/-- A sum over the indices of a 1 x 16384 x 1 array is a sum over its middle coordinate. -/
theorem sum_idx_1_n_1 {M : Type*} [AddCommMonoid M] (v : (⟨3, ![1, 16384, 1]⟩ : Shape).Idx → M) :
    (∑ i, v i) = ∑ r : Fin 16384, v (ix3 0 r 0) := by
  rw [← Equiv.sum_comp (idxEquiv_1_n_1 16384).symm v]
  rfl

/-- A sum over the indices of a 1 x 1 x 16384 array is a sum over its last coordinate. -/
theorem sum_idx_1_1_n {M : Type*} [AddCommMonoid M] (v : (⟨3, ![1, 1, 16384]⟩ : Shape).Idx → M) :
    (∑ i, v i) = ∑ r : Fin 16384, v (ix3 0 0 r) := by
  rw [← Equiv.sum_comp (idxEquiv_1_1_n 16384).symm v]
  rfl

/-- A sum over the indices of a length-1 000 000 vector is a sum over its one coordinate. -/
theorem sum_idx_n {M : Type*} [AddCommMonoid M] (v : (⟨1, ![1000000]⟩ : Shape).Idx → M) :
    (∑ j, v j) = ∑ i : Fin 1000000, v (ix1 i) := by
  rw [← Equiv.sum_comp (idxEquiv_n 1000000).symm v]
  rfl

end Cert.SumLaws

end
-- ==== Proof.RefFocal.lean ====
/-
  The reference's focal mean is the specification's, for real logits and class words in range.
  Row by row the reference takes the log-softmax (the row maximum, once more against minus
  infinity; the shifted logits; the logarithm of the sum of their exponentials from a zero
  initial value), reads it at the class by a gather whose index (after the wrap of negative
  values, which in-range words never take, and the bounds test, which they pass) is the word
  itself, negates it to the cross entropy, and weighs it by 1/4 (1 - e^(-ce))^2 with the square a
  power of exponent 2. The mean is the sum from a zero initial value divided by 1 000 000.
-/
import proofs.«408445_j48344151884162_2_alg».proof.Proof.RefReadP
import proofs.«408445_j48344151884162_2_alg».proof.Proof.Spec
import proofs.«408445_j48344151884162_2_alg».proof.Proof.RowLaws
import proofs.«408445_j48344151884162_2_alg».proof.Proof.SumLaws
import Idealize.ShloMosaic.PureOps.Ideal.Laws
import Idealize.ShloMosaic.PureOps.Reduce
import Idealize.ShloMosaic.Lib.Affine
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.ReadP

/-! ## The row maximum: the reduce over the class axis is a fold of max over the row -/

/-- Row i with class k put back is (i, k). -/
private theorem lift_row (h : S1000000x80.Reduces [1] S1000000) (i : Fin 1000000) (k : Fin (S1000000x80.size 1)) :
    h.lift (ix1 i) k = ix2 i (⟨k.val, k.isLt⟩ : Fin 80) := by
  funext c; apply Fin.ext
  match c with
  | ⟨0, _⟩ => rfl
  | ⟨1, _⟩ => rfl

/-- The reduce by max from minus infinity over the classes is, at row i, the row's maximum. -/
private theorem rowMax_read (X : (⟨S1000000x80, .f32⟩ : BufTy).Contents (Elt Ideal)) (i : Fin 1000000) :
    val_main_call0_v0 (F := Ideal) X (ix1 i) = Cert.Spec.rowMax (fun c => X (ix2 i c)) := by
  have h : S1000000x80.Reduces [1] S1000000 := by decide
  unfold val_main_call0_v0
  refine (Host.reduce_eq_fold_single (α := EReal) (s := S1000000x80) (t := S1000000) (a := (1 : Fin 2))
    (FloatOps.maximumf (F := Ideal) (φ := .f32)) X (val_main_call0_cst (F := Ideal))
    Cert.ReferenceIdeal.Gen.reducesTo_S1000000x80_S1000000_d1 h Cert.ReferenceIdeal.Gen.h_S_ (ix1 i)).trans ?_
  have hf : (X ∘ h.lift (ix1 i)) = fun c : Fin 80 => X (ix2 i c) := funext fun k => congrArg X (lift_row h i k)
  unfold Cert.Spec.rowMax
  exact congrArg (fun f => Finset.fold max (Ideal.ofBits .f32 0xFF800000#32) f (Finset.univ : Finset (Fin 80))) hf

/-! ## The class word in range: the wrap of negative values and the bounds test -/

/-- An in-range class word is not negative, is at least 0 and at most 79 as a signed number, and reads the same
    signed and unsigned. -/
private theorem word_facts (g : BitVec 32) (hg : g.toNat < 80) :
    IntOp.cmpi .slt g 0#32 = 0#1 ∧ IntOp.cmpi .sge g 0#32 = 1#1 ∧ IntOp.cmpi .sle g 79#32 = 1#1
      ∧ g.toInt.toNat = g.toNat := by
  have hi : g.toInt = (g.toNat : Int) := BitVec.toInt_eq_toNat_of_lt (by omega)
  have h0 : (0#32 : BitVec 32).toInt = 0 := by decide
  have h79 : (79#32 : BitVec 32).toInt = 79 := by decide
  refine ⟨eq_zero_of_ne_one fun h => ?_, IntOp.cmpi_sge.2 ?_, IntOp.cmpi_sle.2 ?_, ?_⟩
  · have := IntOp.cmpi_slt.1 h
    rw [hi, h0] at this; omega
  · rw [hi, h0]; omega
  · rw [hi, h79]; omega
  · rw [hi]; rfl

/-- A left fold by and over one-bit words all 1, from 1, is 1. -/
private theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_one f hf l

/-- The gather's index (the class column after the wrap of negative values) is the class word. -/
private theorem v5_read (L : (⟨S1000000, .i32⟩ : BufTy).Contents (Elt Ideal)) (hL : ∀ i, (L i).toNat < 80)
    (j : S1000000x1x1.Idx) :
    val_main_call1_v5 (F := Ideal) L j = L (ix1 (⟨(j 0).val, (j 0).isLt⟩ : Fin 1000000)) := by
  have hidx : idx_main_v1 (idx_main_call1_v5 j) = ix1 (⟨(j 0).val, (j 0).isLt⟩ : Fin 1000000) := funext fun a => Fin.ext (by
    match a with
    | ⟨0, _⟩ =>
      have h1 : (j 1).val < 1 := (j 1).isLt
      have h2 : (j 2).val < 1 := (j 2).isLt
      show (((j 0).val * 1 + (j 1).val) * 1 + (j 2).val) / 1 = (j 0).val
      omega)
  rw [val_main_call1_v5_apply, val_main_call1_v4_apply, val_main_call1_v1_apply, val_main_v1_apply, hidx,
    val_main_call1_v0_apply, val_main_call1_c_apply, (word_facts _ (hL (ix1 ⟨(j 0).val, (j 0).isLt⟩))).1, select_zero]

/-- The bounds test passes at every index. -/
private theorem v11_read (L : (⟨S1000000, .i32⟩ : BufTy).Contents (Elt Ideal)) (hL : ∀ i, (L i).toNat < 80)
    (j : S1000000x1x1.Idx) : val_main_call1_v11 (F := Ideal) L j = 1#1 := by
  obtain ⟨_, h2, h3, _⟩ := word_facts _ (hL (ix1 ⟨(j 0).val, (j 0).isLt⟩))
  rw [val_main_call1_v11_apply, val_main_call1_v7_apply, val_main_call1_v10_apply, v5_read L hL j,
    val_main_call1_v6_apply, val_main_call1_c_2_apply, val_main_call1_v9_apply, val_main_call1_v8_apply,
    val_main_call1_c_1_apply, h2, h3]
  decide

/-- So its reduce by and, from 1, is 1. -/
private theorem v12_read (L : (⟨S1000000, .i32⟩ : BufTy).Contents (Elt Ideal)) (hL : ∀ i, (L i).toNat < 80)
    (j : S1000000x1.Idx) : val_main_call1_v12 (F := Ideal) L j = 1#1 := by
  unfold val_main_call1_v12
  rw [Host.reduce_eq_foldl]
  exact foldl_andi_one _ (v11_read L hL) _

/-! ## The gather along the class axis -/

local notation "gd" => gather_S1000000x80_S1000000x1x1_S1000000x1_n_1_0_0_1_2_11

/-- The batched gather reads, at row i, the operand's row i at the start index of that row, read signed and clamped
    into 0..79. -/
private theorem gather_read {α : Type} (x : S1000000x80.Idx → α) (idx : IVec S1000000x1x1 32) (i : Fin 1000000) :
    Host.gather gd x idx (ix2 i (0 : Fin 1))
      = x (ix2 i (⟨min (idx (ix3 i (0 : Fin 1) (0 : Fin 1))).toInt.toNat 79, by omega⟩ : Fin 80)) := by
  unfold Host.gather
  congr 1
  funext a
  refine Fin.ext ?_
  match a with
  | ⟨0, _⟩ =>
    show GatherDims.start gd (ix2 i (0 : Fin 1)) idx 0 + GatherDims.batchCoord gd (ix2 i (0 : Fin 1)) 0
      + GatherDims.offCoord gd (ix2 i (0 : Fin 1)) 0 = i.val
    rw [GatherDims.start_batching _ _ _ _ (show (0 : Fin 2) ∈ GatherDims.operandBatchingDims gd from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ GatherDims.operandBatchingDims gd from List.mem_singleton.mpr rfl)]
    rfl
  | ⟨1, _⟩ =>
    show GatherDims.start gd (ix2 i (0 : Fin 1)) idx 1 + GatherDims.batchCoord gd (ix2 i (0 : Fin 1)) 1
      + GatherDims.offCoord gd (ix2 i (0 : Fin 1)) 1 = min (idx (ix3 i (0 : Fin 1) (0 : Fin 1))).toInt.toNat 79
    rw [GatherDims.batchCoord_eq_zero _ _ _ (show (1 : Fin 2) ∉ GatherDims.operandBatchingDims gd from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gd from List.mem_singleton.mpr rfl)]
    have hsi : GatherDims.siIdx gd (ix2 i (0 : Fin 1)) ⟨List.idxOf (1 : Fin 2) (GatherDims.startIndexMap gd),
        List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    rfl

/-- The gathered value at row i is the log-softmax of row i at the class the word names. -/
private theorem v13_read (X : (⟨S1000000x80, .f32⟩ : BufTy).Contents (Elt Ideal))
    (L : (⟨S1000000, .i32⟩ : BufTy).Contents (Elt Ideal)) (hL : ∀ i, (L i).toNat < 80) (i : Fin 1000000) :
    val_main_call1_v13 (F := Ideal) X L (ix2 i (0 : Fin 1))
      = val_main_v0 (F := Ideal) X (ix2 i (⟨(L (ix1 i)).toNat, hL _⟩ : Fin 80)) := by
  unfold val_main_call1_v13
  rw [gather_read]
  obtain ⟨_, _, _, h4⟩ := word_facts _ (hL (ix1 i))
  refine congrArg _ (funext fun a => Fin.ext ?_)
  match a with
  | ⟨0, _⟩ => rfl
  | ⟨1, _⟩ =>
    show min (val_main_call1_v5 (F := Ideal) L (ix3 i (0 : Fin 1) (0 : Fin 1))).toInt.toNat 79 = (L (ix1 i)).toNat
    rw [v5_read L hL]
    show min (L (ix1 i)).toInt.toNat 79 = (L (ix1 i)).toNat
    have := hL (ix1 i)
    rw [h4]; omega

/-! ## The indices the layout operations read at, by coordinates -/

private theorem idx_c0_v4 (i : Fin 1000000) (c : Fin 80) : idx_main_call0_v4 (ix2 i c) = ix2 i (0 : Fin 1) :=
  funext fun a => Fin.ext (by match a with | ⟨0, _⟩ => rfl | ⟨1, _⟩ => rfl)
private theorem idx_c0_v3 (i : Fin 1000000) : idx_main_call0_v3 (ix2 i (0 : Fin 1)) = ix1 i :=
  funext fun a => Fin.ext (by match a with | ⟨0, _⟩ => rfl)
private theorem idx_c0_v10 (i : Fin 1000000) (c : Fin 80) : idx_main_call0_v10 (ix2 i c) = ix2 i (0 : Fin 1) :=
  funext fun a => Fin.ext (by match a with | ⟨0, _⟩ => rfl | ⟨1, _⟩ => rfl)
private theorem idx_c0_v8 (i : Fin 1000000) : idx_main_call0_v8 (ix2 i (0 : Fin 1)) = ix1 i :=
  funext fun a => Fin.ext (by match a with | ⟨0, _⟩ => rfl)
private theorem idx_c0_v7 (i : Fin 1000000) (k : Fin 80) : idx_main_call0_v7 (ix1 i) k = ix2 i k :=
  funext fun a => Fin.ext (by match a with | ⟨0, _⟩ => rfl | ⟨1, _⟩ => rfl)
private theorem idx_v3 (i : Fin 1000000) : idx_main_v3 (ix1 i) = ix2 i (0 : Fin 1) :=
  funext fun a => Fin.ext (by
    match a with
    | ⟨0, _⟩ => show i.val / 1 = i.val; omega
    | ⟨1, _⟩ => rfl)

/-! ## One row of the reference -/

section Row
variable (X : (⟨S1000000x80, .f32⟩ : BufTy).Contents (Elt Ideal)) (L : (⟨S1000000, .i32⟩ : BufTy).Contents (Elt Ideal))
  (hL : ∀ i, (L i).toNat < 80) (i : Fin 1000000)

/-- The row's maximum, taken once more against minus infinity. -/
private theorem c0v2_read : val_main_call0_v2 (F := Ideal) X (ix1 i)
    = max Cert.Spec.negInf (Cert.Spec.rowMax (fun c => X (ix2 i c))) := by
  rw [val_main_call0_v2_apply, val_main_call0_v1_apply, val_main_call0_cst_0_apply, rowMax_read]
  rfl

/-- The shifted logits. -/
private theorem c0v5_read (c : Fin 80) : val_main_call0_v5 (F := Ideal) X (ix2 i c)
    = X (ix2 i c) - max Cert.Spec.negInf (Cert.Spec.rowMax (fun c => X (ix2 i c))) := by
  rw [val_main_call0_v5_apply, val_main_call0_v4_apply, idx_c0_v4, val_main_call0_v3_apply, idx_c0_v3, c0v2_read]
  rfl

/-- The logarithm of the sum of the exponentials of the shifted logits, from a zero initial value. -/
private theorem c0v9_read : val_main_call0_v9 (F := Ideal) X (ix2 i (0 : Fin 1))
    = Ideal.log (0 + ∑ c : Fin 80, Ideal.exp (X (ix2 i c) - max Cert.Spec.negInf (Cert.Spec.rowMax (fun c => X (ix2 i c))))) := by
  rw [val_main_call0_v9_apply, val_main_call0_v8_apply, idx_c0_v8, val_main_call0_v7_apply, val_main_call0_cst_1_apply]
  simp only [idx_c0_v7, val_main_call0_v6_apply, c0v5_read, Ideal.ofBits_def, Ideal.ofBits_zero_f32,
    Ideal.hostUnary_exp_def, Ideal.hostUnary_log_def]

/-- The log-softmax at a class. -/
private theorem v0_read (c : Fin 80) : val_main_v0 (F := Ideal) X (ix2 i c)
    = (X (ix2 i c) - max Cert.Spec.negInf (Cert.Spec.rowMax (fun c => X (ix2 i c))))
      - Ideal.log (0 + ∑ c : Fin 80, Ideal.exp (X (ix2 i c) - max Cert.Spec.negInf (Cert.Spec.rowMax (fun c => X (ix2 i c))))) := by
  rw [val_main_v0_apply, c0v5_read, val_main_call0_v10_apply, idx_c0_v10, c0v9_read]
  rfl

/-- The cross entropy of row i. -/
private theorem v4_read : val_main_v4 (F := Ideal) X L (ix1 i)
    = Cert.Spec.ceRowRef (fun c => X (ix2 i c)) (L (ix1 i)) (hL _) := by
  rw [val_main_v4_apply, val_main_v3_apply, idx_v3, val_main_v2_apply, v12_read L hL, select_one, v13_read X L hL,
    v0_read]
  rfl

/-- The focal loss of row i, in the reference's spelling. -/
private theorem v13row_read : val_main_v13 (F := Ideal) X L (ix1 i)
    = Cert.Spec.focalOfRef (Cert.Spec.ceRowRef (fun c => X (ix2 i c)) (L (ix1 i)) (hL _)) := by
  rw [val_main_v13_apply, val_main_v12_apply, val_main_v11_apply, val_main_cst_1_apply, val_main_v10_apply,
    val_main_v9_apply, val_main_cst_0_apply, val_main_v8_apply, val_main_v7_apply, val_main_cst_apply,
    val_main_v6_apply, val_main_v5_apply, v4_read X L hL i]
  rfl

end Row

/-- The reference's focal mean (its second result) is the specification's. -/
theorem focal_eq (X : (⟨S1000000x80, .f32⟩ : BufTy).Contents (Elt Ideal)) (L : (⟨S1000000, .i32⟩ : BufTy).Contents (Elt Ideal))
    (hX : ∀ i, ∃ r : ℝ, X i = (r : EReal)) (hL : ∀ i, (L i).toNat < 80) :
    val_main_v15 (F := Ideal) X L = fun _ => Cert.Spec.focalLoss X L := by
  have hrow : ∀ i : Fin 1000000, val_main_v13 (F := Ideal) X L (ix1 i)
      = Cert.Spec.focalRow (fun c => X (ix2 i c)) (L (ix1 i)) := fun i => by
    rw [v13row_read X L hL i]
    exact Cert.Spec.focalRowRef_eq _ _ (hL _) (fun c => hX _)
  funext j
  rw [val_main_v15_apply, val_main_v14_apply, Cert.SumLaws.sum_idx_n, Finset.sum_congr rfl (fun i _ => hrow i),
    val_main_cst_2_apply, val_main_cst_3_apply, Ideal.ofBits_def, Ideal.ofBits_zero_f32, zero_add]
  rfl

end Cert.ReferenceIdeal.RefValue

end
-- ==== Proof.RefRest.lean ====
/-
  The reference's GIoU mean and centerness mean are the specification's, on all extended reals:
  row by row the reference applies the very operations the specification's row functions are
  written with (the box coordinates read by unit slices of the box arrays; the clip at zero a
  maximum with a zero first argument; softplus with a true negation where the specification
  writes 0 - c), and each mean is the sum from a zero initial value divided by 1 000 000.
-/
import proofs.«408445_j48344151884162_2_alg».proof.Proof.RefReadP
import proofs.«408445_j48344151884162_2_alg».proof.Proof.Spec
import proofs.«408445_j48344151884162_2_alg».proof.Proof.RowLaws
import proofs.«408445_j48344151884162_2_alg».proof.Proof.SumLaws
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.ReadP

/-! ## The box coordinates

A unit slice of a box array at column k, reshaped to a vector, read at row i is the array at (i, k):
the reshape sends row i to (i / 1, 0) and the slice adds k to the column. -/

private theorem col_v17 (X : (⟨S1000000x4, .f32⟩ : BufTy).Contents (Elt Ideal)) (i : Fin 1000000) :
    val_main_v17 (F := Ideal) X (ix1 i) = X (ix2 i 0) := by
  rw [val_main_v17_apply, val_main_v16_apply]
  exact congrArg X (funext fun a => Fin.ext (by
    match a with
    | ⟨0, _⟩ => exact Nat.div_one _
    | ⟨1, _⟩ => rfl))

private theorem col_v19 (X : (⟨S1000000x4, .f32⟩ : BufTy).Contents (Elt Ideal)) (i : Fin 1000000) :
    val_main_v19 (F := Ideal) X (ix1 i) = X (ix2 i 1) := by
  rw [val_main_v19_apply, val_main_v18_apply]
  exact congrArg X (funext fun a => Fin.ext (by
    match a with
    | ⟨0, _⟩ => exact Nat.div_one _
    | ⟨1, _⟩ => rfl))

private theorem col_v21 (X : (⟨S1000000x4, .f32⟩ : BufTy).Contents (Elt Ideal)) (i : Fin 1000000) :
    val_main_v21 (F := Ideal) X (ix1 i) = X (ix2 i 2) := by
  rw [val_main_v21_apply, val_main_v20_apply]
  exact congrArg X (funext fun a => Fin.ext (by
    match a with
    | ⟨0, _⟩ => exact Nat.div_one _
    | ⟨1, _⟩ => rfl))

private theorem col_v23 (X : (⟨S1000000x4, .f32⟩ : BufTy).Contents (Elt Ideal)) (i : Fin 1000000) :
    val_main_v23 (F := Ideal) X (ix1 i) = X (ix2 i 3) := by
  rw [val_main_v23_apply, val_main_v22_apply]
  exact congrArg X (funext fun a => Fin.ext (by
    match a with
    | ⟨0, _⟩ => exact Nat.div_one _
    | ⟨1, _⟩ => rfl))

private theorem col_v25 (X : (⟨S1000000x4, .f32⟩ : BufTy).Contents (Elt Ideal)) (i : Fin 1000000) :
    val_main_v25 (F := Ideal) X (ix1 i) = X (ix2 i 0) := by
  rw [val_main_v25_apply, val_main_v24_apply]
  exact congrArg X (funext fun a => Fin.ext (by
    match a with
    | ⟨0, _⟩ => exact Nat.div_one _
    | ⟨1, _⟩ => rfl))

private theorem col_v27 (X : (⟨S1000000x4, .f32⟩ : BufTy).Contents (Elt Ideal)) (i : Fin 1000000) :
    val_main_v27 (F := Ideal) X (ix1 i) = X (ix2 i 1) := by
  rw [val_main_v27_apply, val_main_v26_apply]
  exact congrArg X (funext fun a => Fin.ext (by
    match a with
    | ⟨0, _⟩ => exact Nat.div_one _
    | ⟨1, _⟩ => rfl))

private theorem col_v29 (X : (⟨S1000000x4, .f32⟩ : BufTy).Contents (Elt Ideal)) (i : Fin 1000000) :
    val_main_v29 (F := Ideal) X (ix1 i) = X (ix2 i 2) := by
  rw [val_main_v29_apply, val_main_v28_apply]
  exact congrArg X (funext fun a => Fin.ext (by
    match a with
    | ⟨0, _⟩ => exact Nat.div_one _
    | ⟨1, _⟩ => rfl))

private theorem col_v31 (X : (⟨S1000000x4, .f32⟩ : BufTy).Contents (Elt Ideal)) (i : Fin 1000000) :
    val_main_v31 (F := Ideal) X (ix1 i) = X (ix2 i 3) := by
  rw [val_main_v31_apply, val_main_v30_apply]
  exact congrArg X (funext fun a => Fin.ext (by
    match a with
    | ⟨0, _⟩ => exact Nat.div_one _
    | ⟨1, _⟩ => rfl))

/-! ## One row of the GIoU loss -/

/-- Row i of the reference's GIoU loss is the specification's row function of the two boxes of row i:
    the same minima, maxima, differences, products and quotients in the same order, the clip at zero a
    maximum with the zero word first. -/
private theorem giou_row (B G : (⟨S1000000x4, .f32⟩ : BufTy).Contents (Elt Ideal)) (i : Fin 1000000) :
    val_main_v65 (F := Ideal) B G (ix1 i)
      = Cert.Spec.giouRow (fun a => B (ix2 i a)) (fun a => G (ix2 i a)) := by
  simp only [val_main_v65_apply, val_main_v64_apply, val_main_cst_8_apply, val_main_v63_apply,
    val_main_v62_apply, val_main_v61_apply, val_main_v60_apply, val_main_cst_7_apply,
    val_main_v59_apply, val_main_v58_apply, val_main_v57_apply, val_main_v56_apply,
    val_main_v55_apply, val_main_v54_apply, val_main_v53_apply, val_main_v52_apply,
    val_main_v51_apply, val_main_v50_apply, val_main_v49_apply, val_main_cst_6_apply,
    val_main_v48_apply, val_main_v47_apply, val_main_v46_apply, val_main_v45_apply,
    val_main_v44_apply, val_main_v43_apply, val_main_v42_apply, val_main_v41_apply,
    val_main_v40_apply, val_main_v39_apply, val_main_call3_v1_apply, val_main_call3_v0_apply,
    val_main_cst_5_apply, val_main_v38_apply, val_main_v37_apply, val_main_v36_apply,
    val_main_v35_apply, val_main_call2_v1_apply, val_main_call2_v0_apply, val_main_cst_4_apply,
    val_main_v34_apply, val_main_v33_apply, val_main_v32_apply,
    col_v17, col_v19, col_v21, col_v23, col_v25, col_v27, col_v29, col_v31,
    Ideal.ofBits_def, Ideal.addf_def, Ideal.subf_def, Ideal.mulf_def, Ideal.hostDivf_def,
    Ideal.maximumf_def, Ideal.minimumf_def, Ideal.ofBits_zero_f32, Cert.Spec.giouRow]

/-- The reference's GIoU mean (its third result) is the specification's. -/
theorem giou_eq (B G : (⟨S1000000x4, .f32⟩ : BufTy).Contents (Elt Ideal)) :
    val_main_v67 (F := Ideal) B G = fun _ => Cert.Spec.giouLoss B G := by
  funext j
  rw [val_main_v67_apply, val_main_v66_apply, Cert.SumLaws.sum_idx_n]
  simp only [giou_row, val_main_cst_9_apply, val_main_cst_10_apply, Ideal.ofBits_def,
    Ideal.ofBits_zero_f32, zero_add, Ideal.hostDivf_def]
  rfl

/-! ## One row of the centerness loss -/

/-- Row i of the reference's centerness loss is the specification's softplus of minus the logit: the
    comparison of 0 - (-c) with itself for "unordered or different" is false, so the select takes its
    second branch, max 0 (-c) + log1p (exp (-|0 - (-c)|)), the absolute value a maximum with the
    negation. -/
private theorem center_row (C : (⟨S1000000, .f32⟩ : BufTy).Contents (Elt Ideal)) (i : Fin 1000000) :
    val_main_v81 (F := Ideal) C (ix1 i) = Cert.Spec.softplusRow (C (ix1 i)) := by
  rw [← Cert.Spec.softplusRowRef_eq]
  simp only [val_main_v81_apply, val_main_v73_apply, Ideal.cmpf_def, Cert.Spec.cmp_une_self,
    select_zero, val_main_v80_apply, val_main_v79_apply, val_main_v78_apply, val_main_v77_apply,
    val_main_v76_apply, val_main_v72_apply, val_main_v71_apply, val_main_v70_apply,
    val_main_v69_apply, val_main_cst_11_apply, val_main_v68_apply,
    Ideal.ofBits_def, Ideal.ofBits_zero_f32, Ideal.addf_def, Ideal.subf_def, Ideal.maximumf_def,
    Ideal.hostNegf_def, Ideal.negf_def, Ideal.hostAbsf_def, Ideal.absf_def,
    Ideal.hostUnary_exp_def, Ideal.hostUnary_log1p_def, Cert.Spec.softplusRowRef]

/-- The reference's centerness mean (its fourth result) is the specification's. -/
theorem center_eq (C : (⟨S1000000, .f32⟩ : BufTy).Contents (Elt Ideal)) :
    val_main_v83 (F := Ideal) C = fun _ => Cert.Spec.centerLoss C := by
  funext j
  rw [val_main_v83_apply, val_main_v82_apply, Cert.SumLaws.sum_idx_n]
  simp only [center_row, val_main_cst_12_apply, val_main_cst_13_apply, Ideal.ofBits_def,
    Ideal.ofBits_zero_f32, zero_add, Ideal.hostDivf_def]
  rfl

end Cert.ReferenceIdeal.RefValue

end
-- ==== Proof.PreFacts.lean ====
/-
  What the precondition says of the argument arrays: every logit is a real number (its absolute
  value is below plus infinity), and every class word, read as a signed integer, lies in 0..79,
  so that its unsigned value is below 80.
-/
import proofs.«408445_j48344151884162_2_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Cert.Pre_finite_inputs

variable [Cert.Pre_finite_inputs.Facts]

/-- The scalar shape has one index. -/
private instance : Subsingleton S_.Idx := ⟨fun a b => funext fun d => d.elim0⟩

/-- The pattern 0x7F800000 denotes plus infinity. -/
private theorem ofBits_inf : Ideal.ofBits .f32 0x7F800000#32 = (⊤ : EReal) := by
  simp [Ideal.ofBits, Ideal.ieee]

/-- An extended real whose absolute value max x (-x) is below plus infinity is a real number. -/
private theorem real_of_abs_lt_top (x : EReal) (hx : max x (-x) < ⊤) : ∃ r : ℝ, x = (r : EReal) := by
  induction x using EReal.rec with
  | bot => simp at hx
  | top => simp at hx
  | coe r => exact ⟨r, rfl⟩

/-- A word that is at least 0 and below 80 as a signed integer has unsigned value below 80. -/
private theorem toNat_lt_of_signed (w : BitVec 32) (h0 : IntOp.cmpi .sge w 0#32 = 1#1)
    (h1 : IntOp.cmpi .slt w 80#32 = 1#1) : w.toNat < 80 := by
  simp only [IntOp.cmpi, StableHlo.Predicate.ofBool_eq_one_iff, BitVec.sle, BitVec.slt, decide_eq_true_eq] at h0 h1
  have e0 : (0#32 : BitVec 32).toInt = 0 := by decide
  have e80 : (80#32 : BitVec 32).toInt = 80 := by decide
  rw [e0] at h0
  rw [e80] at h1
  rw [BitVec.toInt_eq_toNat_cond] at h0 h1
  split at h0 <;> omega

/-- Five one-bit words whose conjunction is 1: the first and the last are 1. -/
private theorem split5 (a b c d e : BitVec 1)
    (h : IntOp.andi (IntOp.andi (IntOp.andi (IntOp.andi a b) c) d) e = 1#1) : a = 1#1 ∧ e = 1#1 := by
  obtain ⟨h4, he⟩ := IntOp.andi_eq_one.1 h
  obtain ⟨h3, _⟩ := IntOp.andi_eq_one.1 h4
  obtain ⟨h2, _⟩ := IntOp.andi_eq_one.1 h3
  obtain ⟨ha, _⟩ := IntOp.andi_eq_one.1 h2
  exact ⟨ha, he⟩

/-- The precondition, all ones, gives: every logit real, every class word's value below 80. -/
theorem of_pre (X : FVec Ideal S1000000x80 .f32) (B : FVec Ideal S1000000x4 .f32) (C : FVec Ideal S1000000 .f32)
    (G : FVec Ideal S1000000x4 .f32) (L : IVec S1000000 32)
    (h : Cert.Pre_finite_inputs.fn (F := Ideal) X B C G L = fun _ => 1#1) :
    (∀ i, ∃ r : ℝ, X i = (r : EReal)) ∧ (∀ i, (L i).toNat < 80) := by
  -- the function's one scalar result is 1: a conjunction of five reductions by "and"
  have h0 := congrFun h ValueIdx.ix0
  dsimp only [fn, fn_part1] at h0
  obtain ⟨hX, hL⟩ := split5 _ _ _ _ _ h0
  constructor
  · -- every element of the first reduced mask is 1: |X i| < +inf, so X i is a real number
    intro i
    have hi := Host.reduce_andi_all _ _ _ _ _ hX i
    change Ideal.cmp .olt (max (X i) (-(X i))) (Ideal.ofBits .f32 0x7F800000#32) = 1#1 at hi
    rw [ofBits_inf] at hi
    simp only [Ideal.cmp, StableHlo.Predicate.ofBool_eq_one_iff, decide_eq_true_eq] at hi
    exact real_of_abs_lt_top _ hi
  · -- every element of the last reduced mask is 1: 0 ≤ L i and L i < 80 as signed integers
    intro i
    have hi := Host.reduce_andi_all _ _ _ _ _ hL i
    obtain ⟨hge, hlt⟩ := IntOp.andi_eq_one.1 hi
    exact toNat_lt_of_signed (L i) hge hlt

end Cert.PreFacts

end
-- ==== Proof.KBlk.lean ====
/-
  Names, at their literal shapes, for the five input blocks a grid point reads: block t of the
  padded logits (16384 x 80), of the transposed and padded predicted boxes (4 x 16384), of the
  padded centerness row (1 x 16384), of the transposed and padded target boxes (4 x 16384) and
  of the padded class column (16384 x 1).
-/
import proofs.«408445_j48344151884162_2_alg».proof.Proof.Gen.KernelIdeal.Frame

noncomputable section

namespace Cert.KernelIdeal.Hand

open Idealize.ShloMosaic Idealize.SL.Sem Cert.KernelIdeal Cert.KernelIdeal.Gen

variable {F : FTy → Type} [FloatOps F]
variable (m : (ℓ : Loc nD τ sig) → Buf (Elt F) ℓ)

/-- Block t of the padded logits. -/
abbrev blk0 (c : Dev nD) (t : Fin cfg0.N) : Vec F S16384x80 .f32 := iblk m c 0 t
/-- Block t of the predicted boxes, a box a column. -/
abbrev blk1 (c : Dev nD) (t : Fin cfg0.N) : Vec F S4x16384 .f32 := iblk m c 1 t
/-- Block t of the centerness logits, as a row. -/
abbrev blk2 (c : Dev nD) (t : Fin cfg0.N) : Vec F S1x16384 .f32 := iblk m c 2 t
/-- Block t of the target boxes, a box a column. -/
abbrev blk3 (c : Dev nD) (t : Fin cfg0.N) : Vec F S4x16384 .f32 := iblk m c 3 t
/-- Block t of the class words, as a column. -/
abbrev blk4 (c : Dev nD) (t : Fin cfg0.N) : Vec F S16384x1 .i32 := iblk m c 4 t

end Cert.KernelIdeal.Hand

end
-- ==== Proof.KStep.lean ====
/-
  One grid point's update of the carried 1 x 3 accumulator, as one pure function of the point's
  five input blocks and the accumulator's previous contents: the three masked block sums (focal,
  GIoU, centerness), laid side by side, are added to it. The block a grid point (core, tile)
  works on is number 31 * core + tile.
-/
import proofs.«408445_j48344151884162_2_alg».proof.Proof.Gen.KernelIdeal.Skeleton

noncomputable section

namespace Cert.KernelIdeal.Hand

open Idealize.ShloMosaic Cert.KernelIdeal Cert.KernelIdeal.Gen

variable {F : FTy → Type} [FloatOps F]

/-- The number of the block of 16 384 rows a grid point works on. -/
def blockNo (i : grid0.Coords) : ℕ := 31 * (i 0).val + (i 1).val

/-- The accumulator after a grid point: its previous contents plus the point's three block sums. -/
def step (i : grid0.Coords) (x0 : Vec F S16384x80 .f32) (x1 : Vec F S4x16384 .f32) (x2 : Vec F S1x16384 .f32)
    (x3 : Vec F S4x16384 .f32) (x4 : Vec F S16384x1 .i32) (prev : Vec F S1x3 .f32) : Vec F S1x3 .f32 :=
  k0_pay1 (k0_pay24 (k0_pay5 i) (k0_pay8 (k0_pay4 i) (k0_pay6 x0 x4) (k0_pay7 x0 x4))
    (k0_pay20 x1 x3) (k0_pay21 x1 x3) (k0_pay22 x1 x3) (k0_pay23 x1 x3) x2 prev)

/-- The accumulator a run of 31 points starts from: zeros. -/
def zeros : Vec F S1x3 .f32 := k0_pay3

/-- The output block written at a run's last point: the accumulator as a 1 x 1 x 3 array. -/
def outOf (acc : Vec F S1x3 .f32) : Vec F S1x1x3 .f32 := k0_pay2 acc

end Cert.KernelIdeal.Hand

end
-- ==== Proof.KPieces.lean ====
/-
  What the carried accumulator and the output block hold after each grid point, in terms of the
  one-point update: at the first point of a run of 31 (point number divisible by 31) the
  accumulator is the update of zeros; at every other point it is the update of what the point
  before left; at a run's last point (number 30 mod 31) the output block is the accumulator just
  computed, reshaped.
-/
import proofs.«408445_j48344151884162_2_alg».proof.Proof.KBlk
import proofs.«408445_j48344151884162_2_alg».proof.Proof.KStep
import Idealize.ShloMosaic.Lib.Pipeline.Value

noncomputable section

namespace Cert.KernelIdeal.Hand

open Idealize.ShloMosaic Idealize.SL.Sem Cert.KernelIdeal Cert.KernelIdeal.Gen

variable {F : FTy → Type} [FloatOps F]
variable (m : (ℓ : Loc nD τ sig) → Buf (Elt F) ℓ)

/-- Zero offsets of a rank-2 block, however spelt. -/
private theorem hz2 : (![0, 0] : Fin 2 → Nat) = fun _ => 0 := funext fun a => by fin_cases a <;> rfl

/-- Zero offsets of a rank-3 block, however spelt. -/
private theorem hz3 : (![0, 0, 0] : Fin 3 → Nat) = fun _ => 0 := funext fun a => by fin_cases a <;> rfl

/-- A run's first point stores zeros, reads them back, and leaves the update of zeros: of the two
    stores the later covers the accumulator, and its payload's read of the accumulator sees the
    zeros the earlier left. -/
private theorem acc_A (c : Dev nD) (i : grid0.Coords) (arg2 : Memref sig .tc .vmem S16384x80 .f32) (harg2 : arg2.IsWhole) (arg3 : Memref sig .tc .vmem S4x16384 .f32) (harg3 : arg3.IsWhole) (arg4 : Memref sig .tc .vmem S1x16384 .f32) (harg4 : arg4.IsWhole) (arg5 : Memref sig .tc .vmem S4x16384 .f32) (harg5 : arg5.IsWhole) (arg6 : Memref sig .tc .vmem S16384x1 .i32) (harg6 : arg6.IsWhole) (arg7 : Memref sig .tc .vmem S1x1x3 .f32) (harg7 : arg7.IsWhole) (arg8 : Memref sig .tc .vmem S1x3 .f32) (harg8 : arg8.IsWhole) (hc0 : cond0_0 i) (hc1 : ¬cond0_1 i)
    (x0 : Vec F S16384x80 .f32) (x1 : Vec F S4x16384 .f32) (x2 : Vec F S1x16384 .f32) (x3 : Vec F S4x16384 .f32) (x4 : Vec F S16384x1 .i32) :
    sout0_A_0 c i arg2 harg2 arg3 harg3 arg4 harg4 arg5 harg5 arg6 harg6 arg7 harg7 arg8 harg8 hc0 hc1 x0 x1 x2 x3 x4 = step i x0 x1 x2 x3 x4 zeros := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x3) hz2, View.readCov_unit_zero (S := S1x3) _ hz2]
  unfold step zeros
  simp only [View.readAt_eq_ld, harg2.read_unread, harg3.read_unread, harg4.read_unread, harg5.read_unread,
    harg6.read_unread, harg8.read_unread, View.ld_unit_zero (S := S16384x80) hz2, View.ld_unit_zero (S := S4x16384) hz2,
    View.ld_unit_zero (S := S1x16384) hz2, View.ld_unit_zero (S := S16384x1) hz2, View.ld_unit_zero (S := S1x3) hz2]

/-- A middle point leaves the update of what the accumulator held: one covering store, whose
    payload's loads read the whole blocks and the whole accumulator. -/
private theorem acc_B (c : Dev nD) (i : grid0.Coords) (arg2 : Memref sig .tc .vmem S16384x80 .f32) (harg2 : arg2.IsWhole) (arg3 : Memref sig .tc .vmem S4x16384 .f32) (harg3 : arg3.IsWhole) (arg4 : Memref sig .tc .vmem S1x16384 .f32) (harg4 : arg4.IsWhole) (arg5 : Memref sig .tc .vmem S4x16384 .f32) (harg5 : arg5.IsWhole) (arg6 : Memref sig .tc .vmem S16384x1 .i32) (harg6 : arg6.IsWhole) (arg7 : Memref sig .tc .vmem S1x1x3 .f32) (harg7 : arg7.IsWhole) (arg8 : Memref sig .tc .vmem S1x3 .f32) (harg8 : arg8.IsWhole) (hc0 : ¬cond0_0 i) (hc1 : ¬cond0_1 i)
    (x0 : Vec F S16384x80 .f32) (x1 : Vec F S4x16384 .f32) (x2 : Vec F S1x16384 .f32) (x3 : Vec F S4x16384 .f32) (x4 : Vec F S16384x1 .i32) (xs0 : Vec F S1x3 .f32) :
    sout0_B_0 c i arg2 harg2 arg3 harg3 arg4 harg4 arg5 harg5 arg6 harg6 arg7 harg7 arg8 harg8 hc0 hc1 x0 x1 x2 x3 x4 xs0 = step i x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S1x3) hz2]
  unfold step
  simp only [View.readAt_eq_ld, harg2.read_unread, harg3.read_unread, harg4.read_unread, harg5.read_unread,
    harg6.read_unread, harg8.read_unread, View.ld_unit_zero (S := S16384x80) hz2, View.ld_unit_zero (S := S4x16384) hz2,
    View.ld_unit_zero (S := S1x16384) hz2, View.ld_unit_zero (S := S16384x1) hz2, View.ld_unit_zero (S := S1x3) hz2]

/-- A run's last point leaves the same update in the accumulator. -/
private theorem acc_C (c : Dev nD) (i : grid0.Coords) (arg2 : Memref sig .tc .vmem S16384x80 .f32) (harg2 : arg2.IsWhole) (arg3 : Memref sig .tc .vmem S4x16384 .f32) (harg3 : arg3.IsWhole) (arg4 : Memref sig .tc .vmem S1x16384 .f32) (harg4 : arg4.IsWhole) (arg5 : Memref sig .tc .vmem S4x16384 .f32) (harg5 : arg5.IsWhole) (arg6 : Memref sig .tc .vmem S16384x1 .i32) (harg6 : arg6.IsWhole) (arg7 : Memref sig .tc .vmem S1x1x3 .f32) (harg7 : arg7.IsWhole) (arg8 : Memref sig .tc .vmem S1x3 .f32) (harg8 : arg8.IsWhole) (hc0 : ¬cond0_0 i) (hc1 : cond0_1 i)
    (x0 : Vec F S16384x80 .f32) (x1 : Vec F S4x16384 .f32) (x2 : Vec F S1x16384 .f32) (x3 : Vec F S4x16384 .f32) (x4 : Vec F S16384x1 .i32) (xs0 : Vec F S1x3 .f32) :
    sout0_C_0 c i arg2 harg2 arg3 harg3 arg4 harg4 arg5 harg5 arg6 harg6 arg7 harg7 arg8 harg8 hc0 hc1 x0 x1 x2 x3 x4 xs0 = step i x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1x3) hz2]
  unfold step
  simp only [View.readAt_eq_ld, harg2.read_unread, harg3.read_unread, harg4.read_unread, harg5.read_unread,
    harg6.read_unread, harg8.read_unread, View.ld_unit_zero (S := S16384x80) hz2, View.ld_unit_zero (S := S4x16384) hz2,
    View.ld_unit_zero (S := S1x16384) hz2, View.ld_unit_zero (S := S16384x1) hz2, View.ld_unit_zero (S := S1x3) hz2]

/-- and stores into the output block the accumulator it has just written, read back whole and
    reshaped. -/
private theorem out_C (c : Dev nD) (i : grid0.Coords) (arg2 : Memref sig .tc .vmem S16384x80 .f32) (harg2 : arg2.IsWhole) (arg3 : Memref sig .tc .vmem S4x16384 .f32) (harg3 : arg3.IsWhole) (arg4 : Memref sig .tc .vmem S1x16384 .f32) (harg4 : arg4.IsWhole) (arg5 : Memref sig .tc .vmem S4x16384 .f32) (harg5 : arg5.IsWhole) (arg6 : Memref sig .tc .vmem S16384x1 .i32) (harg6 : arg6.IsWhole) (arg7 : Memref sig .tc .vmem S1x1x3 .f32) (harg7 : arg7.IsWhole) (arg8 : Memref sig .tc .vmem S1x3 .f32) (harg8 : arg8.IsWhole) (hc0 : ¬cond0_0 i) (hc1 : cond0_1 i)
    (x0 : Vec F S16384x80 .f32) (x1 : Vec F S4x16384 .f32) (x2 : Vec F S1x16384 .f32) (x3 : Vec F S4x16384 .f32) (x4 : Vec F S16384x1 .i32) (xs0 : Vec F S1x3 .f32) :
    out0_C_5 c i arg2 harg2 arg3 harg3 arg4 harg4 arg5 harg5 arg6 harg6 arg7 harg7 arg8 harg8 hc0 hc1 x0 x1 x2 x3 x4 xs0 = outOf (step i x0 x1 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1x1x3) hz3, View.readCov_unit_zero (S := S1x3) _ hz2]
  unfold outOf step
  simp only [View.readAt_eq_ld, harg2.read_unread, harg3.read_unread, harg4.read_unread, harg5.read_unread,
    harg6.read_unread, harg8.read_unread, View.ld_unit_zero (S := S16384x80) hz2, View.ld_unit_zero (S := S4x16384) hz2,
    View.ld_unit_zero (S := S1x16384) hz2, View.ld_unit_zero (S := S16384x1) hz2, View.ld_unit_zero (S := S1x3) hz2]

/-- At a run's first point the accumulator is the update of zeros by the point's blocks. -/
theorem acc_first (c : Dev nD) (t : Fin cfg0.N) (h0 : t.val % 31 = 0) :
    (outsAt0 m c t.val t.isLt).2
      = step (grid0.coords t) (blk0 m c t) (blk1 m c t) (blk2 m c t) (blk3 m c t) (blk4 m c t) zeros := by
  have h1 : ¬t.val % 31 = 30 := by omega
  rw [outsAt0_A m c t h0 h1]
  dsimp only
  exact acc_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
          ((hcond0_0 t).mpr h0) (fun h => h1 ((hcond0_1 t).mp h))
          (blk0 m c t) (blk1 m c t) (blk2 m c t) (blk3 m c t) (blk4 m c t)

/-- At any other point it is the update of what the point before left. -/
theorem acc_next (c : Dev nD) (t : Fin cfg0.N) (h0 : ¬t.val % 31 = 0) :
    (outsAt0 m c t.val t.isLt).2
      = step (grid0.coords t) (blk0 m c t) (blk1 m c t) (blk2 m c t) (blk3 m c t) (blk4 m c t)
          (outsAt0 m c (t.val - 1) (Nat.lt_of_le_of_lt (Nat.sub_le _ _) t.isLt)).2 := by
  by_cases h1 : t.val % 31 = 30
  · rw [outsAt0_C m c t h0 h1]
    dsimp only
    exact acc_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
          (fun h => h0 ((hcond0_0 t).mp h)) ((hcond0_1 t).mpr h1)
          (blk0 m c t) (blk1 m c t) (blk2 m c t) (blk3 m c t) (blk4 m c t)
          (outsAt0 m c (t.val - 1) (Nat.lt_of_le_of_lt (Nat.sub_le _ _) t.isLt)).2
  · rw [outsAt0_B m c t h0 h1]
    dsimp only
    exact acc_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
          (fun h => h0 ((hcond0_0 t).mp h)) (fun h => h1 ((hcond0_1 t).mp h))
          (blk0 m c t) (blk1 m c t) (blk2 m c t) (blk3 m c t) (blk4 m c t)
          (outsAt0 m c (t.val - 1) (Nat.lt_of_le_of_lt (Nat.sub_le _ _) t.isLt)).2

/-- At a run's last point the output block is the accumulator just computed. -/
theorem out_last (c : Dev nD) (t : Fin cfg0.N) (h1 : t.val % 31 = 30) :
    (outsAt0 m c t.val t.isLt).1 = outOf (outsAt0 m c t.val t.isLt).2 := by
  have h0 : ¬t.val % 31 = 0 := by omega
  rw [outsAt0_C m c t h0 h1]
  dsimp only
  exact (out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
          (fun h => h0 ((hcond0_0 t).mp h)) ((hcond0_1 t).mpr h1)
          (blk0 m c t) (blk1 m c t) (blk2 m c t) (blk3 m c t) (blk4 m c t)
          (outsAt0 m c (t.val - 1) (Nat.lt_of_le_of_lt (Nat.sub_le _ _) t.isLt)).2).trans
      (congrArg outOf (acc_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
          (fun h => h0 ((hcond0_0 t).mp h)) ((hcond0_1 t).mpr h1)
          (blk0 m c t) (blk1 m c t) (blk2 m c t) (blk3 m c t) (blk4 m c t)
          (outsAt0 m c (t.val - 1) (Nat.lt_of_le_of_lt (Nat.sub_le _ _) t.isLt)).2).symm)

end Cert.KernelIdeal.Hand

end
-- ==== Proof.KPayload.lean ====
/-
  The accumulator's update read at the extended reals, entry by entry: entry 0 gains the block's
  focal scalar, entry 1 its masked GIoU sum, entry 2 its masked centerness sum (the three laid
  side by side and added to the previous contents). A column of the block counts when its global
  row number 16384 * block + r is below 1 000 000: the body tests this with a signed 32-bit
  compare of (block * 16384 + r), which never overflows for the 62 blocks.
-/
import proofs.«408445_j48344151884162_2_alg».proof.Proof.KStep
import proofs.«408445_j48344151884162_2_alg».proof.Proof.Spec
import proofs.«408445_j48344151884162_2_alg».proof.Proof.SumLaws
import proofs.«408445_j48344151884162_2_alg».proof.Proof.RowLaws
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen

/-! ## The three scalars laid side by side -/

private theorem concat3_0 (a b c : Ideal .f32) :
    concatenate S1x3 1 [⟨S1x1, (broadcast S1x1 a : FVec Ideal S1x1 .f32)⟩, ⟨S1x1, (broadcast S1x1 b : FVec Ideal S1x1 .f32)⟩, ⟨S1x1, (broadcast S1x1 c : FVec Ideal S1x1 .f32)⟩]
      concatenates_S1x1_S1x1_S1x1_S1x3_d1 (ix2 (0 : Fin 1) (0 : Fin 3)) = a := by
  refine (concatenate_apply_piece (t := S1x3) (1 : Fin 2)
    [⟨S1x1, (broadcast S1x1 a : FVec Ideal S1x1 .f32)⟩, ⟨S1x1, (broadcast S1x1 b : FVec Ideal S1x1 .f32)⟩, ⟨S1x1, (broadcast S1x1 c : FVec Ideal S1x1 .f32)⟩]
    concatenates_S1x1_S1x1_S1x1_S1x3_d1 (ix2 (0 : Fin 1) (0 : Fin 3)) 0 (by simp) S1x1 (broadcast S1x1 a) rfl rfl 0 rfl
    (ix2 (0 : Fin 1) (0 : Fin 1)) ?_ ?_).trans rfl
  · intro b hb
    match b with
    | ⟨0, _⟩ => rfl
    | ⟨1, _⟩ => exact absurd rfl hb
  · rfl

private theorem concat3_1 (a b c : Ideal .f32) :
    concatenate S1x3 1 [⟨S1x1, (broadcast S1x1 a : FVec Ideal S1x1 .f32)⟩, ⟨S1x1, (broadcast S1x1 b : FVec Ideal S1x1 .f32)⟩, ⟨S1x1, (broadcast S1x1 c : FVec Ideal S1x1 .f32)⟩]
      concatenates_S1x1_S1x1_S1x1_S1x3_d1 (ix2 (0 : Fin 1) (1 : Fin 3)) = b := by
  refine (concatenate_apply_piece (t := S1x3) (1 : Fin 2)
    [⟨S1x1, (broadcast S1x1 a : FVec Ideal S1x1 .f32)⟩, ⟨S1x1, (broadcast S1x1 b : FVec Ideal S1x1 .f32)⟩, ⟨S1x1, (broadcast S1x1 c : FVec Ideal S1x1 .f32)⟩]
    concatenates_S1x1_S1x1_S1x1_S1x3_d1 (ix2 (0 : Fin 1) (1 : Fin 3)) 1 (by simp) S1x1 (broadcast S1x1 b) rfl rfl 1 rfl
    (ix2 (0 : Fin 1) (0 : Fin 1)) ?_ ?_).trans rfl
  · intro b hb
    match b with
    | ⟨0, _⟩ => rfl
    | ⟨1, _⟩ => exact absurd rfl hb
  · rfl

private theorem concat3_2 (a b c : Ideal .f32) :
    concatenate S1x3 1 [⟨S1x1, (broadcast S1x1 a : FVec Ideal S1x1 .f32)⟩, ⟨S1x1, (broadcast S1x1 b : FVec Ideal S1x1 .f32)⟩, ⟨S1x1, (broadcast S1x1 c : FVec Ideal S1x1 .f32)⟩]
      concatenates_S1x1_S1x1_S1x1_S1x3_d1 (ix2 (0 : Fin 1) (2 : Fin 3)) = c := by
  refine (concatenate_apply_piece (t := S1x3) (1 : Fin 2)
    [⟨S1x1, (broadcast S1x1 a : FVec Ideal S1x1 .f32)⟩, ⟨S1x1, (broadcast S1x1 b : FVec Ideal S1x1 .f32)⟩, ⟨S1x1, (broadcast S1x1 c : FVec Ideal S1x1 .f32)⟩]
    concatenates_S1x1_S1x1_S1x1_S1x3_d1 (ix2 (0 : Fin 1) (2 : Fin 3)) 2 (by simp) S1x1 (broadcast S1x1 c) rfl rfl 2 rfl
    (ix2 (0 : Fin 1) (0 : Fin 1)) ?_ ?_).trans rfl
  · intro b hb
    match b with
    | ⟨0, _⟩ => rfl
    | ⟨1, _⟩ => exact absurd rfl hb
  · rfl

/-! ## The rows of a 4 x 16384 block, and the box arithmetic of a column -/

private theorem pay11_apply (x : Vec Ideal S4x16384 .f32) (r : Fin 16384) :
    k0_pay11 (F := Ideal) x (ix2 (0 : Fin 1) r) = x (ix2 (0 : Fin 4) r) := by
  unfold k0_pay11 k0_pay9
  rw [shapeCast_self]
  refine extractStridedSlice_apply _ x _ _ (ix2 (0 : Fin 4) r) ?_
  intro a
  match a with
  | ⟨0, _⟩ => rfl
  | ⟨1, _⟩ => exact (Nat.zero_add _).symm

private theorem pay12_apply (x : Vec Ideal S4x16384 .f32) (r : Fin 16384) :
    k0_pay12 (F := Ideal) x (ix2 (0 : Fin 1) r) = x (ix2 (1 : Fin 4) r) := by
  unfold k0_pay12 k0_pay9
  rw [shapeCast_self]
  refine extractStridedSlice_apply _ x _ _ (ix2 (1 : Fin 4) r) ?_
  intro a
  match a with
  | ⟨0, _⟩ => rfl
  | ⟨1, _⟩ => exact (Nat.zero_add _).symm

private theorem pay13_apply (x : Vec Ideal S4x16384 .f32) (r : Fin 16384) :
    k0_pay13 (F := Ideal) x (ix2 (0 : Fin 1) r) = x (ix2 (2 : Fin 4) r) := by
  unfold k0_pay13 k0_pay9
  rw [shapeCast_self]
  refine extractStridedSlice_apply _ x _ _ (ix2 (2 : Fin 4) r) ?_
  intro a
  match a with
  | ⟨0, _⟩ => rfl
  | ⟨1, _⟩ => exact (Nat.zero_add _).symm

private theorem pay14_apply (x : Vec Ideal S4x16384 .f32) (r : Fin 16384) :
    k0_pay14 (F := Ideal) x (ix2 (0 : Fin 1) r) = x (ix2 (3 : Fin 4) r) := by
  unfold k0_pay14 k0_pay9
  rw [shapeCast_self]
  refine extractStridedSlice_apply _ x _ _ (ix2 (3 : Fin 4) r) ?_
  intro a
  match a with
  | ⟨0, _⟩ => rfl
  | ⟨1, _⟩ => exact (Nat.zero_add _).symm

private theorem pay15_apply (x : Vec Ideal S4x16384 .f32) (r : Fin 16384) :
    k0_pay15 (F := Ideal) x (ix2 (0 : Fin 1) r) = x (ix2 (0 : Fin 4) r) := by
  unfold k0_pay15 k0_pay10
  rw [shapeCast_self]
  refine extractStridedSlice_apply _ x _ _ (ix2 (0 : Fin 4) r) ?_
  intro a
  match a with
  | ⟨0, _⟩ => rfl
  | ⟨1, _⟩ => exact (Nat.zero_add _).symm

private theorem pay16_apply (x : Vec Ideal S4x16384 .f32) (r : Fin 16384) :
    k0_pay16 (F := Ideal) x (ix2 (0 : Fin 1) r) = x (ix2 (1 : Fin 4) r) := by
  unfold k0_pay16 k0_pay10
  rw [shapeCast_self]
  refine extractStridedSlice_apply _ x _ _ (ix2 (1 : Fin 4) r) ?_
  intro a
  match a with
  | ⟨0, _⟩ => rfl
  | ⟨1, _⟩ => exact (Nat.zero_add _).symm

private theorem pay17_apply (x : Vec Ideal S4x16384 .f32) (r : Fin 16384) :
    k0_pay17 (F := Ideal) x (ix2 (0 : Fin 1) r) = x (ix2 (2 : Fin 4) r) := by
  unfold k0_pay17 k0_pay10
  rw [shapeCast_self]
  refine extractStridedSlice_apply _ x _ _ (ix2 (2 : Fin 4) r) ?_
  intro a
  match a with
  | ⟨0, _⟩ => rfl
  | ⟨1, _⟩ => exact (Nat.zero_add _).symm

private theorem pay18_apply (x : Vec Ideal S4x16384 .f32) (r : Fin 16384) :
    k0_pay18 (F := Ideal) x (ix2 (0 : Fin 1) r) = x (ix2 (3 : Fin 4) r) := by
  unfold k0_pay18 k0_pay10
  rw [shapeCast_self]
  refine extractStridedSlice_apply _ x _ _ (ix2 (3 : Fin 4) r) ?_
  intro a
  match a with
  | ⟨0, _⟩ => rfl
  | ⟨1, _⟩ => exact (Nat.zero_add _).symm

/-- The intersection area of column r's two boxes. -/
private theorem pay19_apply (x1 x3 : Vec Ideal S4x16384 .f32) (r : Fin 16384) :
    k0_pay19 (F := Ideal) x1 x3 (ix2 (0 : Fin 1) r)
      = max 0 (min (x1 (ix2 (2 : Fin 4) r)) (x3 (ix2 (2 : Fin 4) r)) - max (x1 (ix2 (0 : Fin 4) r)) (x3 (ix2 (0 : Fin 4) r)))
        * max 0 (min (x1 (ix2 (3 : Fin 4) r)) (x3 (ix2 (3 : Fin 4) r)) - max (x1 (ix2 (1 : Fin 4) r)) (x3 (ix2 (1 : Fin 4) r))) := by
  unfold k0_pay19
  simp only [mulf_apply, maximumf_apply, minimumf_apply, subf_apply, broadcast_apply,
    pay11_apply, pay12_apply, pay13_apply, pay14_apply, pay15_apply, pay16_apply, pay17_apply, pay18_apply]
  exact congrArg₂ (fun a b => max a _ * max b _) Ideal.ofBits_zero_f32 Ideal.ofBits_zero_f32

/-- The union area of column r's two boxes. -/
private theorem pay20_apply (x1 x3 : Vec Ideal S4x16384 .f32) (r : Fin 16384) :
    k0_pay20 (F := Ideal) x1 x3 (ix2 (0 : Fin 1) r)
      = ((x1 (ix2 (2 : Fin 4) r) - x1 (ix2 (0 : Fin 4) r)) * (x1 (ix2 (3 : Fin 4) r) - x1 (ix2 (1 : Fin 4) r))
          + (x3 (ix2 (2 : Fin 4) r) - x3 (ix2 (0 : Fin 4) r)) * (x3 (ix2 (3 : Fin 4) r) - x3 (ix2 (1 : Fin 4) r)))
        - k0_pay19 (F := Ideal) x1 x3 (ix2 (0 : Fin 1) r) := by
  unfold k0_pay20
  simp only [mulf_apply, addf_apply, subf_apply,
    pay11_apply, pay12_apply, pay13_apply, pay14_apply, pay15_apply, pay16_apply, pay17_apply, pay18_apply]

/-- Intersection over (union + eps). -/
private theorem pay21_apply (x1 x3 : Vec Ideal S4x16384 .f32) (r : Fin 16384) :
    k0_pay21 (F := Ideal) x1 x3 (ix2 (0 : Fin 1) r)
      = Ideal.div (k0_pay19 (F := Ideal) x1 x3 (ix2 (0 : Fin 1) r)) (k0_pay20 (F := Ideal) x1 x3 (ix2 (0 : Fin 1) r) + Cert.Spec.eps) := by
  unfold k0_pay21
  simp only [divf_apply, addf_apply, broadcast_apply]
  rfl

/-- The hull's width. -/
private theorem pay22_apply (x1 x3 : Vec Ideal S4x16384 .f32) (r : Fin 16384) :
    k0_pay22 (F := Ideal) x1 x3 (ix2 (0 : Fin 1) r)
      = max (x1 (ix2 (2 : Fin 4) r)) (x3 (ix2 (2 : Fin 4) r)) - min (x1 (ix2 (0 : Fin 4) r)) (x3 (ix2 (0 : Fin 4) r)) := by
  unfold k0_pay22
  simp only [maximumf_apply, minimumf_apply, subf_apply, pay11_apply, pay13_apply, pay15_apply, pay17_apply]

/-- The hull's height. -/
private theorem pay23_apply (x1 x3 : Vec Ideal S4x16384 .f32) (r : Fin 16384) :
    k0_pay23 (F := Ideal) x1 x3 (ix2 (0 : Fin 1) r)
      = max (x1 (ix2 (3 : Fin 4) r)) (x3 (ix2 (3 : Fin 4) r)) - min (x1 (ix2 (1 : Fin 4) r)) (x3 (ix2 (1 : Fin 4) r)) := by
  unfold k0_pay23
  simp only [maximumf_apply, minimumf_apply, subf_apply, pay12_apply, pay14_apply, pay16_apply, pay18_apply]

/-! ## A row's total, and the column mask -/

/-- The total of a 1 x 16384 row, taken as the kernel takes it (viewed 1 x 1 x 16384, summed over its last
    two axes into one entry, and that entry read out), is the sum over its columns. -/
private theorem total_row (v : FVec Ideal S1x16384 .f32) :
    extractAt ![0, 0, 0]
      (shapeCast S1x1x1
        (multiReduction .add [1, 2] S1 (shapeCast S1x1x16384 v shapeCasts_S1x16384_S1x1x16384) 0x00000000#32
          reduces_S1x1x16384_S1 (.inl rfl) rfl)
        shapeCasts_S1_S1x1x1) inpos_S1x1x1_p0_0_0
      = ∑ r : Fin 16384, v (ix2 (0 : Fin 1) r) := by
  unfold extractAt
  refine (shapeCast_apply _ shapeCasts_S1_S1x1x1 _ (ix1 (0 : Fin 1)) ?_).trans ?_
  · rw [Shape.rowMajor_val_one, Shape.rowMajor_val_three]; rfl
  refine (Ideal.multiReduction_add_total _ _ reduces_S1x1x16384_S1 (fun b => ?_) _ _ _).trans ?_
  · match b with
    | ⟨0, _⟩ => rfl
  refine (Cert.SumLaws.sum_idx_1_1_n _).trans ?_
  refine Finset.sum_congr rfl fun r _ => ?_
  refine shapeCast_apply v shapeCasts_S1x16384_S1x1x16384 _ (ix2 (0 : Fin 1) r) ?_
  rw [Shape.rowMajor_val_two, Shape.rowMajor_val_three]; rfl

/-- A signed 32-bit compare of a number below 2^31 against 1 000 000 is the compare of the numbers. -/
private theorem slt_word (n : ℕ) (hn : n < 2147483648) :
    IntOp.cmpi .slt (BitVec.ofNat 32 n) 1000000#32 = if n < 1000000 then 1#1 else 0#1 := by
  have hx : (BitVec.ofNat 32 n).toInt = (n : Int) := by
    have h1 : (BitVec.ofNat 32 n).toNat = n := by
      rw [BitVec.toNat_ofNat]; exact Nat.mod_eq_of_lt (by omega)
    rw [BitVec.toInt_eq_toNat_of_lt (by rw [h1]; omega), h1]
  have hy : (1000000#32).toInt = (1000000 : Int) := by decide
  show BitVec.ofBool ((BitVec.ofNat 32 n).slt 1000000#32) = _
  rw [BitVec.slt_eq_decide, hx, hy]
  by_cases h : n < 1000000
  · rw [if_pos h, decide_eq_true (by omega)]; rfl
  · rw [if_neg h, decide_eq_false (by omega)]; rfl

/-- The word (core * 31 + tile) * 16384 + r the body computes is the word of that number. -/
private theorem block_word (a b r : ℕ) :
    IntOp.addi (Scalar.muli (Scalar.addi (Scalar.muli (BitVec.ofNat 32 a) 31#32) (BitVec.ofNat 32 b)) 16384#32)
        (BitVec.ofNat 32 r)
      = BitVec.ofNat 32 ((a * 31 + b) * 16384 + r) := by
  show ((BitVec.ofNat 32 a * BitVec.ofNat 32 31 + BitVec.ofNat 32 b) * BitVec.ofNat 32 16384 + BitVec.ofNat 32 r) = _
  rw [BitVec.ofNat_mul_ofNat, BitVec.ofNat_add_ofNat, BitVec.ofNat_mul_ofNat, BitVec.ofNat_add_ofNat]

/-- Column r of a grid point's block counts exactly when its global row number is below 1 000 000. -/
private theorem mask_apply (i : grid0.Coords) (r : Fin 16384) :
    k0_pay5 i (ix2 (0 : Fin 1) r) = if 16384 * blockNo i + r.val < 1000000 then 1#1 else 0#1 := by
  have h0 : (i 0).val < 2 := (i 0).isLt
  have h1 : (i 1).val < 31 := (i 1).isLt
  have hr : r.val < 16384 := r.isLt
  unfold k0_pay5 blockNo
  show IntOp.cmpi .slt (IntOp.addi (Scalar.muli (Scalar.addi (Scalar.muli (BitVec.ofNat 32 (i 0).val) 31#32)
      (BitVec.ofNat 32 (i 1).val)) 16384#32) (iota .tc S1x16384 32 [1] iota_S1x16384_d1_w32 (ix2 (0 : Fin 1) r))) 1000000#32 = _
  rw [iota_single_apply]
  show IntOp.cmpi .slt (IntOp.addi (Scalar.muli (Scalar.addi (Scalar.muli (BitVec.ofNat 32 (i 0).val) 31#32)
      (BitVec.ofNat 32 (i 1).val)) 16384#32) (BitVec.ofNat 32 r.val)) 1000000#32 = _
  rw [block_word, slt_word _ (by omega)]
  have e : ((i 0).val * 31 + (i 1).val) * 16384 + r.val = 16384 * (31 * (i 0).val + (i 1).val) + r.val := by omega
  rw [e]

/-! ## The update at each of its three entries -/

/-- The exponential, log1p and absolute value of a vector, read at an index. -/
private theorem exp_at {s : Shape} (a : FVec Ideal s .f32) (i : s.Idx) : exp a i = Ideal.exp (a i) := rfl
private theorem log1p_at {s : Shape} (a : FVec Ideal s .f32) (i : s.Idx) : log1p a i = Ideal.log1p (a i) := rfl
private theorem absf_at {s : Shape} (a : FVec Ideal s .f32) (i : s.Idx) : absf a i = max (a i) (-(a i)) := rfl

/-- Entry 0 of the update: the previous entry plus the first scalar laid side by side. -/
private theorem pay24_0 (v15 : IVec S1x16384 1) (v50 : Ideal .f32) (v81 v84 v87 v90 : FVec Ideal S1x16384 .f32)
    (v105 : Vec Ideal S1x16384 .f32) (v133 : Vec Ideal S1x3 .f32) :
    k0_pay24 (F := Ideal) v15 v50 v81 v84 v87 v90 v105 v133 (ix2 (0 : Fin 1) (0 : Fin 3))
      = v133 (ix2 (0 : Fin 1) (0 : Fin 3)) + v50 := by
  unfold k0_pay24
  simp only [addf_apply]
  rw [concat3_0]

/-- Entry 1 of the update: the previous entry plus the masked sum over the columns of 1 - giou, written
    with the four row vectors the body has at hand (union, intersection over union, hull width, hull height). -/
private theorem pay24_1 (v15 : IVec S1x16384 1) (v50 : Ideal .f32) (v81 v84 v87 v90 : FVec Ideal S1x16384 .f32)
    (v105 : Vec Ideal S1x16384 .f32) (v133 : Vec Ideal S1x3 .f32) :
    k0_pay24 (F := Ideal) v15 v50 v81 v84 v87 v90 v105 v133 (ix2 (0 : Fin 1) (1 : Fin 3))
      = v133 (ix2 (0 : Fin 1) (1 : Fin 3)) + ∑ r : Fin 16384, Scalar.select (v15 (ix2 (0 : Fin 1) r))
          (Cert.Spec.one - (v84 (ix2 (0 : Fin 1) r)
            - Ideal.div (v87 (ix2 (0 : Fin 1) r) * v90 (ix2 (0 : Fin 1) r) - v81 (ix2 (0 : Fin 1) r))
                (v87 (ix2 (0 : Fin 1) r) * v90 (ix2 (0 : Fin 1) r) + Cert.Spec.eps))) 0 := by
  unfold k0_pay24
  simp only [addf_apply]
  rw [concat3_1, total_row]
  refine congrArg (v133 (ix2 (0 : Fin 1) (1 : Fin 3)) + ·) (Finset.sum_congr rfl fun r _ => ?_)
  simp only [select_apply, subf_apply, divf_apply, mulf_apply, addf_apply, broadcast_apply]
  exact congrArg (Scalar.select (v15 (ix2 (0 : Fin 1) r)) _) Ideal.ofBits_zero_f32

/-- Entry 2 of the update: the previous entry plus the masked sum over the columns of softplus (-c). -/
private theorem pay24_2 (v15 : IVec S1x16384 1) (v50 : Ideal .f32) (v81 v84 v87 v90 : FVec Ideal S1x16384 .f32)
    (v105 : Vec Ideal S1x16384 .f32) (v133 : Vec Ideal S1x3 .f32) :
    k0_pay24 (F := Ideal) v15 v50 v81 v84 v87 v90 v105 v133 (ix2 (0 : Fin 1) (2 : Fin 3))
      = v133 (ix2 (0 : Fin 1) (2 : Fin 3)) + ∑ r : Fin 16384, Scalar.select (v15 (ix2 (0 : Fin 1) r))
          (Cert.Spec.softplusRow (v105 (ix2 (0 : Fin 1) r))) 0 := by
  unfold k0_pay24
  simp only [addf_apply]
  rw [concat3_2, total_row]
  refine congrArg (v133 (ix2 (0 : Fin 1) (2 : Fin 3)) + ·) (Finset.sum_congr rfl fun r _ => ?_)
  rw [shapeCast_self]
  simp only [select_apply, subf_apply, addf_apply, maximumf_apply, broadcast_apply, cmpf_apply, exp_at, log1p_at, absf_at,
    Ideal.cmpf_def, Cert.Spec.cmp_one_self, select_zero, Ideal.ofBits_def, Ideal.ofBits_zero_f32]
  rfl

/-! ## The five readings -/

/-- Entry 0 of the updated accumulator: the previous entry plus the block's focal scalar (the
    masked sum of the rows' focal losses, read as a sum in another module). -/
theorem step_apply0_raw (i : grid0.Coords) (x0 : Vec Ideal S16384x80 .f32) (x1 : Vec Ideal S4x16384 .f32) (x2 : Vec Ideal S1x16384 .f32)
    (x3 : Vec Ideal S4x16384 .f32) (x4 : Vec Ideal S16384x1 .i32) (prev : Vec Ideal S1x3 .f32) :
    step (F := Ideal) i x0 x1 x2 x3 x4 prev (ix2 (0 : Fin 1) (0 : Fin 3))
      = prev (ix2 (0 : Fin 1) (0 : Fin 3)) + k0_pay8 (F := Ideal) (k0_pay4 i) (k0_pay6 x0 x4) (k0_pay7 x0 x4) := by
  unfold step k0_pay1
  rw [shapeCast_self, pay24_0]

/-- Entry 1: the previous entry plus the block's GIoU sum. -/
theorem step_apply1 (i : grid0.Coords) (x0 : Vec Ideal S16384x80 .f32) (x1 : Vec Ideal S4x16384 .f32) (x2 : Vec Ideal S1x16384 .f32)
    (x3 : Vec Ideal S4x16384 .f32) (x4 : Vec Ideal S16384x1 .i32) (prev : Vec Ideal S1x3 .f32) :
    step (F := Ideal) i x0 x1 x2 x3 x4 prev (ix2 (0 : Fin 1) (1 : Fin 3))
      = prev (ix2 (0 : Fin 1) (1 : Fin 3)) + Cert.Spec.blockGiou (blockNo i) x1 x3 := by
  unfold step k0_pay1
  rw [shapeCast_self, pay24_1]
  refine congrArg (prev (ix2 (0 : Fin 1) (1 : Fin 3)) + ·) ?_
  unfold Cert.Spec.blockGiou
  refine Finset.sum_congr rfl fun r _ => ?_
  rw [mask_apply]
  by_cases h : 16384 * blockNo i + r.val < 1000000
  · rw [if_pos h, if_pos h, select_one, pay21_apply, pay22_apply, pay23_apply, pay20_apply, pay19_apply]
    rfl
  · rw [if_neg h, if_neg h, select_zero]

/-- Entry 2: the previous entry plus the block's centerness sum. -/
theorem step_apply2 (i : grid0.Coords) (x0 : Vec Ideal S16384x80 .f32) (x1 : Vec Ideal S4x16384 .f32) (x2 : Vec Ideal S1x16384 .f32)
    (x3 : Vec Ideal S4x16384 .f32) (x4 : Vec Ideal S16384x1 .i32) (prev : Vec Ideal S1x3 .f32) :
    step (F := Ideal) i x0 x1 x2 x3 x4 prev (ix2 (0 : Fin 1) (2 : Fin 3))
      = prev (ix2 (0 : Fin 1) (2 : Fin 3)) + Cert.Spec.blockCenter (blockNo i) x2 := by
  unfold step k0_pay1
  rw [shapeCast_self, pay24_2]
  refine congrArg (prev (ix2 (0 : Fin 1) (2 : Fin 3)) + ·) ?_
  unfold Cert.Spec.blockCenter
  refine Finset.sum_congr rfl fun r _ => ?_
  rw [mask_apply]
  by_cases h : 16384 * blockNo i + r.val < 1000000
  · rw [if_pos h, if_pos h, select_one]
  · rw [if_neg h, if_neg h, select_zero]

/-- The starting accumulator is zero at every entry. -/
theorem zeros_apply (j : Fin 3) : zeros (F := Ideal) (ix2 (0 : Fin 1) j) = 0 := by
  unfold zeros k0_pay3
  rw [shapeCast_self]
  exact Ideal.ofBits_zero_f32

/-- The output block holds the accumulator's entries. -/
theorem outOf_apply (acc : Vec Ideal S1x3 .f32) (j : Fin 3) :
    outOf (F := Ideal) acc (ix3 (0 : Fin 1) (0 : Fin 1) j) = acc (ix2 (0 : Fin 1) j) := by
  unfold outOf k0_pay2
  refine shapeCast_apply acc _ _ _ ?_
  rw [Shape.rowMajor_val_two, Shape.rowMajor_val_three]
  rfl

end Cert.KernelIdeal.Hand

end
-- ==== Proof.KFocal.lean ====
/-
  The focal scalar of a block, read at the extended reals: the sum over the block's 16 384 rows,
  a row counted when its global row number 16384 * block + r is below 1 000 000 (a signed 32-bit
  compare of block * 16384 + r against 1 000 000, which never overflows for the 62 blocks), of
  the row's focal loss: the lane maximum, the sum of the shifted exponentials and its logarithm,
  the target's shifted logit by a select against the lane index summed over the lanes, and then
  1/4 (1 - e^(-ce))^2 ce.
-/
import proofs.«408445_j48344151884162_2_alg».proof.Proof.KStep
import proofs.«408445_j48344151884162_2_alg».proof.Proof.Spec
import proofs.«408445_j48344151884162_2_alg».proof.Proof.SumLaws
import proofs.«408445_j48344151884162_2_alg».proof.Proof.RowLaws
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Hand

open Idealize.ShloMosaic Idealize.ShloMosaic.ValueIdx Cert.KernelIdeal Cert.KernelIdeal.Gen

/-! ## Layout operations of a column kept as a trailing unit axis, read at an index -/

section Layout
variable {α : Type}

/-- An `[a]` array cast to `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index of row `r` of a 16384 x 80 array with lane `k` put back is `(r, k)`. -/
private theorem lift_row (h : S16384x80.Reduces [1] S16384) (r : Fin 16384) (k : Fin 80) : h.lift (ix1 r) k = ix2 r k :=
  funext fun c => match c with
    | ⟨0, _⟩ => Fin.ext rfl
    | ⟨1, _⟩ => Fin.ext rfl

/-- A lane maximum at row `r` is the row's maximum. -/
private theorem laneMax_at (src : FVec Ideal S16384x80 .f32) (hφ : FKind.Formats .f32)
    (hacc : (0xFF800000#32 : BitVec 32) = 0xFF800000#32) (r : Fin 16384) :
    multiReduction .maximumf [1] S16384 src 0xFF800000#32 reduces_S16384x80_S16384 hφ hacc (ix1 r)
      = Cert.Spec.rowMax (fun c => src (ix2 r c)) :=
  (Ideal.multiReduction_maximumf_single src 0xFF800000#32 reduces_S16384x80_S16384 hφ hacc (ix1 r)).trans (by
    show (Finset.univ : Finset (Fin 80)).fold max (Ideal.ofBits .f32 0xFF800000#32)
        (fun k => src (reduces_S16384x80_S16384.lift (ix1 r) k)) = _
    unfold Cert.Spec.rowMax
    exact congrArg (fun f => (Finset.univ : Finset (Fin 80)).fold max (Ideal.ofBits .f32 0xFF800000#32) f)
      (funext fun k => congrArg src (lift_row _ r k)))

/-- A lane sum at row `r` is the sum over the row's 80 lanes. -/
private theorem laneSum_at (src : FVec Ideal S16384x80 .f32) (hφ : FKind.Formats .f32)
    (hacc : (0x00000000#32 : BitVec 32) = 0x00000000#32) (r : Fin 16384) :
    multiReduction .add [1] S16384 src 0x00000000#32 reduces_S16384x80_S16384 hφ hacc (ix1 r)
      = ∑ c : Fin 80, src (ix2 r c) :=
  (Ideal.multiReduction_add_single src 0x00000000#32 reduces_S16384x80_S16384 hφ hacc (ix1 r)).trans (by
    show (∑ k : Fin 80, src (reduces_S16384x80_S16384.lift (ix1 r) k)) = _
    exact Finset.sum_congr rfl fun k _ => congrArg src (lift_row _ r k))

/-- A sum over both axes of a 1 x 16384 x 1 array, into a one-element vector, is the sum over the rows. -/
private theorem totalSum_at (src : FVec Ideal S1x16384x1 .f32) (hφ : FKind.Formats .f32)
    (hacc : (0x00000000#32 : BitVec 32) = 0x00000000#32) (j : S1.Idx) :
    multiReduction .add [1, 2] S1 src 0x00000000#32 reduces_S1x16384x1_S1 hφ hacc j
      = ∑ r : Fin 16384, src (ix3 (0 : Fin 1) r (0 : Fin 1)) :=
  (Ideal.multiReduction_add_total src 0x00000000#32 reduces_S1x16384x1_S1
      (fun b => match b with | ⟨0, _⟩ => rfl) hφ hacc j).trans (Cert.SumLaws.sum_idx_1_n_1 src)

/-- The focal scalar as a sum over the block's rows, for any mask column, cross-entropy column and
    weight column: the select of the mask between 1/4 w w ce and zero. -/
private theorem pay8_eq_sum (v10 : IVec S16384x1 1) (v35 v40 : FVec Ideal S16384x1 .f32) :
    k0_pay8 (F := Ideal) v10 v35 v40
      = ∑ r : Fin 16384, Scalar.select (v10 (ix2 r (0 : Fin 1)))
          (((Cert.Spec.quarter * v40 (ix2 r (0 : Fin 1))) * v40 (ix2 r (0 : Fin 1))) * v35 (ix2 r (0 : Fin 1))) 0 := by
  unfold k0_pay8
  refine (shapeCast_apply _ shapeCasts_S1_S1x1x1 _ (ix1 (0 : Fin 1)) ?_).trans ?_
  · rw [Shape.rowMajor_val_three, Shape.rowMajor_val_one]
    rfl
  refine (totalSum_at _ _ _ _).trans ?_
  refine Finset.sum_congr rfl fun r _ => ?_
  refine (shapeCast_ab_1ab_apply _ shapeCasts_S16384x1_S1x16384x1 (0 : Fin 1) r (0 : Fin 1)).trans ?_
  show Scalar.select (v10 (ix2 r (0 : Fin 1)))
      (((Ideal.ofBits .f32 0x3E800000#32 * v40 (ix2 r (0 : Fin 1))) * v40 (ix2 r (0 : Fin 1))) * v35 (ix2 r (0 : Fin 1)))
      (Ideal.ofBits .f32 0x00000000#32) = _
  rw [Ideal.ofBits_zero_f32]

/-- The row mask: the signed compare of block * 16384 + r against 1 000 000 is set exactly when the
    global row number is below 1 000 000 (no word operation wraps: every value is below 2^31). -/
private theorem mask_iff (i : grid0.Coords) (r : Fin 16384) :
    k0_pay4 i (ix2 r (0 : Fin 1)) = 1#1 ↔ 16384 * blockNo i + r.val < 1000000 := by
  have h0 : (i 0).val < 2 := (i 0).isLt
  have h1 : (i 1).val < 31 := (i 1).isLt
  have hr : r.val < 16384 := r.isLt
  unfold k0_pay4 blockNo
  show IntOp.cmpi .slt
      (((BitVec.ofNat 32 (i 0).val * 31#32 + BitVec.ofNat 32 (i 1).val) * 16384#32)
        + iota .tc S16384x1 32 [0] iota_S16384x1_d0_w32 (ix2 r (0 : Fin 1))) 1000000#32 = 1#1 ↔ _
  rw [iota_single_apply]
  show IntOp.cmpi .slt
      (((BitVec.ofNat 32 (i 0).val * 31#32 + BitVec.ofNat 32 (i 1).val) * 16384#32) + BitVec.ofNat 32 r.val)
      1000000#32 = 1#1 ↔ _
  have hv : (((BitVec.ofNat 32 (i 0).val * 31#32 + BitVec.ofNat 32 (i 1).val) * 16384#32)
      + BitVec.ofNat 32 r.val).toNat = 16384 * (31 * (i 0).val + (i 1).val) + r.val := by
    simp only [BitVec.toNat_add, BitVec.toNat_mul, BitVec.toNat_ofNat]
    omega
  rw [StableHlo.Predicate.slt_iff_toNat (by rw [hv]; omega) (by decide), hv]
  rfl

/-- So a select on the mask is the `if` on the row number. -/
private theorem select_mask (i : grid0.Coords) (r : Fin 16384) (a b : EReal) :
    Scalar.select (k0_pay4 i (ix2 r (0 : Fin 1))) a b = if 16384 * blockNo i + r.val < 1000000 then a else b := by
  by_cases h : 16384 * blockNo i + r.val < 1000000
  · rw [if_pos h, (mask_iff i r).mpr h, select_one]
  · rw [if_neg h, eq_zero_of_ne_one (fun hc => h ((mask_iff i r).mp hc)), select_zero]

/-- The pointwise exponential and logarithm at an index, at the extended reals. -/
private theorem exp_apply' {s : Shape} {φ : FTy} (a : FVec Ideal s φ) (i : s.Idx) : exp a i = Ideal.exp (a i) := rfl
private theorem log_apply' {s : Shape} {φ : FTy} (a : FVec Ideal s φ) (i : s.Idx) : log a i = Ideal.log (a i) := rfl

/-- The shifted logits: a row's entry minus the row's maximum, the maximum taken along the lanes,
    kept as a column and broadcast back over the lanes. -/
private theorem shifted_at (x0 : FVec Ideal S16384x80 .f32) (hφ : FKind.Formats .f32)
    (hacc : (0xFF800000#32 : BitVec 32) = 0xFF800000#32) (r : Fin 16384) (c : Fin 80) :
    subf x0 (broadcastTo S16384x80 (shapeCast S16384x1
        (multiReduction .maximumf [1] S16384 x0 0xFF800000#32 reduces_S16384x80_S16384 hφ hacc)
        shapeCasts_S16384_S16384x1) broadcasts_S16384x1_S16384x80) (ix2 r c)
      = x0 (ix2 r c) - Cert.Spec.rowMax (fun c => x0 (ix2 r c)) :=
  (subf_apply _ _ _).trans (congrArg (fun m => x0 (ix2 r c) - m)
    ((broadcastTo_a1_ab_apply _ broadcasts_S16384x1_S16384x80 r c).trans
      ((shapeCast_a_a1_apply _ shapeCasts_S16384_S16384x1 r (0 : Fin 1)).trans (laneMax_at x0 hφ hacc r))))

/-- The one-hot select of a lane: the lane index (an iota along the lanes) compared with the row's
    class word (the class column broadcast over the lanes) picks the value where the words agree. -/
private theorem select_class (x4 : IVec S16384x1 32) (r : Fin 16384) (c : Fin 80) (a : EReal) :
    Scalar.select (cmpi .eq (iota .tc S16384x80 32 [1] iota_S16384x80_d1_w32)
        (broadcastTo S16384x80 x4 broadcasts_S16384x1_S16384x80) (ix2 r c)) a (Ideal.ofBits .f32 0x00000000#32)
      = if BitVec.ofNat 32 c.val = x4 (ix2 r (0 : Fin 1)) then a else 0 := by
  have hc : cmpi .eq (iota .tc S16384x80 32 [1] iota_S16384x80_d1_w32)
        (broadcastTo S16384x80 x4 broadcasts_S16384x1_S16384x80) (ix2 r c)
      = IntOp.cmpi .eq (BitVec.ofNat 32 c.val) (x4 (ix2 r (0 : Fin 1))) := by
    show IntOp.cmpi .eq (iota .tc S16384x80 32 [1] iota_S16384x80_d1_w32 (ix2 r c))
        (broadcastTo S16384x80 x4 broadcasts_S16384x1_S16384x80 (ix2 r c)) = _
    rw [iota_single_apply, broadcastTo_a1_ab_apply]
  rw [hc, Ideal.ofBits_zero_f32]
  by_cases h : BitVec.ofNat 32 c.val = x4 (ix2 r (0 : Fin 1))
  · rw [if_pos h, StableHlo.Predicate.cmpi_eq_iff.mpr h, select_one]
  · rw [if_neg h, eq_zero_of_ne_one (fun hc' => h (StableHlo.Predicate.cmpi_eq_iff.mp hc')), select_zero]

/-- The cross-entropy column at row `r` is the cross entropy of row `r` against its class word. -/
private theorem pay6_at (x0 : Vec Ideal S16384x80 .f32) (x4 : Vec Ideal S16384x1 .i32) (r : Fin 16384) :
    k0_pay6 (F := Ideal) x0 x4 (ix2 r (0 : Fin 1))
      = Cert.Spec.ceRow (fun c => x0 (ix2 r c)) (x4 (ix2 r (0 : Fin 1))) := by
  unfold k0_pay6
  simp only [shapeCast_self]
  refine (subf_apply _ _ _).trans ?_
  unfold Cert.Spec.ceRow
  refine congrArg₂ (fun a b : EReal => a - b) ?_ ?_
  · refine (log_apply' _ _).trans (congrArg Ideal.log ?_)
    refine (shapeCast_a_a1_apply _ shapeCasts_S16384_S16384x1 r (0 : Fin 1)).trans ?_
    refine (laneSum_at _ _ _ r).trans ?_
    refine Finset.sum_congr rfl fun c _ => ?_
    refine (exp_apply' _ _).trans (congrArg Ideal.exp ?_)
    exact shifted_at x0 _ _ r c
  · refine (shapeCast_a_a1_apply _ shapeCasts_S16384_S16384x1 r (0 : Fin 1)).trans ?_
    refine (laneSum_at _ _ _ r).trans ?_
    refine Finset.sum_congr rfl fun c _ => ?_
    refine (select_apply _ _ _ _).trans ?_
    refine (congrArg (fun a => Scalar.select _ a _) (shifted_at x0 _ _ r c)).trans ?_
    exact select_class x4 r c _

/-- The weight column at row `r` is 1 - e^(0 - ce) of the cross-entropy column there. -/
private theorem pay7_at (x0 : Vec Ideal S16384x80 .f32) (x4 : Vec Ideal S16384x1 .i32) (r : Fin 16384) :
    k0_pay7 (F := Ideal) x0 x4 (ix2 r (0 : Fin 1))
      = Cert.Spec.one - Ideal.exp (0 - k0_pay6 (F := Ideal) x0 x4 (ix2 r (0 : Fin 1))) := by
  unfold k0_pay7
  refine (subf_apply _ _ _).trans (congrArg (fun a => Cert.Spec.one - a) ?_)
  refine (exp_apply' _ _).trans (congrArg Ideal.exp ?_)
  refine (subf_apply _ _ _).trans (congrArg (fun z => z - k0_pay6 (F := Ideal) x0 x4 (ix2 r (0 : Fin 1))) ?_)
  exact Ideal.ofBits_zero_f32

/-- The block's focal scalar is the masked sum of its rows' focal losses. -/
theorem focal_scalar (i : grid0.Coords) (x0 : Vec Ideal S16384x80 .f32) (x4 : Vec Ideal S16384x1 .i32) :
    k0_pay8 (F := Ideal) (k0_pay4 i) (k0_pay6 x0 x4) (k0_pay7 x0 x4) = Cert.Spec.blockFocal (blockNo i) x0 x4 := by
  rw [pay8_eq_sum]
  unfold Cert.Spec.blockFocal
  refine Finset.sum_congr rfl fun r _ => ?_
  rw [select_mask, pay7_at, pay6_at]
  rfl

end Cert.KernelIdeal.Hand

end
-- ==== Proof.KBlocks.lean ====
/-
  The five input blocks read at an index, for the rows inside the array. Point t of the grid
  (t = 31 * core + tile) fetches block t of each padded array, and block t's row r is the
  array's row 16384 * t + r. The padded arrays are the arguments with zeros appended: the logits
  as they are, the boxes transposed (a box a column), the centerness vector as a row, the class
  words as a column. So for 16384 * t + r < 1 000 000 a block entry is an entry of an argument.
-/
import proofs.«408445_j48344151884162_2_alg».proof.Proof.KBlk
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.KernelIdeal.Hand

open Idealize.ShloMosaic Idealize.ShloMosaic.ValueIdx Idealize.SL.Sem Cert.KernelIdeal Cert.KernelIdeal.Gen

variable (m : (ℓ : Loc nD τ sig) → Buf (Elt Ideal) ℓ)

/-! ## The block index of each window at point t of the 62: t on the long axis, 0 on the other -/

private theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
private theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
private theorem idx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
private theorem idx3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
private theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-! ## The padded arrays read at an index inside the argument -/

/-- The logits with rows of the padding value appended: row p < 1 000 000, class q is the argument's entry. -/
private theorem pad0_read (x : S1000000x80.Idx → EReal) (v : S_.Idx → EReal) (j : S1015808x80.Idx) (p : Fin 1000000) (q : Fin 80)
    (h0 : (j 0).val = p.val) (h1 : (j 1).val = q.val) :
    pad S1015808x80 ![0, 0] ![15808, 0] ![0, 0] x v Facts₀.pads_S1000000x80_S1015808x80_0158080_000 Facts₀.h_S_ j = x (ix2 p q) := by
  refine pad_apply_of_inside _ _ _ x v _ _ j (ix2 p q) ?_
  intro a
  match a with
  | ⟨0, _⟩ => show (j 0).val = 0 + p.val * (0 + 1); omega
  | ⟨1, _⟩ => show (j 1).val = 0 + q.val * (0 + 1); omega

/-- The boxes transposed (a box a column), then padded along the long axis: coordinate a, column p < 1 000 000
    is the argument's row p, coordinate a. -/
private theorem padT_read (x : S1000000x4.Idx → EReal) (v : S_.Idx → EReal) (j : S4x1015808.Idx) (a : Fin 4) (p : Fin 1000000)
    (h0 : (j 0).val = a.val) (h1 : (j 1).val = p.val) :
    pad S4x1015808 ![0, 0] ![0, 15808] ![0, 0]
      (transpose S4x1000000 [1, 0] x Facts₀.transposes_S1000000x4_S4x1000000_1_0) v
      Facts₀.pads_S4x1000000_S4x1015808_000_0158080 Facts₀.h_S_ j = x (ix2 p a) := by
  refine (pad_apply_of_inside _ _ _ _ v _ _ j (ix2 a p) ?_).trans (transpose_ix2_apply x _ a p)
  intro b
  match b with
  | ⟨0, _⟩ => show (j 0).val = 0 + a.val * (0 + 1); omega
  | ⟨1, _⟩ => show (j 1).val = 0 + p.val * (0 + 1); omega

/-- The centerness vector laid as a row, then padded along the long axis: column p < 1 000 000 is entry p. -/
private theorem padRow_read (x : S1000000.Idx → EReal) (v : S_.Idx → EReal) (j : S1x1015808.Idx) (p : Fin 1000000)
    (h1 : (j 1).val = p.val) :
    pad S1x1015808 ![0, 0] ![0, 15808] ![0, 0]
      (shapeCast S1x1000000 x Facts₀.shapeCasts_S1000000_S1x1000000) v
      Facts₀.pads_S1x1000000_S1x1015808_000_0158080 Facts₀.h_S_ j = x (ix1 p) := by
  refine (pad_apply_of_inside _ _ _ _ v _ _ j (ix2 (0 : Fin 1) p) ?_).trans ?_
  · intro b
    match b with
    | ⟨0, _⟩ => show (j 0).val = 0 + 0 * (0 + 1); have h0 : (j 0).val < 1 := (j 0).isLt; omega
    | ⟨1, _⟩ => show (j 1).val = 0 + p.val * (0 + 1); omega
  · -- the row (0, p) and the vector's entry p have the same row-major position
    refine shapeCast_apply x _ (ix2 (0 : Fin 1) p) (ix1 p) ?_
    rw [Shape.rowMajor_val_one, Shape.rowMajor_val_two]
    show p.val = 0 * 1000000 + p.val
    omega

/-- The class words padded, then laid as a column: row p < 1 000 000 is entry p. -/
private theorem padCol_read (x : S1000000.Idx → BitVec 32) (v : S_.Idx → BitVec 32) (j : S1015808x1.Idx) (p : Fin 1000000)
    (h0 : (j 0).val = p.val) :
    shapeCast S1015808x1 (pad S1015808 ![0] ![15808] ![0] x v Facts₀.pads_S1000000_S1015808_0158080 Facts₀.h_S_)
      Facts₀.shapeCasts_S1015808_S1015808x1 j = x (ix1 p) := by
  have hp : p.val < 1015808 := by have := p.isLt; omega
  refine (shapeCast_apply _ _ j (ix1 (⟨p.val, hp⟩ : Fin 1015808)) ?_).trans ?_
  · -- the column's row (p, 0) and the padded vector's entry p have the same row-major position
    rw [Shape.rowMajor_val_one, Shape.rowMajor_val_two]
    show p.val = (j 0).val * 1 + (j 1).val
    have h1 : (j 1).val < 1 := (j 1).isLt
    omega
  · refine pad_apply_of_inside _ _ _ x v _ _ _ (ix1 p) ?_
    intro b
    match b with
    | ⟨0, _⟩ => show p.val = 0 + p.val * (0 + 1); omega

/-! ## The five staged arrays: each is the arguments padded, transposed or re-laid as its window reads it -/

private theorem v0_eq (c : Dev nD) : (V m c main_v0 : S1015808x80.Idx → EReal)
    = pad S1015808x80 ![0, 0] ![15808, 0] ![0, 0] (m ((c.tc : Thread nD τ).loc main_arg0) : S1000000x80.Idx → EReal)
        (sitofp (F := Ideal) .f32 (constantI S_ 32 0#32)) Facts₀.pads_S1000000x80_S1015808x80_0158080_000 Facts₀.h_S_ := by
  dsimp only [Gen.V, Gen.V0]
  simp only [Gen.hostOps0, Gen.hostOps0_1, Gen.hostOps0_2, Gen.hostOps0_3, Gen.hostOps0_4, Gen.hostOps0_5,
    Gen.hostOps0_6, Gen.hostOps0_7, Gen.hostOps0_8, Gen.hostOps0_9,
    List.flatten_cons, List.flatten_nil, List.append_nil, List.cons_append, List.nil_append]
  after_results
  rfl

private theorem v4_eq (c : Dev nD) : (V m c main_v4 : S4x1015808.Idx → EReal)
    = pad S4x1015808 ![0, 0] ![0, 15808] ![0, 0]
        (transpose S4x1000000 [1, 0] (m ((c.tc : Thread nD τ).loc main_arg1) : S1000000x4.Idx → EReal) Facts₀.transposes_S1000000x4_S4x1000000_1_0)
        (sitofp (F := Ideal) .f32 (constantI S_ 32 0#32)) Facts₀.pads_S4x1000000_S4x1015808_000_0158080 Facts₀.h_S_ := by
  dsimp only [Gen.V, Gen.V0]
  simp only [Gen.hostOps0, Gen.hostOps0_1, Gen.hostOps0_2, Gen.hostOps0_3, Gen.hostOps0_4, Gen.hostOps0_5,
    Gen.hostOps0_6, Gen.hostOps0_7, Gen.hostOps0_8, Gen.hostOps0_9,
    List.flatten_cons, List.flatten_nil, List.append_nil, List.cons_append, List.nil_append]
  after_results
  rfl

private theorem v8_eq (c : Dev nD) : (V m c main_v8 : S1x1015808.Idx → EReal)
    = pad S1x1015808 ![0, 0] ![0, 15808] ![0, 0]
        (shapeCast S1x1000000 (m ((c.tc : Thread nD τ).loc main_arg2) : S1000000.Idx → EReal) Facts₀.shapeCasts_S1000000_S1x1000000)
        (sitofp (F := Ideal) .f32 (constantI S_ 32 0#32)) Facts₀.pads_S1x1000000_S1x1015808_000_0158080 Facts₀.h_S_ := by
  dsimp only [Gen.V, Gen.V0]
  simp only [Gen.hostOps0, Gen.hostOps0_1, Gen.hostOps0_2, Gen.hostOps0_3, Gen.hostOps0_4, Gen.hostOps0_5,
    Gen.hostOps0_6, Gen.hostOps0_7, Gen.hostOps0_8, Gen.hostOps0_9,
    List.flatten_cons, List.flatten_nil, List.append_nil, List.cons_append, List.nil_append]
  after_results
  rfl

private theorem v6_eq (c : Dev nD) : (V m c main_v6 : S4x1015808.Idx → EReal)
    = pad S4x1015808 ![0, 0] ![0, 15808] ![0, 0]
        (transpose S4x1000000 [1, 0] (m ((c.tc : Thread nD τ).loc main_arg3) : S1000000x4.Idx → EReal) Facts₀.transposes_S1000000x4_S4x1000000_1_0)
        (sitofp (F := Ideal) .f32 (constantI S_ 32 0#32)) Facts₀.pads_S4x1000000_S4x1015808_000_0158080 Facts₀.h_S_ := by
  dsimp only [Gen.V, Gen.V0]
  simp only [Gen.hostOps0, Gen.hostOps0_1, Gen.hostOps0_2, Gen.hostOps0_3, Gen.hostOps0_4, Gen.hostOps0_5,
    Gen.hostOps0_6, Gen.hostOps0_7, Gen.hostOps0_8, Gen.hostOps0_9,
    List.flatten_cons, List.flatten_nil, List.append_nil, List.cons_append, List.nil_append]
  after_results
  rfl

private theorem v2_eq (c : Dev nD) : (V m c main_v2 : S1015808x1.Idx → BitVec 32)
    = shapeCast S1015808x1 (pad S1015808 ![0] ![15808] ![0] (m ((c.tc : Thread nD τ).loc main_arg4) : S1000000.Idx → BitVec 32)
        (id (constantI S_ 32 0#32)) Facts₀.pads_S1000000_S1015808_0158080 Facts₀.h_S_) Facts₀.shapeCasts_S1015808_S1015808x1 := by
  dsimp only [Gen.V, Gen.V0]
  simp only [Gen.hostOps0, Gen.hostOps0_1, Gen.hostOps0_2, Gen.hostOps0_3, Gen.hostOps0_4, Gen.hostOps0_5,
    Gen.hostOps0_6, Gen.hostOps0_7, Gen.hostOps0_8, Gen.hostOps0_9,
    List.flatten_cons, List.flatten_nil, List.append_nil, List.cons_append, List.nil_append]
  after_results
  rfl

/-! ## The blocks -/

/-- The block a point works on is its own number. -/
theorem blockNo_coords (t : Fin cfg0.N) : 31 * ((grid0.coords t) 0).val + ((grid0.coords t) 1).val = t.val := by
  exact (by decide +kernel : ∀ t : Fin grid0.N, 31 * ((grid0.coords t) 0).val + ((grid0.coords t) 1).val = t.val) t

/-- Logits: block t, row r, class k is the argument's row 16384 t + r, class k. -/
theorem blk0_apply (c : Dev nD) (t : Fin cfg0.N) (r : Fin 16384) (k : Fin 80) (h : 16384 * t.val + r.val < 1000000) :
    blk0 m c t (ix2 r k) = m ((c.tc : Thread nD τ).loc main_arg0) (ix2 (⟨16384 * t.val + r.val, h⟩ : Fin 1000000) k) := by
  obtain ⟨e0, e1⟩ := idx0 t
  -- the block's entry (r, k) sits in the padded array at (index * 16384 + r, index * 80 + k)
  show (V m c main_v0 : S1015808x80.Idx → EReal) (((cfg0.win 0).blk t).view.emb (ix2 r k)) = _
  rw [v0_eq]
  refine pad0_read _ _ _ _ _ ?_ ?_
  · show win0_0.index t (0 : Fin 2) * 16384 + 1 * r.val = 16384 * t.val + r.val
    rw [e0]; omega
  · show win0_0.index t (1 : Fin 2) * 80 + 1 * k.val = k.val
    rw [e1]; omega

/-- Predicted boxes: block t, coordinate a, column r is the argument's row 16384 t + r, coordinate a. -/
theorem blk1_apply (c : Dev nD) (t : Fin cfg0.N) (a : Fin 4) (r : Fin 16384) (h : 16384 * t.val + r.val < 1000000) :
    blk1 m c t (ix2 a r) = m ((c.tc : Thread nD τ).loc main_arg1) (ix2 (⟨16384 * t.val + r.val, h⟩ : Fin 1000000) a) := by
  obtain ⟨e0, e1⟩ := idx1 t
  -- the block's entry (a, r) sits in the padded array at (index * 4 + a, index * 16384 + r)
  show (V m c main_v4 : S4x1015808.Idx → EReal) (((cfg0.win 1).blk t).view.emb (ix2 a r)) = _
  rw [v4_eq]
  refine padT_read _ _ _ _ _ ?_ ?_
  · show win0_1.index t (0 : Fin 2) * 4 + 1 * a.val = a.val
    rw [e0]; omega
  · show win0_1.index t (1 : Fin 2) * 16384 + 1 * r.val = 16384 * t.val + r.val
    rw [e1]; omega

/-- Centerness: block t, column r is the argument's entry 16384 t + r. -/
theorem blk2_apply (c : Dev nD) (t : Fin cfg0.N) (r : Fin 16384) (h : 16384 * t.val + r.val < 1000000) :
    blk2 m c t (ix2 (0 : Fin 1) r) = m ((c.tc : Thread nD τ).loc main_arg2) (ix1 (⟨16384 * t.val + r.val, h⟩ : Fin 1000000)) := by
  obtain ⟨e0, e1⟩ := idx2 t
  -- the block's entry (0, r) sits in the padded row at column index * 16384 + r
  show (V m c main_v8 : S1x1015808.Idx → EReal) (((cfg0.win 2).blk t).view.emb (ix2 (0 : Fin 1) r)) = _
  rw [v8_eq]
  refine padRow_read _ _ _ _ ?_
  show win0_2.index t (1 : Fin 2) * 16384 + 1 * r.val = 16384 * t.val + r.val
  rw [e1]; omega

/-- Target boxes, as the predicted ones. -/
theorem blk3_apply (c : Dev nD) (t : Fin cfg0.N) (a : Fin 4) (r : Fin 16384) (h : 16384 * t.val + r.val < 1000000) :
    blk3 m c t (ix2 a r) = m ((c.tc : Thread nD τ).loc main_arg3) (ix2 (⟨16384 * t.val + r.val, h⟩ : Fin 1000000) a) := by
  obtain ⟨e0, e1⟩ := idx3 t
  -- the block's entry (a, r) sits in the padded array at (index * 4 + a, index * 16384 + r)
  show (V m c main_v6 : S4x1015808.Idx → EReal) (((cfg0.win 3).blk t).view.emb (ix2 a r)) = _
  rw [v6_eq]
  refine padT_read _ _ _ _ _ ?_ ?_
  · show win0_3.index t (0 : Fin 2) * 4 + 1 * a.val = a.val
    rw [e0]; omega
  · show win0_3.index t (1 : Fin 2) * 16384 + 1 * r.val = 16384 * t.val + r.val
    rw [e1]; omega

/-- Class words: block t, row r is the argument's entry 16384 t + r. -/
theorem blk4_apply (c : Dev nD) (t : Fin cfg0.N) (r : Fin 16384) (h : 16384 * t.val + r.val < 1000000) :
    blk4 m c t (ix2 r (0 : Fin 1)) = m ((c.tc : Thread nD τ).loc main_arg4) (ix1 (⟨16384 * t.val + r.val, h⟩ : Fin 1000000)) := by
  obtain ⟨e0, e1⟩ := idx4 t
  -- the block's entry (r, 0) sits in the padded column at row index * 16384 + r
  show (V m c main_v2 : S1015808x1.Idx → BitVec 32) (((cfg0.win 4).blk t).view.emb (ix2 r (0 : Fin 1))) = _
  rw [v2_eq]
  refine padCol_read _ _ _ _ ?_
  show win0_4.index t (0 : Fin 2) * 16384 + 1 * r.val = 16384 * t.val + r.val
  rw [e0]; omega

end Cert.KernelIdeal.Hand

end
-- ==== Proof.KAccum.lean ====
/-
  The accumulator over the grid, and the output array.

  Point t adds to each of the accumulator's three entries the point's block sum (focal, GIoU,
  centerness; block number t); a run of 31 points starts from zeros. So after point n the
  accumulator holds, entry by entry, the sum of the block sums of the points of n's run up to n:
  an induction on the point. At a run's last point (30 and 61) the accumulator is written out as
  row n / 31 of the 2 x 1 x 3 output array, which therefore ends holding, in row k, the sums over
  the 31 blocks 31 k .. 31 k + 30.
-/
import proofs.«408445_j48344151884162_2_alg».proof.Proof.KPieces
import proofs.«408445_j48344151884162_2_alg».proof.Proof.KPayload
import proofs.«408445_j48344151884162_2_alg».proof.Proof.KFocal
import proofs.«408445_j48344151884162_2_alg».proof.Proof.KBlocks
import proofs.«408445_j48344151884162_2_alg».proof.Proof.SumLaws
import Idealize.ShloMosaic.Lib.Pipeline.Value

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The three block sums of point t: focal, GIoU, centerness. -/
def bterm (c : Dev nD) (t : Fin cfg0.N) (j : Fin 3) : EReal :=
  if j.val = 0 then Cert.Spec.blockFocal t.val (blk0 m c t) (blk4 m c t)
  else if j.val = 1 then Cert.Spec.blockGiou t.val (blk1 m c t) (blk3 m c t)
  else Cert.Spec.blockCenter t.val (blk2 m c t)

/-- One point's update, entry by entry: the previous entry plus the point's block sum. -/
theorem step_entry (c : Dev nD) (t : Fin cfg0.N) (prev : Vec Ideal S1x3 .f32) (j : Fin 3) :
    step (F := Ideal) (grid0.coords t) (blk0 m c t) (blk1 m c t) (blk2 m c t) (blk3 m c t) (blk4 m c t) prev (ix2 (0 : Fin 1) j)
      = prev (ix2 (0 : Fin 1) j) + bterm m c t j := by
  have hb : blockNo (grid0.coords t) = t.val := blockNo_coords t
  match j with
  | ⟨0, _⟩ =>
    refine (step_apply0_raw (grid0.coords t) (blk0 m c t) (blk1 m c t) (blk2 m c t) (blk3 m c t) (blk4 m c t) prev).trans ?_
    refine congrArg (fun v => prev (ix2 (0 : Fin 1) (0 : Fin 3)) + v) ?_
    refine (focal_scalar (grid0.coords t) (blk0 m c t) (blk4 m c t)).trans ?_
    rw [bterm, if_pos rfl]
    exact congrArg (fun p => Cert.Spec.blockFocal p (blk0 m c t) (blk4 m c t)) hb
  | ⟨1, _⟩ =>
    refine (step_apply1 (grid0.coords t) (blk0 m c t) (blk1 m c t) (blk2 m c t) (blk3 m c t) (blk4 m c t) prev).trans ?_
    refine congrArg (fun v => prev (ix2 (0 : Fin 1) (1 : Fin 3)) + v) ?_
    rw [bterm, if_neg (show ¬((1 : ℕ) = 0) from Nat.one_ne_zero), if_pos rfl]
    exact congrArg (fun p => Cert.Spec.blockGiou p (blk1 m c t) (blk3 m c t)) hb
  | ⟨2, _⟩ =>
    refine (step_apply2 (grid0.coords t) (blk0 m c t) (blk1 m c t) (blk2 m c t) (blk3 m c t) (blk4 m c t) prev).trans ?_
    refine congrArg (fun v => prev (ix2 (0 : Fin 1) (2 : Fin 3)) + v) ?_
    rw [bterm, if_neg (show ¬((2 : ℕ) = 0) from Nat.succ_ne_zero 1), if_neg (show ¬((2 : ℕ) = 1) from Nat.succ_ne_succ.mpr Nat.one_ne_zero)]
    exact congrArg (fun p => Cert.Spec.blockCenter p (blk2 m c t)) hb

/-- The block sums by point number, zero past the grid's 62 points. -/
def btermN (c : Dev nD) (p : ℕ) (j : Fin 3) : EReal :=
  if h : p < cfg0.N then bterm m c ⟨p, h⟩ j else 0

theorem btermN_of_lt (c : Dev nD) (p : ℕ) (h : p < cfg0.N) (j : Fin 3) : btermN m c p j = bterm m c ⟨p, h⟩ j :=
  dif_pos h

/-- After point n the accumulator's entry j is the sum of the block sums of the points of n's run
    up to n. -/
theorem acc_eq (c : Dev nD) : ∀ (n : ℕ) (hn : n < cfg0.N) (j : Fin 3),
    (outsAt0 m c n hn).2 (ix2 (0 : Fin 1) j) = ∑ s ∈ Finset.range (n % 31 + 1), btermN m c (n - n % 31 + s) j
  | 0, hn, j => by
    have h := congrFun (acc_first m c ⟨0, hn⟩ rfl) (ix2 (0 : Fin 1) j)
    rw [show (outsAt0 m c 0 hn).2 (ix2 (0 : Fin 1) j) = _ from h, step_entry, zeros_apply, zero_add]
    simp only [Nat.zero_mod, Nat.zero_add, Finset.range_one, Finset.sum_singleton, Nat.sub_zero, Nat.add_zero]
    exact (btermN_of_lt m c 0 hn j).symm
  | n + 1, hn, j => by
    by_cases h0 : (n + 1) % 31 = 0
    · have h := congrFun (acc_first m c ⟨n + 1, hn⟩ h0) (ix2 (0 : Fin 1) j)
      rw [show (outsAt0 m c (n + 1) hn).2 (ix2 (0 : Fin 1) j) = _ from h, step_entry, zeros_apply, zero_add, h0]
      simp only [Nat.zero_add, Finset.range_one, Finset.sum_singleton, Nat.sub_zero, Nat.add_zero]
      exact (btermN_of_lt m c (n + 1) hn j).symm
    · have h := congrFun (acc_next m c ⟨n + 1, hn⟩ h0) (ix2 (0 : Fin 1) j)
      have ih := acc_eq c n (Nat.lt_of_succ_lt hn) j
      rw [show (outsAt0 m c (n + 1) hn).2 (ix2 (0 : Fin 1) j) = _ from h, step_entry]
      show (outsAt0 m c n _).2 (ix2 (0 : Fin 1) j) + _ = _
      rw [ih]
      have e1 : (n + 1) % 31 = n % 31 + 1 := by omega
      have e2 : n + 1 - (n + 1) % 31 = n - n % 31 := by omega
      rw [e2, e1, Finset.sum_range_succ _ (n % 31 + 1)]
      congr 1
      rw [show n - n % 31 + (n % 31 + 1) = n + 1 by omega]
      exact (btermN_of_lt m c (n + 1) hn j).symm

/-! ## The output array -/

/-- The 2 x 1 x 3 output array the region leaves: row k, entry j is the sum of entry j's block
    sums over the 31 blocks of run k. -/
def outArr (c : Dev nD) : S2x1x3.Idx → EReal :=
  fun i => ∑ s ∈ Finset.range 31, btermN m c (31 * (i 0).val + s) ⟨(i 2).val, (i 2).isLt⟩

/-- Where the output window's block sits at each point: row (point / 31), the other block indices
    zero. Decided over the 62 points. -/
theorem out_index : ∀ t : Fin cfg0.N, win0_5.index t (0 : Fin 3) = t.val / 31
    ∧ win0_5.index t (1 : Fin 3) = 0 ∧ win0_5.index t (2 : Fin 3) = 0 :=
  (by decide +kernel : ∀ t : Fin grid0.N, win0_5.index t (0 : Fin 3) = t.val / 31
    ∧ win0_5.index t (1 : Fin 3) = 0 ∧ win0_5.index t (2 : Fin 3) = 0)

/-- What a run's last point writes back is its block of the output array. -/
theorem flushed_out (c : Dev nD) (t : Fin cfg0.N) (hf : (cfg0.win 5).flush t = true) :
    (dats m 0 c).flushed 5 t = ((cfg0.win 5).blk t).view.read (Elt Ideal) (outArr m c) := by
  have h30 : t.val % 31 = 30 := (flush0_5 t).mp hf
  show (cfg0.win 5).cut (grid0.coords t) ((dats m 0 c).after 5 t) = _
  rw [after0_5, out_last m c t h30]
  obtain ⟨e0, e1, e2⟩ := out_index t
  funext y
  rw [View.read_apply]
  have hy : y = ix3 (0 : Fin 1) (0 : Fin 1) (⟨(y 2).val, (y 2).isLt⟩ : Fin 3) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  show outOf (outsAt0 m c t.val t.isLt).2 y = outArr m c (((cfg0.win 5).blk t).view.emb y)
  rw [show outOf (outsAt0 m c t.val t.isLt).2 y = outOf (outsAt0 m c t.val t.isLt).2 (ix3 (0 : Fin 1) (0 : Fin 1) (⟨(y 2).val, (y 2).isLt⟩ : Fin 3)) from congrArg _ hy,
    outOf_apply, acc_eq m c t.val t.isLt]
  unfold outArr
  have i0 : ((((cfg0.win 5).blk t).view.emb y) 0).val = t.val / 31 := by
    show win0_5.index t (0 : Fin 3) * 1 + 1 * (y 0).val = _
    have h : (y 0).val < 1 := (y 0).isLt
    rw [e0]; omega
  have i2 : ((((cfg0.win 5).blk t).view.emb y) 2).val = (y 2).val := by
    show win0_5.index t (2 : Fin 3) * 3 + 1 * (y 2).val = _
    rw [e2]; omega
  rw [h30]
  refine Finset.sum_congr rfl fun s _ => ?_
  have ea : t.val - 30 + s = 31 * ((((cfg0.win 5).blk t).view.emb y) 0).val + s := by rw [i0]; omega
  rw [ea]
  exact congrArg (btermN m c _) (Fin.ext i2.symm)

/-- An index of the output array lies in point t's block iff each coordinate lies in the block's
    range on its axis. -/
theorem mem_out_blk (t : Fin cfg0.N) (i : S2x1x3.Idx) :
    i ∈ ((cfg0.win 5).blk t).view.set ↔ ∀ a : Fin 3, win0_5.index t a * S1x1x3.size a ≤ (i a).val ∧ (i a).val < win0_5.index t a * S1x1x3.size a + S1x1x3.size a := by
  show i ∈ ((View.whole main_v9).slice (win0_5.rect t)).set ↔ _
  rw [View.set_slice_whole, Rect.mem_set_unit]
  exact Iff.rfl

/-- The region leaves the output array at those sums: the two runs' last points, 30 and 61, write
    its two rows. -/
theorem final_out (c : Dev nD) : (dats m 0 c).arrAt 5 cfg0.N = outArr m c :=
  (dats m 0 c).arrAt_eq_of_cover 5 (outArr m c) (flushed_out m c) fun (i : S2x1x3.Idx) => by
    have hN : cfg0.N = 62 := N_0
    have hi0 : (i 0).val < 2 := (i 0).isLt
    have hi1 : (i 1).val < 1 := (i 1).isLt
    have hi2 : (i 2).val < 3 := (i 2).isLt
    obtain ⟨tk, htk⟩ : ∃ tk : Fin cfg0.N, tk.val = 31 * (i 0).val + 30 := ⟨⟨31 * (i 0).val + 30, by rw [hN]; omega⟩, rfl⟩
    obtain ⟨e0, e1, e2⟩ := out_index tk
    refine ⟨tk, (flush0_5 tk).mpr (by rw [htk]; omega), ?_⟩
    rw [mem_out_blk]
    intro a
    match a with
    | ⟨0, _⟩ =>
      show win0_5.index tk (0 : Fin 3) * 1 ≤ (i 0).val ∧ (i 0).val < win0_5.index tk (0 : Fin 3) * 1 + 1
      rw [e0, htk]; omega
    | ⟨1, _⟩ =>
      show win0_5.index tk (1 : Fin 3) * 1 ≤ (i 1).val ∧ (i 1).val < win0_5.index tk (1 : Fin 3) * 1 + 1
      rw [e1]; omega
    | ⟨2, _⟩ =>
      show win0_5.index tk (2 : Fin 3) * 3 ≤ (i 2).val ∧ (i 2).val < win0_5.index tk (2 : Fin 3) * 3 + 3
      rw [e2]; omega

end Cert.KernelIdeal.Hand

end
-- ==== Proof.KTail.lean ====
/-
  The host operations after the region, read at the extended reals. They take the 2 x 1 x 3 array
  the region leaves (one row per run of 31 blocks), reshape it to 2 x 3, add the two rows from a
  zero initial value, take the three entries apart as scalars, divide each by 1 000 000, and
  combine them: the first plus the second, plus 1/10 of the third.
-/
import proofs.«408445_j48344151884162_2_alg».proof.Proof.Gen.KernelIdeal.Frame
import proofs.«408445_j48344151884162_2_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Entry j of the two rows of a 2 x 1 x 3 array, added from a zero initial value. -/
def colSum (G : S2x1x3.Idx → EReal) (j : Fin 3) : EReal :=
  Ideal.ofBits .f32 0x00000000#32 + ∑ k : Fin 2, G (ix3 k (0 : Fin 1) j)

/-- The host's sum of the reshaped array over its two rows, at entry j. -/
theorem rows_added (G : S2x1x3.Idx → EReal) (j : Fin 3) :
    Host.reduceAdd (F := Ideal) (shapeCast S2x3 G shapeCasts_S2x1x3_S2x3) (constant S_ .f32 0x00000000#32) reducesTo_S2x3_S3_d0 h_S_ (ix1 j)
      = colSum G j := by
  generalize hy : shapeCast S2x3 G shapeCasts_S2x1x3_S2x3 = y
  simp only [Host.reduceAdd, Ideal.hostReduceAdd_def]
  rw [Ideal.hostReduceAdd_single reducesTo_S2x3_S3_d0 (by decide)]
  unfold colSum
  refine congrArg (_ + ·) (Finset.sum_congr rfl fun k _ => ?_)
  subst hy
  refine (shapeCast_apply G shapeCasts_S2x1x3_S2x3 _ (ix3 k (0 : Fin 1) j) ?_)
  rewrite [Shape.rowMajor_val_three, Shape.rowMajor_val_two]
  show (k.val * 1 + 0) * 3 + j.val = k.val * 3 + j.val
  omega

/-- Entry j of the row sum, taken out as a scalar: a unit slice at offset j, reshaped to rank 0. -/
theorem entry_scalar (G : S2x1x3.Idx → EReal) (j : Fin 3) (off : Fin 1 → ℕ) (hoff : off 0 = j.val) (hs : S3.Slices off S1) (i : S_.Idx) :
    shapeCast S_ (extractStridedSlice S1 off
      (Host.reduceAdd (F := Ideal) (shapeCast S2x3 G shapeCasts_S2x1x3_S2x3) (constant S_ .f32 0x00000000#32) reducesTo_S2x3_S3_d0 h_S_) hs)
      shapeCasts_S1_S_ i = colSum G j := by
  rw [← rows_added G j]
  generalize Host.reduceAdd (F := Ideal) (shapeCast S2x3 G shapeCasts_S2x1x3_S2x3) (constant S_ .f32 0x00000000#32) reducesTo_S2x3_S3_d0 h_S_ = v
  refine (shapeCast_apply _ shapeCasts_S1_S_ i (ix1 (0 : Fin 1)) ?_).trans ?_
  · rewrite [Shape.rowMajor_val_one]; rfl
  · exact extractStridedSlice_apply off v hs (ix1 (0 : Fin 1)) (ix1 j) (fun a => match a with
      | ⟨0, _⟩ => by show j.val = off 0 + 0; omega)

/-- The array the tail finds in the region's output buffer is the one the region leaves. -/
theorem found_out (c : Dev nD) (G : S2x1x3.Idx → EReal) (hG : (dats m 0 c).arrAt 5 cfg0.N = G) :
    Pipeline.withArrays (cfgs 0).spec c (V0 m c) (fun w => (dats m 0 c).arrAt w (cfgs 0).N) (Proc.tc.devRef main_v9) = G :=
  (Pipeline.withArrays_arr spec0 launch0.win.arr_inj c _ _ 5).trans hG

/-- The first mean the tail computes: entry 0's row sum over 1 000 000. -/
theorem tail_focal (c : Dev nD) (G : S2x1x3.Idx → EReal) (hG : (dats m 0 c).arrAt 5 cfg0.N = G) :
    Pipeline.afterTail₀ cfgs (dats m) 0 (V0 m) [hostOps1] c main_v18 = fun _ => Ideal.div (colSum G 0) Cert.Spec.million := by
  unfold Pipeline.afterTail₀
  show StableHlo.after hostOps1 _ (Proc.devRef .tc main_v18) = _
  after_results
  funext i
  show Ideal.div (shapeCast S_ (extractStridedSlice S1 ![0]
      (Host.reduceAdd (F := Ideal) (shapeCast S2x3 (Pipeline.withArrays (cfgs 0).spec c (V0 m c) (fun w => (dats m 0 c).arrAt w (cfgs 0).N) (Proc.tc.devRef main_v9)) shapeCasts_S2x1x3_S2x3) (constant S_ .f32 0x00000000#32) reducesTo_S2x3_S3_d0 h_S_) slices_S3_S1_0)
      shapeCasts_S1_S_ i) (Ideal.ofBits .f32 0x49742400#32) = _
  rw [found_out m c G hG, entry_scalar G 0 ![0] rfl]

/-- The tail's scalar at slice offset off of an array A's row sum, as the operations spell it. -/
abbrev tailScalar (A : S2x1x3.Idx → EReal) (off : Fin 1 → ℕ) (hs : S3.Slices off S1) : S_.Idx → EReal :=
  shapeCast S_ (extractStridedSlice S1 off
    (Host.reduceAdd (F := Ideal) (shapeCast S2x3 A shapeCasts_S2x1x3_S2x3) (constant S_ .f32 0x00000000#32) reducesTo_S2x3_S3_d0 h_S_) hs)
    shapeCasts_S1_S_

/-- The second mean the tail computes: entry 1's row sum over 1 000 000. -/
theorem tail_giou (c : Dev nD) (G : S2x1x3.Idx → EReal) (hG : (dats m 0 c).arrAt 5 cfg0.N = G) :
    Pipeline.afterTail₀ cfgs (dats m) 0 (V0 m) [hostOps1] c main_v19 = fun _ => Ideal.div (colSum G 1) Cert.Spec.million := by
  unfold Pipeline.afterTail₀
  show StableHlo.after hostOps1 _ (Proc.devRef .tc main_v19) = _
  after_results
  funext i
  show Ideal.div (tailScalar (Pipeline.withArrays (cfgs 0).spec c (V0 m c) (fun w => (dats m 0 c).arrAt w (cfgs 0).N) (Proc.tc.devRef main_v9)) ![1] slices_S3_S1_1 i) (Ideal.ofBits .f32 0x49742400#32) = _
  rw [found_out m c G hG]
  show Ideal.div (shapeCast S_ _ shapeCasts_S1_S_ i) _ = _
  rw [entry_scalar G 1 ![1] rfl]

/-- The third mean the tail computes: entry 2's row sum over 1 000 000. -/
theorem tail_center (c : Dev nD) (G : S2x1x3.Idx → EReal) (hG : (dats m 0 c).arrAt 5 cfg0.N = G) :
    Pipeline.afterTail₀ cfgs (dats m) 0 (V0 m) [hostOps1] c main_v20 = fun _ => Ideal.div (colSum G 2) Cert.Spec.million := by
  unfold Pipeline.afterTail₀
  show StableHlo.after hostOps1 _ (Proc.devRef .tc main_v20) = _
  after_results
  funext i
  show Ideal.div (tailScalar (Pipeline.withArrays (cfgs 0).spec c (V0 m c) (fun w => (dats m 0 c).arrAt w (cfgs 0).N) (Proc.tc.devRef main_v9)) ![2] slices_S3_S1_2 i) (Ideal.ofBits .f32 0x49742400#32) = _
  rw [found_out m c G hG]
  show Ideal.div (shapeCast S_ _ shapeCasts_S1_S_ i) _ = _
  rw [entry_scalar G 2 ![2] rfl]

set_option maxHeartbeats 1600000 in
/-- The total the tail computes: the first mean plus the second, plus 1/10 of the third. -/
theorem tail_total (c : Dev nD) (G : S2x1x3.Idx → EReal) (hG : (dats m 0 c).arrAt 5 cfg0.N = G) :
    Pipeline.afterTail₀ cfgs (dats m) 0 (V0 m) [hostOps1] c main_v23
      = fun _ => (Ideal.div (colSum G 0) Cert.Spec.million + Ideal.div (colSum G 1) Cert.Spec.million)
          + Cert.Spec.tenth * Ideal.div (colSum G 2) Cert.Spec.million := by
  unfold Pipeline.afterTail₀
  show StableHlo.after hostOps1 _ (Proc.devRef .tc main_v23) = _
  after_results
  simp only [found_out m c G hG]
  funext i
  have e0 := entry_scalar G 0 ![0] rfl slices_S3_S1_0 i
  have e1 := entry_scalar G 1 ![1] rfl slices_S3_S1_1 i
  have e2 := entry_scalar G 2 ![2] rfl slices_S3_S1_2 i
  exact congrArg₂ (fun a b : EReal => a + b)
    (congrArg₂ (fun a b : EReal => Ideal.div a Cert.Spec.million + Ideal.div b Cert.Spec.million) e0 e1)
    (congrArg (fun a : EReal => Cert.Spec.tenth * Ideal.div a Cert.Spec.million) e2)

end Cert.KernelIdeal.Hand

end
-- ==== Proof.KValue.lean ====
/-
  The idealized kernel's four results as functions of its arguments.

  Entry j of the output array's two rows, added, is the sum over all 62 blocks of entry j's block
  sums; a block sum is over the block's 16 384 rows, those past row 1 000 000 contributing zero,
  and inside the array a block's row is the argument's row (block t, row r is row 16384 t + r);
  so the column sums are the sums over all 1 000 000 rows of the focal, GIoU and centerness row
  losses. The host operations after the region divide by 1 000 000 and combine: the four results
  are the total, the focal mean, the GIoU mean and the centerness mean of the specification.
-/
import proofs.«408445_j48344151884162_2_alg».proof.Proof.KAccum
import proofs.«408445_j48344151884162_2_alg».proof.Proof.KTail

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- Entry j of the output array's two rows, added, is the sum of entry j's block sums over all
    62 blocks. -/
theorem colSum_out (c : Dev nD) (j : Fin 3) :
    colSum (outArr m c) j = Ideal.ofBits .f32 0x00000000#32 + ∑ p : Fin 62, btermN m c p.val j := by
  unfold colSum
  refine congrArg (_ + ·) ?_
  rw [← Cert.SumLaws.sum_cores (fun p => btermN m c p j)]
  refine Finset.sum_congr rfl fun k _ => ?_
  show (∑ s ∈ Finset.range 31, btermN m c (31 * k.val + s) ⟨j.val, _⟩) = _
  rw [Finset.sum_range]

/-- The focal block sums over all blocks are the focal sum over all rows. -/
theorem focal_blocks (c : Dev nD) :
    (∑ p : Fin 62, btermN m c p.val 0)
      = Cert.Spec.focalSum (m ((c.tc : Thread nD τ).loc main_arg0)) (m ((c.tc : Thread nD τ).loc main_arg4)) := by
  have hN : cfg0.N = 62 := N_0
  unfold Cert.Spec.focalSum
  rw [← Cert.SumLaws.sum_blocks (fun i => Cert.Spec.focalRow (fun k => m ((c.tc : Thread nD τ).loc main_arg0) (ix2 i k)) (m ((c.tc : Thread nD τ).loc main_arg4) (ix1 i)))]
  refine Finset.sum_congr rfl fun p _ => ?_
  have hp : p.val < cfg0.N := by rw [hN]; exact p.isLt
  rw [btermN_of_lt m c p.val hp 0, bterm, if_pos (show ((0 : Fin 3) : ℕ) = 0 from rfl)]
  unfold Cert.Spec.blockFocal
  refine Finset.sum_congr rfl fun r _ => ?_
  by_cases h : 16384 * p.val + r.val < 1000000
  · rw [if_pos h, dif_pos h]
    have e4 := blk4_apply m c ⟨p.val, hp⟩ r h
    have e0 : (fun k : Fin 80 => blk0 m c ⟨p.val, hp⟩ (ix2 r k)) = fun k => m ((c.tc : Thread nD τ).loc main_arg0) (ix2 (⟨16384 * p.val + r.val, h⟩ : Fin 1000000) k) :=
      funext fun k => blk0_apply m c ⟨p.val, hp⟩ r k h
    rw [e0, e4]
  · rw [if_neg h, dif_neg h]

/-- The GIoU block sums over all blocks are the GIoU sum over all rows. -/
theorem giou_blocks (c : Dev nD) :
    (∑ p : Fin 62, btermN m c p.val 1)
      = Cert.Spec.giouSum (m ((c.tc : Thread nD τ).loc main_arg1)) (m ((c.tc : Thread nD τ).loc main_arg3)) := by
  have hN : cfg0.N = 62 := N_0
  unfold Cert.Spec.giouSum
  rw [← Cert.SumLaws.sum_blocks (fun i => Cert.Spec.giouRow (fun a => m ((c.tc : Thread nD τ).loc main_arg1) (ix2 i a)) (fun a => m ((c.tc : Thread nD τ).loc main_arg3) (ix2 i a)))]
  refine Finset.sum_congr rfl fun p _ => ?_
  have hp : p.val < cfg0.N := by rw [hN]; exact p.isLt
  rw [btermN_of_lt m c p.val hp 1, bterm, if_neg (show ¬(((1 : Fin 3) : ℕ) = 0) from by decide), if_pos (show ((1 : Fin 3) : ℕ) = 1 from rfl)]
  unfold Cert.Spec.blockGiou
  refine Finset.sum_congr rfl fun r _ => ?_
  by_cases h : 16384 * p.val + r.val < 1000000
  · rw [if_pos h, dif_pos h]
    have e1 : (fun a : Fin 4 => blk1 m c ⟨p.val, hp⟩ (ix2 a r)) = fun a => m ((c.tc : Thread nD τ).loc main_arg1) (ix2 (⟨16384 * p.val + r.val, h⟩ : Fin 1000000) a) :=
      funext fun a => blk1_apply m c ⟨p.val, hp⟩ a r h
    have e3 : (fun a : Fin 4 => blk3 m c ⟨p.val, hp⟩ (ix2 a r)) = fun a => m ((c.tc : Thread nD τ).loc main_arg3) (ix2 (⟨16384 * p.val + r.val, h⟩ : Fin 1000000) a) :=
      funext fun a => blk3_apply m c ⟨p.val, hp⟩ a r h
    rw [e1, e3]
  · rw [if_neg h, dif_neg h]

/-- The centerness block sums over all blocks are the centerness sum over all rows. -/
theorem center_blocks (c : Dev nD) :
    (∑ p : Fin 62, btermN m c p.val 2) = Cert.Spec.centerSum (m ((c.tc : Thread nD τ).loc main_arg2)) := by
  have hN : cfg0.N = 62 := N_0
  unfold Cert.Spec.centerSum
  rw [← Cert.SumLaws.sum_blocks (fun i => Cert.Spec.softplusRow (m ((c.tc : Thread nD τ).loc main_arg2) (ix1 i)))]
  refine Finset.sum_congr rfl fun p _ => ?_
  have hp : p.val < cfg0.N := by rw [hN]; exact p.isLt
  rw [btermN_of_lt m c p.val hp 2, bterm, if_neg (show ¬(((2 : Fin 3) : ℕ) = 0) from by decide), if_neg (show ¬(((2 : Fin 3) : ℕ) = 1) from by decide)]
  unfold Cert.Spec.blockCenter
  refine Finset.sum_congr rfl fun r _ => ?_
  by_cases h : 16384 * p.val + r.val < 1000000
  · rw [if_pos h, dif_pos h, blk2_apply m c ⟨p.val, hp⟩ r h]
  · rw [if_neg h, dif_neg h]

/-- The three means the tail computes are the specification's. -/
theorem mean_focal (c : Dev nD) :
    Ideal.div (colSum (outArr m c) 0) Cert.Spec.million
      = Cert.Spec.focalLoss (m ((c.tc : Thread nD τ).loc main_arg0)) (m ((c.tc : Thread nD τ).loc main_arg4)) := by
  rw [colSum_out, focal_blocks, Ideal.ofBits_zero_f32, zero_add]; rfl

theorem mean_giou (c : Dev nD) :
    Ideal.div (colSum (outArr m c) 1) Cert.Spec.million
      = Cert.Spec.giouLoss (m ((c.tc : Thread nD τ).loc main_arg1)) (m ((c.tc : Thread nD τ).loc main_arg3)) := by
  rw [colSum_out, giou_blocks, Ideal.ofBits_zero_f32, zero_add]; rfl

theorem mean_center (c : Dev nD) :
    Ideal.div (colSum (outArr m c) 2) Cert.Spec.million
      = Cert.Spec.centerLoss (m ((c.tc : Thread nD τ).loc main_arg2)) := by
  rw [colSum_out, center_blocks, Ideal.ofBits_zero_f32, zero_add]; rfl

/-- THE KERNEL'S RUN, READ: every weakly fair execution terminates with the four results at the
    specification's total, focal mean, GIoU mean and centerness mean of the arguments, and the
    arguments unchanged. -/
theorem run : θ_run defs (onTc (τ := τ) (main (F := Ideal))) ⟨m, fun _ => 0, ρ⟩ fun r => ∀ c : Dev nD,
      r.2.mem ((c.tc : Thread nD τ).loc main_v23) = (fun _ => Cert.Spec.totalLoss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v18) = (fun _ => Cert.Spec.focalLoss (m ((c.tc : Thread nD τ).loc main_arg0)) (m ((c.tc : Thread nD τ).loc main_arg4)))
      ∧ r.2.mem ((c.tc : Thread nD τ).loc main_v19) = (fun _ => Cert.Spec.giouLoss (m ((c.tc : Thread nD τ).loc main_arg1)) (m ((c.tc : Thread nD τ).loc main_arg3)))
      ∧ r.2.mem ((c.tc : Thread nD τ).loc main_v20) = (fun _ => Cert.Spec.centerLoss (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v23 (Pipeline.mem_restRefs_of main_v23 (by decide) (by decide))).trans
        ((tail_total m c (outArr m c) (final_out m c)).trans (by
          funext _; unfold Cert.Spec.totalLoss; rw [mean_focal, mean_giou, mean_center])),
      ((h c).2 main_v18 (Pipeline.mem_restRefs_of main_v18 (by decide) (by decide))).trans
        ((tail_focal m c (outArr m c) (final_out m c)).trans (by funext _; exact mean_focal m c)),
      ((h c).2 main_v19 (Pipeline.mem_restRefs_of main_v19 (by decide) (by decide))).trans
        ((tail_giou m c (outArr m c) (final_out m c)).trans (by funext _; exact mean_giou m c)),
      ((h c).2 main_v20 (Pipeline.mem_restRefs_of main_v20 (by decide) (by decide))).trans
        ((tail_center m c (outArr m c) (final_out m c)).trans (by funext _; exact mean_center m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.lean ====
/-
  The detection loss of a Pallas kernel against its jnp reference, over the extended reals.

  Both programs compute, from 1 000 000 rows of 80 class logits, predicted and target boxes,
  centerness logits and target classes, three means and their weighted total: the focal loss
  1/4 (1 - p)^2 ce of the cross entropy ce of each row against its class, the generalized-IoU
  loss of each pair of boxes, and softplus (-c) of each centerness logit; the total is
  focal + giou + 1/10 centerness.

  The kernel pads the rows to 62 blocks of 16 384, masks the rows past 1 000 000 to zero, sums
  each block's three losses and accumulates them over two runs of 31 blocks; the host then adds
  the two runs, divides by 1 000 000 and combines. Addition on the extended reals is commutative
  and associative with no side condition, so these sums are the reference's sums over all rows.
  Row by row the GIoU and softplus terms are the same operations on both sides (the reference
  negates where the kernel subtracts from zero). The focal rows differ in three spellings: the
  reference negates (s_g - lse) where the kernel computes lse - s_g, picks the target's logit by a
  gather where the kernel sums a one-hot select over the classes, and squares by a power with
  exponent 2 where the kernel multiplies. These agree when the logits are real numbers (the
  precondition) and the class words lie in 0..79, the label range the reference's gather needs:
  outside it the gather wraps or fills with a NaN pattern while the one-hot select picks nothing,
  so that range is stated in the precondition.

  The frames of the two kernel programs and the reference's run are generated modules; what is
  proved in the modules imported here is that each program's results are the same functions of
  the arguments.
-/
import proofs.«408445_j48344151884162_2_alg».proof.Defs
import proofs.«408445_j48344151884162_2_alg».proof.Proof.Gen.Kernel
import proofs.«408445_j48344151884162_2_alg».proof.Proof.Gen.Kernel.Frame
import proofs.«408445_j48344151884162_2_alg».proof.Proof.Gen.KernelIdeal
import proofs.«408445_j48344151884162_2_alg».proof.Proof.Gen.KernelIdeal.Frame
import proofs.«408445_j48344151884162_2_alg».proof.Proof.Gen.ReferenceIdeal
import proofs.«408445_j48344151884162_2_alg».proof.Proof.Gen.Pre_finite_inputs
import proofs.«408445_j48344151884162_2_alg».proof.Proof.RefRunOps
import proofs.«408445_j48344151884162_2_alg».proof.Proof.RefReadP
import proofs.«408445_j48344151884162_2_alg».proof.Proof.RefRunH15
import proofs.«408445_j48344151884162_2_alg».proof.Proof.RefRunH
import proofs.«408445_j48344151884162_2_alg».proof.Proof.RefFocal
import proofs.«408445_j48344151884162_2_alg».proof.Proof.RefRest
import proofs.«408445_j48344151884162_2_alg».proof.Proof.PreFacts
import proofs.«408445_j48344151884162_2_alg».proof.Proof.KValue
import Idealize.ShloMosaic.Adequacy
import Idealize.ShloMosaic.Init

noncomputable section

namespace Cert.Proof

open Idealize.ShloMosaic Idealize.ShloMosaic.TcCoe Idealize.SL.Sem

/-! ## The reference's total from its three means -/

/-- The reference's total (its first result) is the specification's, given its three means. -/
theorem ref_total (X : (⟨Cert.ReferenceIdeal.S1000000x80, .f32⟩ : BufTy).Contents (Elt Ideal))
    (B : (⟨Cert.ReferenceIdeal.S1000000x4, .f32⟩ : BufTy).Contents (Elt Ideal))
    (C : (⟨Cert.ReferenceIdeal.S1000000, .f32⟩ : BufTy).Contents (Elt Ideal))
    (G : (⟨Cert.ReferenceIdeal.S1000000x4, .f32⟩ : BufTy).Contents (Elt Ideal))
    (L : (⟨Cert.ReferenceIdeal.S1000000, .i32⟩ : BufTy).Contents (Elt Ideal))
    (hX : ∀ i, ∃ r : ℝ, X i = (r : EReal)) (hL : ∀ i, (L i).toNat < 80) :
    Cert.ReferenceIdeal.ReadP.val_main_v86 (F := Ideal) X B C G L = fun _ => Cert.Spec.totalLoss X B C G L := by
  funext i
  rw [Cert.ReferenceIdeal.ReadP.val_main_v86_apply, Cert.ReferenceIdeal.ReadP.val_main_v84_apply,
    Cert.ReferenceIdeal.ReadP.val_main_v85_apply, Cert.ReferenceIdeal.ReadP.val_main_cst_14_apply,
    Cert.ReferenceIdeal.RefValue.focal_eq X L hX hL, Cert.ReferenceIdeal.RefValue.giou_eq B G,
    Cert.ReferenceIdeal.RefValue.center_eq C]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run, with the results dropped. -/
theorem frame_ri : Cert.frame_ReferenceIdeal := fun m ρ _ =>
  (θ_run Cert.ReferenceIdeal.defs _ _).mono (fun _ h c => (h c).2.2.2.2) (Cert.ReferenceIdeal.RunH.run_vals (F := Ideal) (fun V => Cert.ReferenceIdeal.RunH.after_v15 V) m ρ)

/-- The ideal pass rewrote nothing: the idealization is the kernel's own text read at the
    extended reals. -/
theorem preserves : Cert.preserves_Kernel_KernelIdeal := trivial

/-- From memories agreeing on the arguments, under the precondition, both programs end with the
    specification's total, focal mean, GIoU mean and centerness mean of the arguments. -/
theorem algebraic : Cert.algebraic_KernelIdeal_ReferenceIdeal := by
  intro m ρ m' ρ' hpre hagree
  refine ⟨_, _, _, _, Cert.KernelIdeal.Hand.run m ρ, ?_⟩
  refine (θ_run Cert.ReferenceIdeal.defs _ _).mono (fun _ h c => ?_) (Cert.ReferenceIdeal.RunH.run_vals (F := Ideal) (fun V => Cert.ReferenceIdeal.RunH.after_v15 V) m' ρ')
  obtain ⟨a0, a1, a2, a3, a4⟩ := hagree c
  obtain ⟨hX, hL⟩ := Cert.PreFacts.of_pre _ _ _ _ _ (hpre c)
  obtain ⟨r0, r1, r2, r3, k0, k1, k2, k3, k4⟩ := h c
  refine ⟨r0.trans ?_, r1.trans ?_, r2.trans ?_, r3.trans ?_, k0, k1, k2, k3, k4⟩
  · rw [a0, a1, a2, a3, a4]
    exact ref_total _ _ _ _ _ hX hL
  · rw [a0, a4]
    exact Cert.ReferenceIdeal.RefValue.focal_eq _ _ hX hL
  · rw [a1, a3]
    exact Cert.ReferenceIdeal.RefValue.giou_eq _ _
  · rw [a2]
    exact Cert.ReferenceIdeal.RefValue.center_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
